-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v15) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_v30) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S12288x1000 : Shape := ⟨2, ![12288, 1000]⟩
abbrev S4096 : Shape := ⟨1, ![4096]⟩
abbrev S1000x512 : Shape := ⟨2, ![1000, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S12288x1000 : S_.BroadcastsInDim S12288x1000 (![] : Fin 0 → Fin S12288x1000.rank)
  reducesTo_S12288x1000_S_d0_1 : S12288x1000.ReducesTo [0, 1] S_
  bcast_S_S1000x512 : S_.BroadcastsInDim S1000x512 (![] : Fin 0 → Fin S1000x512.rank)
  reducesTo_S1000x512_S_d0_1 : S1000x512.ReducesTo [0, 1] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg5 : IVec S4096 32) (main_v30 : IVec S_ 1) (main_v32 : IVec S4096 1) (main_c_12 : IVec S_ 32) : IVec S_ 1 :=
  let main_v33 : IVec S4096 32 := broadcastInDim S4096 ![] bcast_S_S4096 main_c_12
  let main_v34 : IVec S4096 1 := cmpi .slt main_arg5 main_v33
  let main_v35 : IVec S4096 1 := andi main_v32 main_v34
  let main_c_13 : IVec S_ 1 := constantI S_ 1 1#1
  let main_v36 : IVec S_ 1 := (fun x v => Host.reduce IntOp.andi x v reducesTo_S4096_S_d0 h_S_) main_v35 main_c_13
  let main_v37 : IVec S_ 1 := andi main_v30 main_v36
  main_v37

def fn_part1 {F : FTy → Type} [FloatOps F] (main_arg4 : IVec S4096 32) (main_arg5 : IVec S4096 32) (main_arg6 : FVec F S1000x512 .f32) (main_v13 : IVec S_ 1) (main_v16 : IVec S12288x1000 1) : IVec S_ 1 :=
  let main_c_5 : IVec S_ 1 := constantI S_ 1 1#1
  let main_v17 : IVec S_ 1 := (fun x v => Host.reduce IntOp.andi x v reducesTo_S12288x1000_S_d0_1 h_S_) main_v16 main_c_5
  let main_v18 : IVec S_ 1 := andi main_v13 main_v17
  let main_v19 : FVec F S1000x512 .f32 := Host.absf main_arg6
  let main_cst_6 : FVec F S_ .f32 := constant S_ .f32 0x7F800000#32
  let main_v20 : FVec F S1000x512 .f32 := broadcastInDim S1000x512 ![] bcast_S_S1000x512 main_cst_6
  let main_v21 : IVec S1000x512 1 := cmpf .olt main_v19 main_v20
  let main_c_7 : IVec S_ 1 := constantI S_ 1 1#1
  let main_v22 : IVec S_ 1 := (fun x v => Host.reduce IntOp.andi x v reducesTo_S1000x512_S_d0_1 h_S_) main_v21 main_c_7
  let main_v23 : IVec S_ 1 := andi main_v18 main_v22
  let main_c_8 : IVec S_ 32 := constantI S_ 32 0#32
  let main_v24 : IVec S4096 32 := broadcastInDim S4096 ![] bcast_S_S4096 main_c_8
  let main_v25 : IVec S4096 1 := cmpi .sge main_arg4 main_v24
  let main_c_9 : IVec S_ 32 := constantI S_ 32 1000#32
  let main_v26 : IVec S4096 32 := broadcastInDim S4096 ![] bcast_S_S4096 main_c_9
  let main_v27 : IVec S4096 1 := cmpi .slt main_arg4 main_v26
  let main_v28 : IVec S4096 1 := andi main_v25 main_v27
  let main_c_10 : IVec S_ 1 := constantI S_ 1 1#1
  let main_v29 : IVec S_ 1 := (fun x v => Host.reduce IntOp.andi x v reducesTo_S4096_S_d0 h_S_) main_v28 main_c_10
  let main_v30 : IVec S_ 1 := andi main_v23 main_v29
  let main_c_11 : IVec S_ 32 := constantI S_ 32 0#32
  let main_v31 : IVec S4096 32 := broadcastInDim S4096 ![] bcast_S_S4096 main_c_11
  let main_v32 : IVec S4096 1 := cmpi .sge main_arg5 main_v31
  let main_c_12 : IVec S_ 32 := constantI S_ 32 1000#32
  fn_part2 (F := F) main_arg5 main_v30 main_v32 main_c_12

def fn {F : FTy → Type} [FloatOps F] (main_arg0 : FVec F S4096x512 .f32) (main_arg1 : FVec F S4096x512 .f32) (main_arg2 : FVec F S4096x512 .f32) (main_arg3 : FVec F S12288x1000 .f32) (main_arg4 : IVec S4096 32) (main_arg5 : IVec S4096 32) (main_arg6 : FVec F S1000x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S12288x1000 .f32 := Host.absf main_arg3
  let main_cst_4 : FVec F S_ .f32 := constant S_ .f32 0x7F800000#32
  let main_v15 : FVec F S12288x1000 .f32 := broadcastInDim S12288x1000 ![] bcast_S_S12288x1000 main_cst_4
  let main_v16 : IVec S12288x1000 1 := cmpf .olt main_v14 main_v15
  fn_part1 (F := F) main_arg4 main_arg5 main_arg6 main_v13 main_v16
-- ==== Kernel.lean ====
abbrev S4096x512 : Shape := ⟨2, ![4096, 512]⟩
abbrev S12288x1000 : Shape := ⟨2, ![12288, 1000]⟩
abbrev S4096 : Shape := ⟨1, ![4096]⟩
abbrev S1000x512 : Shape := ⟨2, ![1000, 512]⟩
abbrev S12288 : Shape := ⟨1, ![12288]⟩
abbrev S12288x1 : Shape := ⟨2, ![12288, 1]⟩
abbrev S12x8x128 : Shape := ⟨3, ![12, 8, 128]⟩
abbrev S1024x1000 : Shape := ⟨2, ![1024, 1000]⟩
abbrev S1024x1 : Shape := ⟨2, ![1024, 1]⟩
abbrev S1x8x128 : Shape := ⟨3, ![1, 8, 128]⟩
abbrev S1024 : Shape := ⟨1, ![1024]⟩
abbrev S1 : Shape := ⟨1, ![1]⟩
abbrev S1x1 : Shape := ⟨2, ![1, 1]⟩
abbrev S8x128 : Shape := ⟨2, ![8, 128]⟩
abbrev S_ : Shape := ⟨0, ![]⟩
abbrev S1000 : Shape := ⟨1, ![1000]⟩
abbrev S1x1000 : Shape := ⟨2, ![1, 1000]⟩
abbrev S4096x1 : Shape := ⟨2, ![4096, 1]⟩
abbrev S8x8x128 : Shape := ⟨3, ![8, 8, 128]⟩
abbrev S512x512 : Shape := ⟨2, ![512, 512]⟩
abbrev S512x1 : Shape := ⟨2, ![512, 1]⟩
abbrev S512 : Shape := ⟨1, ![512]⟩
abbrev S512x1000 : Shape := ⟨2, ![512, 1000]⟩

abbrev nBuf : Space → Nat
  | .hbm => 38
  | .vmem => 20
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S12288x1000, .f32⟩
  | .hbm, ⟨4, _⟩ => ⟨S4096, .i32⟩
  | .hbm, ⟨5, _⟩ => ⟨S4096, .i32⟩
  | .hbm, ⟨6, _⟩ => ⟨S1000x512, .f32⟩
  | .hbm, ⟨7, _⟩ => ⟨S12288, .i32⟩
  | .hbm, ⟨8, _⟩ => ⟨S12288x1, .i32⟩
  | .hbm, ⟨9, _⟩ => ⟨S12x8x128, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1000x512, .bf16⟩
  | .hbm, ⟨17, _⟩ => ⟨S1000x512, .f32⟩
  | .hbm, ⟨18, _⟩ => ⟨S_, .f32⟩
  | .hbm, ⟨19, _⟩ => ⟨S1000, .f32⟩
  | .hbm, ⟨20, _⟩ => ⟨S1x1000, .f32⟩
  | .hbm, ⟨21, _⟩ => ⟨S4096x1, .i32⟩
  | .hbm, ⟨22, _⟩ => ⟨S8x8x128, .f32⟩
  | .hbm, ⟨23, _⟩ => ⟨S8x8x128, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .local _ .vmem, ⟨0, _⟩ => ⟨S1024x1000, .f32⟩
  | .local _ .vmem, ⟨1, _⟩ => ⟨S1024x1000, .f32⟩
  | .local _ .vmem, ⟨2, _⟩ => ⟨S1024x1, .i32⟩
  | .local _ .vmem, ⟨3, _⟩ => ⟨S1024x1, .i32⟩
  | .local _ .vmem, ⟨4, _⟩ => ⟨S1x8x128, .f32⟩
  | .local _ .vmem, ⟨5, _⟩ => ⟨S1x8x128, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S1000x512, .bf16⟩
  | .local _ .vmem, ⟨13, _⟩ => ⟨S1x1000, .f32⟩
  | .local _ .vmem, ⟨14, _⟩ => ⟨S512x1, .i32⟩
  | .local _ .vmem, ⟨15, _⟩ => ⟨S512x1, .i32⟩
  | .local _ .vmem, ⟨16, _⟩ => ⟨S1x8x128, .f32⟩
  | .local _ .vmem, ⟨17, _⟩ => ⟨S1x8x128, .f32⟩
  | .local _ .vmem, ⟨18, _⟩ => ⟨S1x8x128, .f32⟩
  | .local _ .vmem, ⟨19, _⟩ => ⟨S1x8x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_cst_3 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_cst_5 : Ref sig .tc := ⟨.hbm, 28, rfl⟩
abbrev main_v14 : Ref sig .tc := ⟨.hbm, 29, rfl⟩
abbrev main_cst_6 : Ref sig .tc := ⟨.hbm, 30, rfl⟩
abbrev main_v15 : Ref sig .tc := ⟨.hbm, 31, rfl⟩
abbrev main_cst_7 : Ref sig .tc := ⟨.hbm, 32, rfl⟩
abbrev main_v16 : Ref sig .tc := ⟨.hbm, 33, rfl⟩
abbrev main_v17 : Ref sig .tc := ⟨.hbm, 34, rfl⟩
abbrev main_cst_8 : Ref sig .tc := ⟨.hbm, 35, rfl⟩
abbrev main_v18 : Ref sig .tc := ⟨.hbm, 36, rfl⟩
abbrev main_v19 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1000x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1000 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x1 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x8x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x8x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  concatenates_S4096_S4096_S4096_S12288_d0 : Shape.Concatenates [S4096, S4096, S4096] S12288 0
  shapeCasts_S12288_S12288x1 : S12288.ShapeCasts S12288x1
  inb_S1024x1000_S1024x1000_0_0 : ∀ a, (![0, 0] : Fin 2 → Nat) a + S1024x1000.size a ≤ S1024x1000.size a
  h_S1024x1000 : 0 < S1024x1000.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reduces_S1024x1000_S1024 : S1024x1000.Reduces [1] S1024
  shapeCasts_S1024_S1024x1 : S1024.ShapeCasts S1024x1
  broadcasts_S1024x1_S1024x1000 : S1024x1.Broadcasts S1024x1000
  iota_S1024x1000_d1_w32 : S1024x1000.Iotas .tc 32 [1]
  reduces_S1024x1_S1 : S1024x1.Reduces [0] S1
  shapeCasts_S1_S1x1 : S1.ShapeCasts S1x1
  shapeCasts_S1x1_S1x1 : S1x1.ShapeCasts S1x1
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  reducesTo_S12x8x128_S_d0_1_2 : S12x8x128.ReducesTo [0, 1, 2] S_
  h_S_ : 0 < S_.numel
  bitsLt_bf16_f32 : FTy.bits .bf16 < FTy.bits .f32
  reducesTo_S1000x512_S1000_d1 : S1000x512.ReducesTo [1] S1000
  bcast_S1000_S1x1000_1 : S1000.BroadcastsInDim S1x1000 (![1] : Fin 1 → Fin S1x1000.rank)
  shapeCasts_S4096_S4096x1 : S4096.ShapeCasts S4096x1
  inb_S512x512_S512x512_0_0 : ∀ a, (![0, 0] : Fin 2 → Nat) a + S512x512.size a ≤ S512x512.size a
  h_S512x512 : 0 < S512x512.numel
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  inb_S512x1_S512x1_0_0 : ∀ a, (![0, 0] : Fin 2 → Nat) a + S512x1.size a ≤ S512x1.size a
  h_S512x1 : 0 < S512x1.numel
  shapeCasts_S512x1_S512x1 : S512x1.ShapeCasts S512x1
  reduces_S512x512_S512 : S512x512.Reduces [1] S512
  shapeCasts_S512_S512x1 : S512.ShapeCasts S512x1
  reduces_S512x1_S1 : S512x1.Reduces [0] S1
  transposes_S1000x512_p1_0_S512x1000 : S1000x512.Transposes [1, 0] S512x1000
  broadcasts_S512x1_S512x1000 : S512x1.Broadcasts S512x1000
  broadcasts_S1x1000_S512x1000 : S1x1000.Broadcasts S512x1000
  iota_S512x1000_d1_w32 : S512x1000.Iotas .tc 32 [1]
  reduces_S512x1000_S512 : S512x1000.Reduces [1] S512
  reducesTo_S8x8x128_S_d0_1_2 : S8x8x128.ReducesTo [0, 1, 2] S_
  dot_S512x512_S512x1000_S512x1000_1_0_0_1_n_n_wf : DotDims.WF S512x512 S512x1000 S512x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1000.size a ≤ S12288x1000.size a
  hwx0_0 : ∀ i : grid0.Coords, EltTy.bits .f32 = 32 ∨ (Rect.block (s := S12288x1000) S1024x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S12288x1.size a
  hwx0_1 : ∀ i : grid0.Coords, EltTy.bits .i32 = 32 ∨ (Rect.block (s := S12288x1) S1024x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S12x8x128.size a
  hwx0_2 : ∀ i : grid0.Coords, EltTy.bits .f32 = 32 ∨ (Rect.block (s := S12x8x128) S1x8x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S4096x512.size a
  hwx1_0 : ∀ i : grid1.Coords, EltTy.bits .f32 = 32 ∨ (Rect.block (s := S4096x512) S512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S4096x512.size a
  hwx1_1 : ∀ i : grid1.Coords, EltTy.bits .f32 = 32 ∨ (Rect.block (s := S4096x512) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S4096x512.size a
  hwx1_2 : ∀ i : grid1.Coords, EltTy.bits .f32 = 32 ∨ (Rect.block (s := S4096x512) S512x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1000x512.size a ≤ S1000x512.size a
  hwx1_3 : ∀ i : grid1.Coords, EltTy.bits .bf16 = 32 ∨ (Rect.block (s := S1000x512) S1000x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1000.size a ≤ S1x1000.size a
  hwx1_4 : ∀ i : grid1.Coords, EltTy.bits .f32 = 32 ∨ (Rect.block (s := S1x1000) S1x1000.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1.size a ≤ S4096x1.size a
  hwx1_5 : ∀ i : grid1.Coords, EltTy.bits .i32 = 32 ∨ (Rect.block (s := S4096x1) S512x1.size (cc1_transform_5 i) (hinb1_5 i)).WholeWords (EltTy.packing .i32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x8x128.size a ≤ S8x8x128.size a
  hwx1_6 : ∀ i : grid1.Coords, EltTy.bits .f32 = 32 ∨ (Rect.block (s := S8x8x128) S1x8x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x8x128.size a ≤ S8x8x128.size a
  hwx1_7 : ∀ i : grid1.Coords, EltTy.bits .f32 = 32 ∨ (Rect.block (s := S8x8x128) S1x8x128.size (cc1_transform_7 i) (hinb1_7 i)).WholeWords (EltTy.packing .f32)

variable [Facts₀]

def dot_S512x512_S512x1000_S512x1000_1_0_0_1_n_n : DotDims S512x512 S512x1000 S512x1000 where
  lhsContracting := [1]
  rhsContracting := [0]
  lhsNonContracting := [0]
  rhsNonContracting := [1]
  lhsBatch := []
  rhsBatch := []
  wf := dot_S512x512_S512x1000_S512x1000_1_0_0_1_n_n_wf

abbrev win0_0 : Pipeline.Window sig grid0 :=
  Pipeline.Window.ofSpec (Memref.whole main_arg3) S1024x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S512x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1000x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1x1000.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10) S512x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v11_0) S1x8x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v11_1) S1x8x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S4096x512 : Shape := ⟨2, ![4096, 512]⟩
abbrev S12288x1000 : Shape := ⟨2, ![12288, 1000]⟩
abbrev S4096 : Shape := ⟨1, ![4096]⟩
abbrev S1000x512 : Shape := ⟨2, ![1000, 512]⟩
abbrev S12288 : Shape := ⟨1, ![12288]⟩
abbrev S_ : Shape := ⟨0, ![]⟩
abbrev S12288x1 : Shape := ⟨2, ![12288, 1]⟩
abbrev S12288x1x1 : Shape := ⟨3, ![12288, 1, 1]⟩
abbrev S1 : Shape := ⟨1, ![1]⟩
abbrev S1x1x1 : Shape := ⟨3, ![1, 1, 1]⟩
abbrev S4096x1 : Shape := ⟨2, ![4096, 1]⟩
abbrev S1000 : Shape := ⟨1, ![1000]⟩
abbrev S1x1000 : Shape := ⟨2, ![1, 1000]⟩
abbrev S4096x1000 : Shape := ⟨2, ![4096, 1000]⟩
abbrev S512x1000 : Shape := ⟨2, ![512, 1000]⟩
abbrev S4096x1x1 : Shape := ⟨3, ![4096, 1, 1]⟩

abbrev nBuf : Space → Nat
  | .hbm => 126
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S12288x1000, .f32⟩
  | .hbm, ⟨4, _⟩ => ⟨S4096, .i32⟩
  | .hbm, ⟨5, _⟩ => ⟨S4096, .i32⟩
  | .hbm, ⟨6, _⟩ => ⟨S1000x512, .f32⟩
  | .hbm, ⟨7, _⟩ => ⟨S12288, .i32⟩
  | .hbm, ⟨8, _⟩ => ⟨S_, .f32⟩
  | .hbm, ⟨9, _⟩ => ⟨S12288, .f32⟩
  | .hbm, ⟨10, _⟩ => ⟨S_, .f32⟩
  | .hbm, ⟨11, _⟩ => ⟨S12288, .f32⟩
  | .hbm, ⟨12, _⟩ => ⟨S12288, .f32⟩
  | .hbm, ⟨13, _⟩ => ⟨S12288x1, .f32⟩
  | .hbm, ⟨14, _⟩ => ⟨S12288x1000, .f32⟩
  | .hbm, ⟨15, _⟩ => ⟨S12288x1000, .f32⟩
  | .hbm, ⟨16, _⟩ => ⟨S12288x1000, .f32⟩
  | .hbm, ⟨17, _⟩ => ⟨S_, .f32⟩
  | .hbm, ⟨18, _⟩ => ⟨S12288, .f32⟩
  | .hbm, ⟨19, _⟩ => ⟨S12288x1, .f32⟩
  | .hbm, ⟨20, _⟩ => ⟨S12288x1, .f32⟩
  | .hbm, ⟨21, _⟩ => ⟨S12288x1000, .f32⟩
  | .hbm, ⟨22, _⟩ => ⟨S12288x1000, .f32⟩
  | .hbm, ⟨23, _⟩ => ⟨S12288x1, .i32⟩
  | .hbm, ⟨24, _⟩ => ⟨S_, .i32⟩
  | .hbm, ⟨25, _⟩ => ⟨S12288x1, .i32⟩
  | .hbm, ⟨26, _⟩ => ⟨S12288x1, .i1⟩
  | .hbm, ⟨27, _⟩ => ⟨S_, .i32⟩
  | .hbm, ⟨28, _⟩ => ⟨S12288x1, .i32⟩
  | .hbm, ⟨29, _⟩ => ⟨S12288x1, .i32⟩
  | .hbm, ⟨30, _⟩ => ⟨S12288x1, .i32⟩
  | .hbm, ⟨31, _⟩ => ⟨S12288x1x1, .i32⟩
  | .hbm, ⟨32, _⟩ => ⟨S1, .i32⟩
  | .hbm, ⟨33, _⟩ => ⟨S_, .i32⟩
  | .hbm, ⟨34, _⟩ => ⟨S12288x1x1, .i32⟩
  | .hbm, ⟨35, _⟩ => ⟨S12288x1x1, .i1⟩
  | .hbm, ⟨36, _⟩ => ⟨S1x1x1, .i32⟩
  | .hbm, ⟨37, _⟩ => ⟨S12288x1x1, .i32⟩
  | .hbm, ⟨38, _⟩ => ⟨S12288x1x1, .i1⟩
  | .hbm, ⟨39, _⟩ => ⟨S12288x1x1, .i1⟩
  | .hbm, ⟨40, _⟩ => ⟨S_, .i1⟩
  | .hbm, ⟨41, _⟩ => ⟨S12288x1, .i1⟩
  | .hbm, ⟨42, _⟩ => ⟨S12288x1, .f32⟩
  | .hbm, ⟨43, _⟩ => ⟨S_, .f32⟩
  | .hbm, ⟨44, _⟩ => ⟨S12288x1, .f32⟩
  | .hbm, ⟨45, _⟩ => ⟨S12288x1, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S4096x512, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S1000x512, .f32⟩
  | .hbm, ⟨56, _⟩ => ⟨S_, .f32⟩
  | .hbm, ⟨57, _⟩ => ⟨S1000, .f32⟩
  | .hbm, ⟨58, _⟩ => ⟨S1x1000, .f32⟩
  | .hbm, ⟨59, _⟩ => ⟨S4096x1000, .f32⟩
  | .hbm, ⟨60, _⟩ => ⟨S4096x1000, .f32⟩
  | .hbm, ⟨61, _⟩ => ⟨S4096x1000, .f32⟩
  | .hbm, ⟨62, _⟩ => ⟨S512x1000, .f32⟩
  | .hbm, ⟨63, _⟩ => ⟨S4096x1000, .f32⟩
  | .hbm, ⟨64, _⟩ => ⟨S_, .f32⟩
  | .hbm, ⟨65, _⟩ => ⟨S4096x1000, .f32⟩
  | .hbm, ⟨66, _⟩ => ⟨S4096x1000, .f32⟩
  | .hbm, ⟨67, _⟩ => ⟨S4096x1000, .f32⟩
  | .hbm, ⟨68, _⟩ => ⟨S_, .f32⟩
  | .hbm, ⟨69, _⟩ => ⟨S4096x1000, .f32⟩
  | .hbm, ⟨70, _⟩ => ⟨S4096x1000, .f32⟩
  | .hbm, ⟨71, _⟩ => ⟨S4096x1000, .f32⟩
  | .hbm, ⟨72, _⟩ => ⟨S4096x1, .i32⟩
  | .hbm, ⟨73, _⟩ => ⟨S_, .i32⟩
  | .hbm, ⟨74, _⟩ => ⟨S4096x1, .i32⟩
  | .hbm, ⟨75, _⟩ => ⟨S4096x1, .i1⟩
  | .hbm, ⟨76, _⟩ => ⟨S_, .i32⟩
  | .hbm, ⟨77, _⟩ => ⟨S4096x1, .i32⟩
  | .hbm, ⟨78, _⟩ => ⟨S4096x1, .i32⟩
  | .hbm, ⟨79, _⟩ => ⟨S4096x1, .i32⟩
  | .hbm, ⟨80, _⟩ => ⟨S4096x1x1, .i32⟩
  | .hbm, ⟨81, _⟩ => ⟨S1, .i32⟩
  | .hbm, ⟨82, _⟩ => ⟨S_, .i32⟩
  | .hbm, ⟨83, _⟩ => ⟨S4096x1x1, .i32⟩
  | .hbm, ⟨84, _⟩ => ⟨S4096x1x1, .i1⟩
  | .hbm, ⟨85, _⟩ => ⟨S1x1x1, .i32⟩
  | .hbm, ⟨86, _⟩ => ⟨S4096x1x1, .i32⟩
  | .hbm, ⟨87, _⟩ => ⟨S4096x1x1, .i1⟩
  | .hbm, ⟨88, _⟩ => ⟨S4096x1x1, .i1⟩
  | .hbm, ⟨89, _⟩ => ⟨S_, .i1⟩
  | .hbm, ⟨90, _⟩ => ⟨S4096x1, .i1⟩
  | .hbm, ⟨91, _⟩ => ⟨S4096x1, .f32⟩
  | .hbm, ⟨92, _⟩ => ⟨S_, .f32⟩
  | .hbm, ⟨93, _⟩ => ⟨S4096x1, .f32⟩
  | .hbm, ⟨94, _⟩ => ⟨S4096x1, .f32⟩
  | .hbm, ⟨95, _⟩ => ⟨S4096, .f32⟩
  | .hbm, ⟨96, _⟩ => ⟨S_, .f32⟩
  | .hbm, ⟨97, _⟩ => ⟨S4096, .f32⟩
  | .hbm, ⟨98, _⟩ => ⟨S4096, .f32⟩
  | .hbm, ⟨99, _⟩ => ⟨S_, .f32⟩
  | .hbm, ⟨100, _⟩ => ⟨S4096, .f32⟩
  | .hbm, ⟨101, _⟩ => ⟨S4096, .f32⟩
  | .hbm, ⟨102, _⟩ => ⟨S_, .f32⟩
  | .hbm, ⟨103, _⟩ => ⟨S_, .f32⟩
  | .hbm, ⟨104, _⟩ => ⟨S4096x512, .f32⟩
  | .hbm, ⟨105, _⟩ => ⟨S4096x512, .f32⟩
  | .hbm, ⟨106, _⟩ => ⟨S_, .f32⟩
  | .hbm, ⟨107, _⟩ => ⟨S4096, .f32⟩
  | .hbm, ⟨108, _⟩ => ⟨S4096, .f32⟩
  | .hbm, ⟨109, _⟩ => ⟨S4096x512, .f32⟩
  | .hbm, ⟨110, _⟩ => ⟨S4096x512, .f32⟩
  | .hbm, ⟨111, _⟩ => ⟨S_, .f32⟩
  | .hbm, ⟨112, _⟩ => ⟨S4096, .f32⟩
  | .hbm, ⟨113, _⟩ => ⟨S4096, .f32⟩
  | .hbm, ⟨114, _⟩ => ⟨S4096, .f32⟩
  | .hbm, ⟨115, _⟩ => ⟨S_, .f32⟩
  | .hbm, ⟨116, _⟩ => ⟨S4096, .f32⟩
  | .hbm, ⟨117, _⟩ => ⟨S4096, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | .hbm, ⟨124, _⟩ => ⟨S_, .f32⟩
  | .hbm, ⟨125, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_cst : Ref sig .tc := ⟨.hbm, 8, rfl⟩
abbrev main_call0_v0 : Ref sig .tc := ⟨.hbm, 9, rfl⟩
abbrev main_call0_cst_0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_cst_1 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_v1 : Ref sig .tc := ⟨.hbm, 22, rfl⟩
abbrev main_v2 : Ref sig .tc := ⟨.hbm, 23, rfl⟩
abbrev main_call1_c : Ref sig .tc := ⟨.hbm, 24, rfl⟩
abbrev main_call1_v0 : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_c_1 : Ref sig .tc := ⟨.hbm, 32, rfl⟩
abbrev main_call1_c_2 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_3 : Ref sig .tc := ⟨.hbm, 40, rfl⟩
abbrev main_call1_v12 : Ref sig .tc := ⟨.hbm, 41, rfl⟩
abbrev main_call1_v13 : Ref sig .tc := ⟨.hbm, 42, rfl⟩
abbrev main_call1_cst : Ref sig .tc := ⟨.hbm, 43, rfl⟩
abbrev main_call1_v14 : Ref sig .tc := ⟨.hbm, 44, rfl⟩
abbrev main_v3 : Ref sig .tc := ⟨.hbm, 45, rfl⟩
abbrev main_cst : Ref sig .tc := ⟨.hbm, 46, rfl⟩
abbrev main_v4 : Ref sig .tc := ⟨.hbm, 47, rfl⟩
abbrev main_cst_0 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_cst_1 : Ref sig .tc := ⟨.hbm, 52, rfl⟩
abbrev main_v8 : Ref sig .tc := ⟨.hbm, 53, rfl⟩
abbrev main_v9 : Ref sig .tc := ⟨.hbm, 54, rfl⟩
abbrev main_v10 : Ref sig .tc := ⟨.hbm, 55, rfl⟩
abbrev main_cst_2 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_cst_3 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_cst_4 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_call2_c : Ref sig .tc := ⟨.hbm, 73, rfl⟩
abbrev main_call2_v0 : Ref sig .tc := ⟨.hbm, 74, rfl⟩
abbrev main_call2_v1 : Ref sig .tc := ⟨.hbm, 75, rfl⟩
abbrev main_call2_c_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_c_1 : Ref sig .tc := ⟨.hbm, 81, rfl⟩
abbrev main_call2_c_2 : Ref sig .tc := ⟨.hbm, 82, rfl⟩
abbrev main_call2_v6 : Ref sig .tc := ⟨.hbm, 83, rfl⟩
abbrev main_call2_v7 : Ref sig .tc := ⟨.hbm, 84, rfl⟩
abbrev main_call2_v8 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_c_3 : Ref sig .tc := ⟨.hbm, 89, rfl⟩
abbrev main_call2_v12 : Ref sig .tc := ⟨.hbm, 90, rfl⟩
abbrev main_call2_v13 : Ref sig .tc := ⟨.hbm, 91, rfl⟩
abbrev main_call2_cst : Ref sig .tc := ⟨.hbm, 92, rfl⟩
abbrev main_call2_v14 : Ref sig .tc := ⟨.hbm, 93, rfl⟩
abbrev main_v25 : Ref sig .tc := ⟨.hbm, 94, rfl⟩
abbrev main_v26 : Ref sig .tc := ⟨.hbm, 95, rfl⟩
abbrev main_cst_5 : Ref sig .tc := ⟨.hbm, 96, rfl⟩
abbrev main_v27 : Ref sig .tc := ⟨.hbm, 97, rfl⟩
abbrev main_v28 : Ref sig .tc := ⟨.hbm, 98, rfl⟩
abbrev main_call3_cst : Ref sig .tc := ⟨.hbm, 99, rfl⟩
abbrev main_call3_v0 : Ref sig .tc := ⟨.hbm, 100, rfl⟩
abbrev main_v29 : Ref sig .tc := ⟨.hbm, 101, rfl⟩
abbrev main_cst_6 : Ref sig .tc := ⟨.hbm, 102, rfl⟩
abbrev main_v30 : Ref sig .tc := ⟨.hbm, 103, rfl⟩
abbrev main_v31 : Ref sig .tc := ⟨.hbm, 104, rfl⟩
abbrev main_call4_v0 : Ref sig .tc := ⟨.hbm, 105, rfl⟩
abbrev main_call4_cst : Ref sig .tc := ⟨.hbm, 106, rfl⟩
abbrev main_call4_v1 : Ref sig .tc := ⟨.hbm, 107, rfl⟩
abbrev main_v32 : Ref sig .tc := ⟨.hbm, 108, rfl⟩
abbrev main_v33 : Ref sig .tc := ⟨.hbm, 109, rfl⟩
abbrev main_call5_v0 : Ref sig .tc := ⟨.hbm, 110, rfl⟩
abbrev main_call5_cst : Ref sig .tc := ⟨.hbm, 111, rfl⟩
abbrev main_call5_v1 : Ref sig .tc := ⟨.hbm, 112, rfl⟩
abbrev main_v34 : Ref sig .tc := ⟨.hbm, 113, rfl⟩
abbrev main_v35 : Ref sig .tc := ⟨.hbm, 114, rfl⟩
abbrev main_call6_cst : Ref sig .tc := ⟨.hbm, 115, rfl⟩
abbrev main_call6_v0 : Ref sig .tc := ⟨.hbm, 116, rfl⟩
abbrev main_v36 : Ref sig .tc := ⟨.hbm, 117, rfl⟩
abbrev main_cst_7 : Ref sig .tc := ⟨.hbm, 118, rfl⟩
abbrev main_v37 : Ref sig .tc := ⟨.hbm, 119, rfl⟩
abbrev main_cst_8 : Ref sig .tc := ⟨.hbm, 120, rfl⟩
abbrev main_v38 : Ref sig .tc := ⟨.hbm, 121, rfl⟩
abbrev main_v39 : Ref sig .tc := ⟨.hbm, 122, rfl⟩
abbrev main_cst_9 : Ref sig .tc := ⟨.hbm, 123, rfl⟩
abbrev main_v40 : Ref sig .tc := ⟨.hbm, 124, rfl⟩
abbrev main_v41 : Ref sig .tc := ⟨.hbm, 125, rfl⟩

abbrev nD : Nat := 1
abbrev τ : Topo := Topo.v7x

variable {F : FTy → Type} [FloatOps F]

class Facts₀ : Prop where
  concatenates_S4096_S4096_S4096_S12288_d0 : Shape.Concatenates [S4096, S4096, S4096] S12288 0
  reducesTo_S12288x1000_S12288_d1 : S12288x1000.ReducesTo [1] S12288
  h_S_ : 0 < S_.numel
  bcast_S_S12288 : S_.BroadcastsInDim S12288 (![] : Fin 0 → Fin S12288.rank)
  bcast_S12288_S12288x1_0 : S12288.BroadcastsInDim S12288x1 (![0] : Fin 1 → Fin S12288x1.rank)
  bcast_S12288x1_S12288x1000_0_1 : S12288x1.BroadcastsInDim S12288x1000 (![0, 1] : Fin 2 → Fin S12288x1000.rank)
  bcast_S_S12288x1 : S_.BroadcastsInDim S12288x1 (![] : Fin 0 → Fin S12288x1.rank)
  shapeCasts_S12288x1_S12288x1x1 : S12288x1.ShapeCasts S12288x1x1
  bcast_S_S12288x1x1 : S_.BroadcastsInDim S12288x1x1 (![] : Fin 0 → Fin S12288x1x1.rank)
  bcast_S1_S1x1x1_2 : S1.BroadcastsInDim S1x1x1 (![2] : Fin 1 → Fin S1x1x1.rank)
  bcast_S1x1x1_S12288x1x1_0_1_2 : S1x1x1.BroadcastsInDim S12288x1x1 (![0, 1, 2] : Fin 3 → Fin S12288x1x1.rank)
  reducesTo_S12288x1x1_S12288x1_d2 : S12288x1x1.ReducesTo [2] S12288x1
  reducesTo_S12288x1_S_d0_1 : S12288x1.ReducesTo [0, 1] S_
  reducesTo_S4096x512_S4096_d1 : S4096x512.ReducesTo [1] S4096
  bcast_S4096_S4096x1_0 : S4096.BroadcastsInDim S4096x1 (![0] : Fin 1 → Fin S4096x1.rank)
  reducesTo_S1000x512_S1000_d1 : S1000x512.ReducesTo [1] S1000
  bcast_S1000_S1x1000_1 : S1000.BroadcastsInDim S1x1000 (![1] : Fin 1 → Fin S1x1000.rank)
  bcast_S4096x1_S4096x1000_0_1 : S4096x1.BroadcastsInDim S4096x1000 (![0, 1] : Fin 2 → Fin S4096x1000.rank)
  bcast_S1x1000_S4096x1000_0_1 : S1x1000.BroadcastsInDim S4096x1000 (![0, 1] : Fin 2 → Fin S4096x1000.rank)
  transposes_S1000x512_S512x1000_1_0 : S1000x512.Transposes [1, 0] S512x1000
  bcast_S_S4096x1000 : S_.BroadcastsInDim S4096x1000 (![] : Fin 0 → Fin S4096x1000.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  reducesTo_S4096x1000_S4096_d1 : S4096x1000.ReducesTo [1] S4096
  bcast_S_S4096 : S_.BroadcastsInDim S4096 (![] : Fin 0 → Fin S4096.rank)
  reducesTo_S4096_S_d0 : S4096.ReducesTo [0] S_
  gather_S12288x1000_S12288x1x1_S12288x1_n_1_0_0_1_2_11_wf : GatherDims.WF S12288x1000 S12288x1x1 S12288x1 [] [1] [0] [1] [0] 2 ![1, 1]
  dot_S4096x512_S512x1000_S4096x1000_1_0_0_1_n_n_wf : DotDims.WF S4096x512 S512x1000 S4096x1000 [1] [0] [0] [1] [] []
  gather_S4096x1000_S4096x1x1_S4096x1_n_1_0_0_1_2_11_wf : GatherDims.WF S4096x1000 S4096x1x1 S4096x1 [] [1] [0] [1] [0] 2 ![1, 1]

variable [Facts₀]

def gather_S12288x1000_S12288x1x1_S12288x1_n_1_0_0_1_2_11 : GatherDims S12288x1000 S12288x1x1 S12288x1 where
  offsetDims := []
  collapsedSliceDims := [1]
  operandBatchingDims := [0]
  startIndicesBatchingDims := [0]
  startIndexMap := [1]
  indexVectorDim := 2
  sliceSizes := ![1, 1]
  wf := gather_S12288x1000_S12288x1x1_S12288x1_n_1_0_0_1_2_11_wf
def dot_S4096x512_S512x1000_S4096x1000_1_0_0_1_n_n : DotDims S4096x512 S512x1000 S4096x1000 where
  lhsContracting := [1]
  rhsContracting := [0]
  lhsNonContracting := [0]
  rhsNonContracting := [1]
  lhsBatch := []
  rhsBatch := []
  wf := dot_S4096x512_S512x1000_S4096x1000_1_0_0_1_n_n_wf
def gather_S4096x1000_S4096x1x1_S4096x1_n_1_0_0_1_2_11 : GatherDims S4096x1000 S4096x1x1 S4096x1 where
  offsetDims := []
  collapsedSliceDims := [1]
  operandBatchingDims := [0]
  startIndicesBatchingDims := [0]
  startIndexMap := [1]
  indexVectorDim := 2
  sliceSizes := ![1, 1]
  wf := gather_S4096x1000_S4096x1x1_S4096x1_n_1_0_0_1_2_11_wf

class Facts : Prop extends Facts₀ where

variable [Facts]
-- ==== Proof.K.Region0.lean ====
import proofs.«420762_j16913581211856_3_alg».proof.Proof.Gen.Kernel.Launch
import proofs.«420762_j16913581211856_3_alg».proof.Proof.Gen.Kernel.Skeleton
import proofs.«420762_j16913581211856_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The first kernel region (the cross-entropy kernel), at the contents it is entered with

The region runs the kernel once per block of 1024 logit rows (12 points). At a point the body reads the block of
logits and the block of labels whole, and overwrites its one output tile `[1, 8, 128]` whole with a value
computed from the two blocks. Stated here, at any float instance: a window's block at a point; what the body leaves
in the output tile as a function of the two input blocks; the body's run; the region's proof data and its body
obligation. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the point fetched it or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body reads and writes through. -/
abbrev r0_0 : Rect S1024x1000 := Rect.unit (s := S1024x1000) ![0, 0] S1024x1000.size inb_S1024x1000_S1024x1000_0_0
abbrev r0_1 : Rect S1024x1 := Rect.unit (s := S1024x1) ![0, 0] S1024x1.size inb_S1024x1_S1024x1_0_0
abbrev r0_2 : Rect S1x8x128 := Rect.unit (s := S1x8x128) ![0, 0, 0] S1x8x128.size inb_S1x8x128_S1x8x128_0_0_0

/-- The output tile after the body, from the two input blocks: its one store, which covers the tile. -/
def out0_2 (x0 : Vec F S1024x1000 .f32) (x1 : Vec F S1024x1 .i32) : Vec F S1x8x128 .f32 :=
  View.canon [⟨r0_2, k0_pay1 (View.ld x0 r0_0) (View.ld x1 r0_1)⟩]

theorem cover0_2 (p0 : Vec F S1x8x128 .f32) (y : S1x8x128.Idx) :
    ∃ pc ∈ ([⟨r0_2, p0⟩] : List (View.Piece (Elt F) S1x8x128 .f32)), y ∈ pc.1.set :=
  View.cover_of_tiled [⟨r0_2, p0⟩] S1x8x128.size (by rfl) y

set_option maxHeartbeats 1000000 in
/-- The body on whole staging buffers, the inputs' at contents `x0`, `x1` and the output's at anything, runs to the
    end with the inputs' as they were and the output's at `out0_2 x0 x1`. -/
theorem sound_kernel0 (c : Dev nD) (E : Set ℕ) (i : grid0.Coords)
    (arg1 : Memref sig .tc .vmem S1024x1000 .f32) (harg1 : arg1.IsWhole) (arg2 : Memref sig .tc .vmem S1024x1 .i32) (harg2 : arg2.IsWhole)
    (arg3 : Memref sig .tc .vmem S1x8x128 .f32) (harg3 : arg3.IsWhole)
    (x0 : Vec F S1024x1000 .f32) (x1 : Vec F S1024x1 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__xent_kernel i arg1 harg1 arg2 harg2 arg3 harg3) K := by
  simp only [cc0__xent_kernel_eq_skeleton]; unfold cc0__xent_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The region's proof data on core `c`: the arrays as the region finds them; after the body at point `t` each
    input's buffer at its block and the output's at `out0_2` of the two blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Region1.lean ====
import proofs.«420762_j16913581211856_3_alg».proof.Proof.Gen.Kernel.Launch
import proofs.«420762_j16913581211856_3_alg».proof.Proof.Gen.Kernel.Skeleton
import proofs.«420762_j16913581211856_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The second kernel region (the fused triplet and centre kernel), at the contents it is entered with

The region runs the kernel once per block of 512 anchor rows (8 points). At a point the body reads whole the blocks
of the anchors, the positives, the negatives and the anchors' labels, and the two resident arrays (the exemplars
in the narrow format and the row of their squared norms, the same at every point), and overwrites whole its two
output tiles `[1, 8, 128]`: the first with a value computed from the three blocks of vectors, the second with a value
computed from the anchors' block, the two resident arrays and the labels' block. Stated here, at any float instance:
a window's block at a point; what the body leaves in each output tile; the body's run; the region's proof data and
its body obligation. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point, whether the point fetched it or not (the two
    resident windows are fetched at the first point only, and their block index never moves). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body reads and writes through. -/
abbrev r1_a : Rect S512x512 := Rect.unit (s := S512x512) ![0, 0] S512x512.size inb_S512x512_S512x512_0_0
abbrev r1_e : Rect S1000x512 := Rect.unit (s := S1000x512) ![0, 0] S1000x512.size inb_S1000x512_S1000x512_0_0
abbrev r1_q : Rect S1x1000 := Rect.unit (s := S1x1000) ![0, 0] S1x1000.size inb_S1x1000_S1x1000_0_0
abbrev r1_l : Rect S512x1 := Rect.unit (s := S512x1) ![0, 0] S512x1.size inb_S512x1_S512x1_0_0
abbrev r1_o : Rect S1x8x128 := Rect.unit (s := S1x8x128) ![0, 0, 0] S1x8x128.size inb_S1x8x128_S1x8x128_0_0_0

/-- The first output tile after the body, from the blocks of anchors, positives and negatives. -/
def out1_6 (x0 x1 x2 : Vec F S512x512 .f32) : Vec F S1x8x128 .f32 :=
  View.canon [⟨r1_o, k1_pay1 (k1_pay4 (View.ld x0 r1_a) (View.ld x1 r1_a) (View.ld x2 r1_a))⟩]

/-- The second output tile after the body, from the anchors' block, the exemplars, their squared norms and the labels' block. -/
def out1_7 (x0 : Vec F S512x512 .f32) (x3 : Vec F S1000x512 .bf16) (x4 : Vec F S1x1000 .f32) (x5 : Vec F S512x1 .i32) : Vec F S1x8x128 .f32 :=
  View.canon [⟨r1_o, k1_pay2 (k1_pay3 (View.ld x5 r1_l)) (k1_pay5 (View.ld x0 r1_a) (View.ld x3 r1_e) (View.ld x4 r1_q))⟩]

theorem cover1_o (p0 : Vec F S1x8x128 .f32) (y : S1x8x128.Idx) :
    ∃ pc ∈ ([⟨r1_o, p0⟩] : List (View.Piece (Elt F) S1x8x128 .f32)), y ∈ pc.1.set :=
  View.cover_of_tiled [⟨r1_o, p0⟩] S1x8x128.size (by rfl) y

set_option maxHeartbeats 2000000 in
/-- The body on whole staging buffers, the inputs' at contents `x0 … x5` and the outputs' at anything, runs to the
    end with the inputs' as they were and the outputs' at `out1_6`, `out1_7` of the inputs'. -/
theorem sound_kernel1 (c : Dev nD) (E : Set ℕ) (i : grid1.Coords)
    (arg1 : Memref sig .tc .vmem S512x512 .f32) (harg1 : arg1.IsWhole) (arg2 : Memref sig .tc .vmem S512x512 .f32) (harg2 : arg2.IsWhole)
    (arg3 : Memref sig .tc .vmem S512x512 .f32) (harg3 : arg3.IsWhole) (arg4 : Memref sig .tc .vmem S1000x512 .bf16) (harg4 : arg4.IsWhole)
    (arg5 : Memref sig .tc .vmem S1x1000 .f32) (harg5 : arg5.IsWhole) (arg6 : Memref sig .tc .vmem S512x1 .i32) (harg6 : arg6.IsWhole)
    (arg7 : Memref sig .tc .vmem S1x8x128 .f32) (harg7 : arg7.IsWhole) (arg8 : Memref sig .tc .vmem S1x8x128 .f32) (harg8 : arg8.IsWhole)
    (x0 x1 x2 : Vec F S512x512 .f32) (x3 : Vec F S1000x512 .bf16) (x4 : Vec F S1x1000 .f32) (x5 : Vec F S512x1 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2) ∗ owns (c : Thread nD τ) arg8 fullShare (out1_7 x0 x3 x4 x5)) -∗ K ⟨⟩))
      ⊢ wp frame (wpE (defs₀ (F := F)) Variants.none c none) E
          (cc1__ctr_trip_kernel i arg1 harg1 arg2 harg2 arg3 harg3 arg4 harg4 arg5 harg5 arg6 harg6 arg7 harg7 arg8 harg8) K := by
  simp only [cc1__ctr_trip_kernel_eq_skeleton]; unfold cc1__ctr_trip_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1_o _)
  iexists _; isplitr
  swap; · iexact H7
  ipureintro
  exact View.read_writes_eq_canon _ _ _ (cover1_o _)

/-- The region's proof data on core `c`: the arrays as the region finds them; after the body at point `t` each
    input's buffer at its block and each output's at its function of the blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t)
    | ⟨7, _⟩ => out1_7 (iblk1 V c 0 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) := by dsimp only [dat1]
theorem after1_7 (c : Dev nD) (t : Fin cfg1.N) : (dat1 V c).after 7 t = out1_7 (iblk1 V c 0 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Run.lean ====
import proofs.«420762_j16913581211856_3_alg».proof.Proof.Gen.Kernel.Launch
import proofs.«420762_j16913581211856_3_alg».proof.Proof.Gen.Kernel.Skeleton
import proofs.«420762_j16913581211856_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«420762_j16913581211856_3_alg».proof.Proof.Gen.Kernel.Regions
import proofs.«420762_j16913581211856_3_alg».proof.Proof.K.Region0
import proofs.«420762_j16913581211856_3_alg».proof.Proof.K.Region1

/-! # The run of the whole program

@main is five stretches: host operations (the labels joined and laid out as a column), the first kernel region,
host operations (the first loss from the region's tiles; the exemplars in the narrow format, their squared norms, the
anchors' labels as a column), the second kernel region, host operations (the other two losses and the total).
The contents of the device's buffers at each boundary are a fold from the launch memory: a host stretch applies its
operations; a region leaves its arrays at what its write-backs leave and every other buffer alone. Every weakly
fair execution terminates with every unscoped buffer at the last boundary's contents, and no stretch writes an
argument. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)

/-! ## No stretch writes an argument -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide : main_arg0 ∉ hostOps2_W)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := StableHlo.after_of_writes_sub hostOps1 _ hostOps1_writes (by decide : main_arg0 ∉ hostOps1_W)
    _ = W1 m ρ c (Proc.devRef .tc main_arg0) := W2_of_ne m ρ c main_arg0 (by decide)
    _ = W0 m ρ c (Proc.devRef .tc main_arg0) := StableHlo.after_of_writes_sub hostOps0 _ hostOps0_writes (by decide : main_arg0 ∉ hostOps0_W)
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide : main_arg1 ∉ hostOps2_W)
    _ = W3 m ρ c (Proc.devRef .tc main_arg1) := (W4_arr m ρ c 1).trans (((dat1 (V3 m ρ) c).arrAt_in 1 rfl _).trans (A_eq1 (V3 m ρ) c 1))
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide : main_arg2 ∉ hostOps2_W)
    _ = W3 m ρ c (Proc.devRef .tc main_arg2) := (W4_arr m ρ c 2).trans (((dat1 (V3 m ρ) c).arrAt_in 2 rfl _).trans (A_eq1 (V3 m ρ) c 2))
    _ = W2 m ρ c (Proc.devRef .tc main_arg2) := StableHlo.after_of_writes_sub hostOps1 _ hostOps1_writes (by decide : main_arg2 ∉ hostOps1_W)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (by decide : main_arg3 ∉ hostOps2_W)
    _ = W3 m ρ c (Proc.devRef .tc main_arg3) := W4_of_ne m ρ c main_arg3 (by decide)
    _ = W2 m ρ c (Proc.devRef .tc main_arg3) := StableHlo.after_of_writes_sub hostOps1 _ hostOps1_writes (by decide : main_arg3 ∉ hostOps1_W)
    _ = W1 m ρ c (Proc.devRef .tc main_arg3) := (W2_arr m ρ c 0).trans (((dat0 (V1 m ρ) c).arrAt_in 0 rfl _).trans (A_eq0 (V1 m ρ) c 0))
    _ = W0 m ρ c (Proc.devRef .tc main_arg3) := StableHlo.after_of_writes_sub hostOps0 _ hostOps0_writes (by decide : main_arg3 ∉ hostOps0_W)
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (by decide : main_arg4 ∉ hostOps2_W)
    _ = W3 m ρ c (Proc.devRef .tc main_arg4) := W4_of_ne m ρ c main_arg4 (by decide)
    _ = W2 m ρ c (Proc.devRef .tc main_arg4) := StableHlo.after_of_writes_sub hostOps1 _ hostOps1_writes (by decide : main_arg4 ∉ hostOps1_W)
    _ = W1 m ρ c (Proc.devRef .tc main_arg4) := W2_of_ne m ρ c main_arg4 (by decide)
    _ = W0 m ρ c (Proc.devRef .tc main_arg4) := StableHlo.after_of_writes_sub hostOps0 _ hostOps0_writes (by decide : main_arg4 ∉ hostOps0_W)
    _ = m ((c : Thread nD τ).loc main_arg4) := rfl
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps2 _ hostOps2_writes (by decide : main_arg5 ∉ hostOps2_W)
    _ = W3 m ρ c (Proc.devRef .tc main_arg5) := W4_of_ne m ρ c main_arg5 (by decide)
    _ = W2 m ρ c (Proc.devRef .tc main_arg5) := StableHlo.after_of_writes_sub hostOps1 _ hostOps1_writes (by decide : main_arg5 ∉ hostOps1_W)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_writes_sub hostOps2 _ hostOps2_writes (by decide : main_arg6 ∉ hostOps2_W)
    _ = W3 m ρ c (Proc.devRef .tc main_arg6) := W4_of_ne m ρ c main_arg6 (by decide)
    _ = W2 m ρ c (Proc.devRef .tc main_arg6) := StableHlo.after_of_writes_sub hostOps1 _ hostOps1_writes (by decide : main_arg6 ∉ hostOps1_W)
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)
    _ = m ((c : Thread nD τ).loc main_arg6) := rfl

/-! ## The proof data family and the thread state -/

abbrev adm : (p : Fin 2) → (pcfgs (F := F) p).Adm := fun p => (cfgs p).toPCfg_adm
/-- Each region's proof data at its entry contents (a literal match on the region's number). -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every stretch: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered from every unscoped buffer at `W1`, left at `W2`. Its arrays are
    split out of the unscoped buffers and put back at what the write-backs leave; the generator register goes into the
    region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are
    split out of the unscoped buffers and put back at what the write-backs leave; the generator register goes into the
    region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- THE FRAME: every weakly fair execution terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c)⟩) (run_all m ρ)

end Cert.Kernel.Fr

end
-- ==== Proof.KI.Region0.lean ====
import proofs.«420762_j16913581211856_3_alg».proof.Proof.Gen.KernelIdeal.Launch
import proofs.«420762_j16913581211856_3_alg».proof.Proof.Gen.KernelIdeal.Skeleton
import proofs.«420762_j16913581211856_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The first kernel region (the cross-entropy kernel), at the contents it is entered with

The region runs the kernel once per block of 1024 logit rows (12 points). At a point the body reads the block of
logits and the block of labels whole, and overwrites its one output tile `[1, 8, 128]` whole with a value
computed from the two blocks. Stated here, at any float instance: a window's block at a point; what the body leaves
in the output tile as a function of the two input blocks; the body's run; the region's proof data and its body
obligation. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the point fetched it or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body reads and writes through. -/
abbrev r0_0 : Rect S1024x1000 := Rect.unit (s := S1024x1000) ![0, 0] S1024x1000.size inb_S1024x1000_S1024x1000_0_0
abbrev r0_1 : Rect S1024x1 := Rect.unit (s := S1024x1) ![0, 0] S1024x1.size inb_S1024x1_S1024x1_0_0
abbrev r0_2 : Rect S1x8x128 := Rect.unit (s := S1x8x128) ![0, 0, 0] S1x8x128.size inb_S1x8x128_S1x8x128_0_0_0

/-- The output tile after the body, from the two input blocks: its one store, which covers the tile. -/
def out0_2 (x0 : Vec F S1024x1000 .f32) (x1 : Vec F S1024x1 .i32) : Vec F S1x8x128 .f32 :=
  View.canon [⟨r0_2, k0_pay1 (View.ld x0 r0_0) (View.ld x1 r0_1)⟩]

theorem cover0_2 (p0 : Vec F S1x8x128 .f32) (y : S1x8x128.Idx) :
    ∃ pc ∈ ([⟨r0_2, p0⟩] : List (View.Piece (Elt F) S1x8x128 .f32)), y ∈ pc.1.set :=
  View.cover_of_tiled [⟨r0_2, p0⟩] S1x8x128.size (by rfl) y

set_option maxHeartbeats 1000000 in
/-- The body on whole staging buffers, the inputs' at contents `x0`, `x1` and the output's at anything, runs to the
    end with the inputs' as they were and the output's at `out0_2 x0 x1`. -/
theorem sound_kernel0 (c : Dev nD) (E : Set ℕ) (i : grid0.Coords)
    (arg1 : Memref sig .tc .vmem S1024x1000 .f32) (harg1 : arg1.IsWhole) (arg2 : Memref sig .tc .vmem S1024x1 .i32) (harg2 : arg2.IsWhole)
    (arg3 : Memref sig .tc .vmem S1x8x128 .f32) (harg3 : arg3.IsWhole)
    (x0 : Vec F S1024x1000 .f32) (x1 : Vec F S1024x1 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__xent_kernel i arg1 harg1 arg2 harg2 arg3 harg3) K := by
  simp only [cc0__xent_kernel_eq_skeleton]; unfold cc0__xent_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The region's proof data on core `c`: the arrays as the region finds them; after the body at point `t` each
    input's buffer at its block and the output's at `out0_2` of the two blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Region1.lean ====
import proofs.«420762_j16913581211856_3_alg».proof.Proof.Gen.KernelIdeal.Launch
import proofs.«420762_j16913581211856_3_alg».proof.Proof.Gen.KernelIdeal.Skeleton
import proofs.«420762_j16913581211856_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The second kernel region (the fused triplet and centre kernel), at the contents it is entered with

The region runs the kernel once per block of 512 anchor rows (8 points). At a point the body reads whole the blocks
of the anchors, the positives, the negatives and the anchors' labels, and the two resident arrays (the exemplars
in the narrow format and the row of their squared norms, the same at every point), and overwrites whole its two
output tiles `[1, 8, 128]`: the first with a value computed from the three blocks of vectors, the second with a value
computed from the anchors' block, the two resident arrays and the labels' block. Stated here, at any float instance:
a window's block at a point; what the body leaves in each output tile; the body's run; the region's proof data and
its body obligation. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point, whether the point fetched it or not (the two
    resident windows are fetched at the first point only, and their block index never moves). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body reads and writes through. -/
abbrev r1_a : Rect S512x512 := Rect.unit (s := S512x512) ![0, 0] S512x512.size inb_S512x512_S512x512_0_0
abbrev r1_e : Rect S1000x512 := Rect.unit (s := S1000x512) ![0, 0] S1000x512.size inb_S1000x512_S1000x512_0_0
abbrev r1_q : Rect S1x1000 := Rect.unit (s := S1x1000) ![0, 0] S1x1000.size inb_S1x1000_S1x1000_0_0
abbrev r1_l : Rect S512x1 := Rect.unit (s := S512x1) ![0, 0] S512x1.size inb_S512x1_S512x1_0_0
abbrev r1_o : Rect S1x8x128 := Rect.unit (s := S1x8x128) ![0, 0, 0] S1x8x128.size inb_S1x8x128_S1x8x128_0_0_0

/-- The first output tile after the body, from the blocks of anchors, positives and negatives. -/
def out1_6 (x0 x1 x2 : Vec F S512x512 .f32) : Vec F S1x8x128 .f32 :=
  View.canon [⟨r1_o, k1_pay1 (k1_pay4 (View.ld x0 r1_a) (View.ld x1 r1_a) (View.ld x2 r1_a))⟩]

/-- The second output tile after the body, from the anchors' block, the exemplars, their squared norms and the labels' block. -/
def out1_7 (x0 : Vec F S512x512 .f32) (x3 : Vec F S1000x512 .bf16) (x4 : Vec F S1x1000 .f32) (x5 : Vec F S512x1 .i32) : Vec F S1x8x128 .f32 :=
  View.canon [⟨r1_o, k1_pay2 (k1_pay3 (View.ld x5 r1_l)) (k1_pay5 (View.ld x0 r1_a) (View.ld x3 r1_e) (View.ld x4 r1_q))⟩]

theorem cover1_o (p0 : Vec F S1x8x128 .f32) (y : S1x8x128.Idx) :
    ∃ pc ∈ ([⟨r1_o, p0⟩] : List (View.Piece (Elt F) S1x8x128 .f32)), y ∈ pc.1.set :=
  View.cover_of_tiled [⟨r1_o, p0⟩] S1x8x128.size (by rfl) y

set_option maxHeartbeats 2000000 in
/-- The body on whole staging buffers, the inputs' at contents `x0 … x5` and the outputs' at anything, runs to the
    end with the inputs' as they were and the outputs' at `out1_6`, `out1_7` of the inputs'. -/
theorem sound_kernel1 (c : Dev nD) (E : Set ℕ) (i : grid1.Coords)
    (arg1 : Memref sig .tc .vmem S512x512 .f32) (harg1 : arg1.IsWhole) (arg2 : Memref sig .tc .vmem S512x512 .f32) (harg2 : arg2.IsWhole)
    (arg3 : Memref sig .tc .vmem S512x512 .f32) (harg3 : arg3.IsWhole) (arg4 : Memref sig .tc .vmem S1000x512 .bf16) (harg4 : arg4.IsWhole)
    (arg5 : Memref sig .tc .vmem S1x1000 .f32) (harg5 : arg5.IsWhole) (arg6 : Memref sig .tc .vmem S512x1 .i32) (harg6 : arg6.IsWhole)
    (arg7 : Memref sig .tc .vmem S1x8x128 .f32) (harg7 : arg7.IsWhole) (arg8 : Memref sig .tc .vmem S1x8x128 .f32) (harg8 : arg8.IsWhole)
    (x0 x1 x2 : Vec F S512x512 .f32) (x3 : Vec F S1000x512 .bf16) (x4 : Vec F S1x1000 .f32) (x5 : Vec F S512x1 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2) ∗ owns (c : Thread nD τ) arg8 fullShare (out1_7 x0 x3 x4 x5)) -∗ K ⟨⟩))
      ⊢ wp frame (wpE (defs₀ (F := F)) Variants.none c none) E
          (cc1__ctr_trip_kernel i arg1 harg1 arg2 harg2 arg3 harg3 arg4 harg4 arg5 harg5 arg6 harg6 arg7 harg7 arg8 harg8) K := by
  simp only [cc1__ctr_trip_kernel_eq_skeleton]; unfold cc1__ctr_trip_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1_o _)
  iexists _; isplitr
  swap; · iexact H7
  ipureintro
  exact View.read_writes_eq_canon _ _ _ (cover1_o _)

/-- The region's proof data on core `c`: the arrays as the region finds them; after the body at point `t` each
    input's buffer at its block and each output's at its function of the blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t)
    | ⟨7, _⟩ => out1_7 (iblk1 V c 0 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) := by dsimp only [dat1]
theorem after1_7 (c : Dev nD) (t : Fin cfg1.N) : (dat1 V c).after 7 t = out1_7 (iblk1 V c 0 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Run.lean ====
import proofs.«420762_j16913581211856_3_alg».proof.Proof.Gen.KernelIdeal.Launch
import proofs.«420762_j16913581211856_3_alg».proof.Proof.Gen.KernelIdeal.Skeleton
import proofs.«420762_j16913581211856_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«420762_j16913581211856_3_alg».proof.Proof.Gen.KernelIdeal.Regions
import proofs.«420762_j16913581211856_3_alg».proof.Proof.KI.Region0
import proofs.«420762_j16913581211856_3_alg».proof.Proof.KI.Region1

/-! # The run of the whole program

@main is five stretches: host operations (the labels joined and laid out as a column), the first kernel region,
host operations (the first loss from the region's tiles; the exemplars in the narrow format, their squared norms, the
anchors' labels as a column), the second kernel region, host operations (the other two losses and the total).
The contents of the device's buffers at each boundary are a fold from the launch memory: a host stretch applies its
operations; a region leaves its arrays at what its write-backs leave and every other buffer alone. Every weakly
fair execution terminates with every unscoped buffer at the last boundary's contents, and no stretch writes an
argument. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)

/-! ## No stretch writes an argument -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide : main_arg0 ∉ hostOps2_W)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := StableHlo.after_of_writes_sub hostOps1 _ hostOps1_writes (by decide : main_arg0 ∉ hostOps1_W)
    _ = W1 m ρ c (Proc.devRef .tc main_arg0) := W2_of_ne m ρ c main_arg0 (by decide)
    _ = W0 m ρ c (Proc.devRef .tc main_arg0) := StableHlo.after_of_writes_sub hostOps0 _ hostOps0_writes (by decide : main_arg0 ∉ hostOps0_W)
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide : main_arg1 ∉ hostOps2_W)
    _ = W3 m ρ c (Proc.devRef .tc main_arg1) := (W4_arr m ρ c 1).trans (((dat1 (V3 m ρ) c).arrAt_in 1 rfl _).trans (A_eq1 (V3 m ρ) c 1))
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide : main_arg2 ∉ hostOps2_W)
    _ = W3 m ρ c (Proc.devRef .tc main_arg2) := (W4_arr m ρ c 2).trans (((dat1 (V3 m ρ) c).arrAt_in 2 rfl _).trans (A_eq1 (V3 m ρ) c 2))
    _ = W2 m ρ c (Proc.devRef .tc main_arg2) := StableHlo.after_of_writes_sub hostOps1 _ hostOps1_writes (by decide : main_arg2 ∉ hostOps1_W)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (by decide : main_arg3 ∉ hostOps2_W)
    _ = W3 m ρ c (Proc.devRef .tc main_arg3) := W4_of_ne m ρ c main_arg3 (by decide)
    _ = W2 m ρ c (Proc.devRef .tc main_arg3) := StableHlo.after_of_writes_sub hostOps1 _ hostOps1_writes (by decide : main_arg3 ∉ hostOps1_W)
    _ = W1 m ρ c (Proc.devRef .tc main_arg3) := (W2_arr m ρ c 0).trans (((dat0 (V1 m ρ) c).arrAt_in 0 rfl _).trans (A_eq0 (V1 m ρ) c 0))
    _ = W0 m ρ c (Proc.devRef .tc main_arg3) := StableHlo.after_of_writes_sub hostOps0 _ hostOps0_writes (by decide : main_arg3 ∉ hostOps0_W)
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (by decide : main_arg4 ∉ hostOps2_W)
    _ = W3 m ρ c (Proc.devRef .tc main_arg4) := W4_of_ne m ρ c main_arg4 (by decide)
    _ = W2 m ρ c (Proc.devRef .tc main_arg4) := StableHlo.after_of_writes_sub hostOps1 _ hostOps1_writes (by decide : main_arg4 ∉ hostOps1_W)
    _ = W1 m ρ c (Proc.devRef .tc main_arg4) := W2_of_ne m ρ c main_arg4 (by decide)
    _ = W0 m ρ c (Proc.devRef .tc main_arg4) := StableHlo.after_of_writes_sub hostOps0 _ hostOps0_writes (by decide : main_arg4 ∉ hostOps0_W)
    _ = m ((c : Thread nD τ).loc main_arg4) := rfl
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps2 _ hostOps2_writes (by decide : main_arg5 ∉ hostOps2_W)
    _ = W3 m ρ c (Proc.devRef .tc main_arg5) := W4_of_ne m ρ c main_arg5 (by decide)
    _ = W2 m ρ c (Proc.devRef .tc main_arg5) := StableHlo.after_of_writes_sub hostOps1 _ hostOps1_writes (by decide : main_arg5 ∉ hostOps1_W)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_writes_sub hostOps2 _ hostOps2_writes (by decide : main_arg6 ∉ hostOps2_W)
    _ = W3 m ρ c (Proc.devRef .tc main_arg6) := W4_of_ne m ρ c main_arg6 (by decide)
    _ = W2 m ρ c (Proc.devRef .tc main_arg6) := StableHlo.after_of_writes_sub hostOps1 _ hostOps1_writes (by decide : main_arg6 ∉ hostOps1_W)
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)
    _ = m ((c : Thread nD τ).loc main_arg6) := rfl

/-! ## The proof data family and the thread state -/

abbrev adm : (p : Fin 2) → (pcfgs (F := F) p).Adm := fun p => (cfgs p).toPCfg_adm
/-- Each region's proof data at its entry contents (a literal match on the region's number). -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every stretch: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered from every unscoped buffer at `W1`, left at `W2`. Its arrays are
    split out of the unscoped buffers and put back at what the write-backs leave; the generator register goes into the
    region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are
    split out of the unscoped buffers and put back at what the write-backs leave; the generator register goes into the
    region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- THE FRAME: every weakly fair execution terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c)⟩) (run_all m ρ)

end Cert.KernelIdeal.Fr

end
-- ==== Proof.Spec.lean ====
import Idealize.ShloMosaic.PureOps.Ideal
import Idealize.ShloMosaic.PureOps.Ideal.Laws
import Idealize.ShloMosaic.Lib.ValueIdx

/-! # The three losses as functions of the argument arrays

Over the extended reals, index by index:

* the triplet term: for each of the 4096 rows, the distance anchor–positive minus the distance
  anchor–negative (each the square root of a sum of 512 squared differences), clipped at zero; summed over the rows;
* the centre term: the distance of row `i` of the anchors to row `j` of the exemplars is the square root of
  `‖aᵢ‖² + ‖eⱼ‖² − 2 aᵢ·eⱼ` clipped at zero; a row contributes its distance to the exemplar of its own class
  minus its least distance, clipped at zero;
* the cross entropy: over the 12288 rows of logits labelled by the anchors' classes twice and then the negatives'
  classes, minus the logit of the row's class plus the row's maximum plus the logarithm of the sum of the shifted
  exponentials; the mean over the rows.

The total is the cross entropy plus a tenth of the centre term plus the triplet term. The float literals stay
the words the programs carry. -/

noncomputable section

namespace Cert.Loss

open Idealize.ShloMosaic Idealize.ShloMosaic.ValueIdx

abbrev SBD : Shape := ⟨2, ![4096, 512]⟩
abbrev SNC : Shape := ⟨2, ![12288, 1000]⟩
abbrev SB : Shape := ⟨1, ![4096]⟩
abbrev SCD : Shape := ⟨2, ![1000, 512]⟩
abbrev S0 : Shape := ⟨0, ![]⟩

/-- The words of the literals both programs carry: 2, 1/10 (as f32), 1, and the two divisors. -/
abbrev two : EReal := Ideal.ofBits .f32 0x40000000#32
abbrev tenth : EReal := Ideal.ofBits .f32 0x3DCCCCCD#32
abbrev one : EReal := Ideal.ofBits .f32 0x3F800000#32
abbrev n1024 : EReal := Ideal.ofBits .f32 0x44800000#32
abbrev n12288 : EReal := Ideal.ofBits .f32 0x46400000#32

/-! ## The triplet term -/

/-- The squared distance of row `i` of `A` to row `i` of `B`. -/
def sqd (A B : FVec Ideal SBD .f32) (i : Fin 4096) : EReal :=
  ∑ k : Fin 512, (A (ix2 i k) - B (ix2 i k)) * (A (ix2 i k) - B (ix2 i k))

/-- Row `i`'s margin: distance to the positive minus distance to the negative, clipped at zero. -/
def tripRow (A P N : FVec Ideal SBD .f32) (i : Fin 4096) : EReal :=
  max (Ideal.sqrt (sqd A P i) - Ideal.sqrt (sqd A N i)) 0

def tripLoss (A P N : FVec Ideal SBD .f32) : EReal := ∑ i : Fin 4096, tripRow A P N i

/-! ## The centre term -/

/-- The squared norm of row `i`. -/
def nrm2 {R : Nat} (A : FVec Ideal ⟨2, ![R, 512]⟩ .f32) (i : Fin R) : EReal := ∑ k : Fin 512, A (ix2 i k) * A (ix2 i k)

/-- The inner product of anchor `i` and exemplar `j`. -/
def dot (A : FVec Ideal SBD .f32) (E : FVec Ideal SCD .f32) (i : Fin 4096) (j : Fin 1000) : EReal :=
  ∑ k : Fin 512, A (ix2 i k) * E (ix2 j k)

/-- The distance of anchor `i` to exemplar `j`. -/
def dist (A : FVec Ideal SBD .f32) (E : FVec Ideal SCD .f32) (i : Fin 4096) (j : Fin 1000) : EReal :=
  Ideal.sqrt (max (nrm2 A i + nrm2 E j - two * dot A E i j) 0)

/-- The least distance of anchor `i` to an exemplar. -/
def distMin (A : FVec Ideal SBD .f32) (E : FVec Ideal SCD .f32) (i : Fin 4096) : EReal :=
  (Finset.univ : Finset (Fin 1000)).fold min ⊤ (fun j => dist A E i j)

/-- A label word as a class (read modulo the number of classes; in range it is the word's value). -/
def cls (l : BitVec 32) : Fin 1000 := ⟨l.toNat % 1000, Nat.mod_lt _ (by norm_num)⟩

def ctrRow (A : FVec Ideal SBD .f32) (E : FVec Ideal SCD .f32) (la : IVec SB 32) (i : Fin 4096) : EReal :=
  max (dist A E i (cls (la (ix1 i))) - distMin A E i) 0

def ctrLoss (A : FVec Ideal SBD .f32) (E : FVec Ideal SCD .f32) (la : IVec SB 32) : EReal :=
  ∑ i : Fin 4096, ctrRow A E la i

/-! ## The cross entropy -/

/-- The label of logit row `i`: the anchors' labels, the anchors' labels again, the negatives' labels. -/
def lab (la ln : IVec SB 32) (i : Fin 12288) : BitVec 32 :=
  if h : i.val < 4096 then la (ix1 ⟨i.val, h⟩)
  else if h2 : i.val < 8192 then la (ix1 ⟨i.val - 4096, by omega⟩)
  else ln (ix1 ⟨i.val - 8192, by have := i.isLt; omega⟩)

/-- The greatest logit of row `i`. -/
def rowMax (X : FVec Ideal SNC .f32) (i : Fin 12288) : EReal :=
  (Finset.univ : Finset (Fin 1000)).fold max ⊥ (fun j => X (ix2 i j))

/-- The sum of the row's exponentials, shifted by its maximum. -/
def sumExp (X : FVec Ideal SNC .f32) (i : Fin 12288) : EReal := ∑ j : Fin 1000, Ideal.exp (X (ix2 i j) - rowMax X i)

/-- Row `i`'s negative log-likelihood of its label. -/
def nll (X : FVec Ideal SNC .f32) (la ln : IVec SB 32) (i : Fin 12288) : EReal :=
  -(X (ix2 i (cls (lab la ln i))) - (rowMax X i + Ideal.log (sumExp X i)))

def smLoss (X : FVec Ideal SNC .f32) (la ln : IVec SB 32) : EReal :=
  Ideal.div (∑ i : Fin 12288, nll X la ln i) n12288

/-! ## The total -/

def totalLoss (A P N : FVec Ideal SBD .f32) (X : FVec Ideal SNC .f32) (la ln : IVec SB 32) (E : FVec Ideal SCD .f32) : EReal :=
  smLoss X la ln + tenth * ctrLoss A E la + one * tripLoss A P N

/-- What the precondition gives: every entry of a float array is a real, every label a class. -/
def Finite {s : Shape} (x : FVec Ideal s .f32) : Prop := ∀ i, ∃ r : ℝ, x i = (r : EReal)
def InRange (l : IVec SB 32) : Prop := ∀ i : Fin 4096, 0 ≤ (l (ix1 i)).toInt ∧ (l (ix1 i)).toInt < 1000

end Cert.Loss

end
-- ==== Proof.KPay0.lean ====
import proofs.«420762_j16913581211856_3_alg».proof.Proof.Gen.KernelIdeal.Skeleton
import proofs.«420762_j16913581211856_3_alg».proof.Proof.Spec
import Idealize.ShloMosaic.Lib.ValueIdx
import Idealize.ShloMosaic.Lib.Pipeline.Value
import Idealize.ShloMosaic.Lib.ValueLayout
import Idealize.ShloMosaic.PureOps.Ideal.Laws

/-! # The cross-entropy kernel's tile value

One grid step of the cross-entropy kernel reads a block of 1024 rows of logits and the 1024 labels of those
rows, and stores a tile every entry of which is the sum, over the block's rows, of the row's negative
log-likelihood: minus (the logit at the row's label minus (the row's maximum plus the logarithm of the sum of the
row's exponentials shifted by that maximum)). The label's logit is picked by a masked sum: the lane whose
number equals the label keeps its logit, every other lane contributes zero; a label in range matches exactly one
lane. -/

noncomputable section

namespace Cert.KernelIdeal.KV

open Cert.KernelIdeal Cert.KernelIdeal.Gen Cert.Loss Idealize.ShloMosaic Idealize.ShloMosaic.ValueIdx

/-! ## Index bookkeeping: the reduced index with a coordinate inserted, the keepdims casts, the broadcasts -/

/-- The word of minus infinity is the bottom of the extended reals. -/
theorem ofBits_ninf : Ideal.ofBits .f32 0xFF800000#32 = ⊥ := by simp [Ideal.ofBits, Ideal.ieee]

/-- Row `r` with lane `k` inserted is the index `(r, k)`. -/
theorem lift_row (r : Fin 1024) (k : Fin 1000) :
    reduces_S1024x1000_S1024.lift (ix1 r) k = ix2 r k :=
  funext fun c => Fin.ext (match c with | ⟨0, _⟩ => rfl | ⟨1, _⟩ => rfl)

/-- The one column with row `k` inserted is the index `(k, 0)`. -/
theorem lift_col (k : Fin 1024) :
    reduces_S1024x1_S1.lift (ix1 (0 : Fin 1)) k = ix2 k (0 : Fin 1) :=
  funext fun c => Fin.ext (match c with | ⟨0, _⟩ => rfl | ⟨1, _⟩ => rfl)

section Layout
variable {α : Type}

/-- A vector of 1024 entries cast to a column reads, at `(r, 0)`, the entry `r`. -/
theorem cast_col (v : S1024.Idx → α) (r : Fin 1024) :
    shapeCast S1024x1 v shapeCasts_S1024_S1024x1 (ix2 r (0 : Fin 1)) = v (ix1 r) :=
  shapeCast_apply v _ _ _ (by
    rw [Shape.rowMajor_val_one, Shape.rowMajor_val_two]
    show r.val = r.val * 1 + 0
    omega)

/-- A column broadcast over the lanes reads, at `(r, j)`, the column's entry `r`. -/
theorem bcast_col (v : S1024x1.Idx → α) (r : Fin 1024) (j : Fin 1000) :
    broadcastTo S1024x1000 v broadcasts_S1024x1_S1024x1000 (ix2 r j) = v (ix2 r (0 : Fin 1)) :=
  broadcastTo_apply v _ _ _ fun ax => match ax with | ⟨0, _⟩ => rfl | ⟨1, _⟩ => rfl

/-- The one entry cast to a one-by-one matrix. -/
theorem cast_one (v : S1.Idx → α) :
    shapeCast S1x1 v shapeCasts_S1_S1x1 (ix2 (0 : Fin 1) (0 : Fin 1)) = v (ix1 (0 : Fin 1)) :=
  shapeCast_apply v _ _ _ (by
    rw [Shape.rowMajor_val_one, Shape.rowMajor_val_two]
    rfl)

/-- The one-by-one matrix broadcast over a tile reads its one entry everywhere. -/
theorem bcast_tile (v : S1x1.Idx → α) (a : Fin 8) (b : Fin 128) :
    broadcastTo S8x128 v broadcasts_S1x1_S8x128 (ix2 a b) = v (ix2 (0 : Fin 1) (0 : Fin 1)) :=
  broadcastTo_apply v _ _ _ fun ax => match ax with | ⟨0, _⟩ => rfl | ⟨1, _⟩ => rfl

end Layout

/-! ## The three reductions at an index -/

/-- The row maximum at row `r`: the fold of `max` from the bottom over the row's lanes. -/
theorem max_at (y : FVec Ideal S1024x1000 .f32) (r : Fin 1024) :
    multiReduction (F := Ideal) .maximumf [1] S1024 y 0xFF800000#32 reduces_S1024x1000_S1024 (.inl rfl) rfl (ix1 r)
      = (Finset.univ : Finset (Fin 1000)).fold max ⊥ (fun j => y (ix2 r j)) := by
  refine (Ideal.multiReduction_maximumf_single y _ reduces_S1024x1000_S1024 (.inl rfl) rfl (ix1 r)).trans ?_
  show (Finset.univ : Finset (Fin 1000)).fold max (Ideal.ofBits .f32 0xFF800000#32)
      (y ∘ reduces_S1024x1000_S1024.lift (ix1 r)) = _
  rw [ofBits_ninf]
  exact congrArg (fun f => (Finset.univ : Finset (Fin 1000)).fold max ⊥ f) (funext fun j => congrArg y (lift_row r j))

/-- A lane sum at row `r`. -/
theorem sum_at (y : FVec Ideal S1024x1000 .f32) (r : Fin 1024) :
    multiReduction (F := Ideal) .add [1] S1024 y 0x00000000#32 reduces_S1024x1000_S1024 (.inl rfl) rfl (ix1 r)
      = ∑ j : Fin 1000, y (ix2 r j) := by
  refine (Ideal.multiReduction_add_single y _ reduces_S1024x1000_S1024 (.inl rfl) rfl (ix1 r)).trans ?_
  exact Finset.sum_congr rfl fun j _ => congrArg y (lift_row r j)

/-- The sum of a column over its 1024 rows. -/
theorem colsum_at (y : FVec Ideal S1024x1 .f32) :
    multiReduction (F := Ideal) .add [0] S1 y 0x00000000#32 reduces_S1024x1_S1 (.inl rfl) rfl (ix1 (0 : Fin 1))
      = ∑ r : Fin 1024, y (ix2 r (0 : Fin 1)) := by
  refine (Ideal.multiReduction_add_single y _ reduces_S1024x1_S1 (.inl rfl) rfl (ix1 (0 : Fin 1))).trans ?_
  exact Finset.sum_congr rfl fun k _ => congrArg y (lift_col k)

/-! ## The label pick -/

/-- A word whose signed value is in `[0, 1000)` has its unsigned value there too. -/
theorem toNat_lt_of_range (w : BitVec 32) (h0 : 0 ≤ w.toInt) (h1 : w.toInt < 1000) : w.toNat < 1000 := by
  have h := BitVec.toInt_eq_toNat_cond w
  have := w.isLt
  split at h <;> omega

/-- Every label of the concatenated rows is an entry of one of the two label arrays, hence a class. -/
theorem lab_lt (la ln : IVec SB 32) (hla : InRange la) (hln : InRange ln) (i : Fin 12288) :
    (lab la ln i).toNat < 1000 := by
  unfold lab
  split
  · exact toNat_lt_of_range _ (hla _).1 (hla _).2
  · split
    · exact toNat_lt_of_range _ (hla _).1 (hla _).2
    · exact toNat_lt_of_range _ (hln _).1 (hln _).2

/-- The word of lane `j` equals a class word exactly when `j` is that class. -/
theorem word_eq_iff (w : BitVec 32) (hw : w.toNat < 1000) (j : Fin 1000) :
    BitVec.ofNat 32 j.val = w ↔ j = cls w := by
  constructor
  · intro h
    apply Fin.ext
    have e := congrArg BitVec.toNat h
    rw [BitVec.toNat_ofNat] at e
    show j.val = w.toNat % 1000
    have := j.isLt
    omega
  · intro h
    have hj : j.val = w.toNat := by
      rw [h]
      show w.toNat % 1000 = w.toNat
      omega
    rw [hj]
    apply BitVec.eq_of_toNat_eq
    rw [BitVec.toNat_ofNat]
    exact Nat.mod_eq_of_lt w.isLt

/-- One lane's masked logit: the logit on the label's lane, zero elsewhere. -/
theorem pick_term (w : BitVec 32) (hw : w.toNat < 1000) (j : Fin 1000) (u : EReal) :
    Scalar.select (IntOp.cmpi .eq (BitVec.ofNat 32 j.val) w) u (0 : EReal) = if j = cls w then u else 0 := by
  unfold Scalar.select IntOp.cmpi
  by_cases h : j = cls w
  · have e : (BitVec.ofNat 32 j.val == w) = true := beq_iff_eq.mpr ((word_eq_iff w hw j).mpr h)
    rw [if_pos h]
    show (if BitVec.ofBool (BitVec.ofNat 32 j.val == w) = 1#1 then u else 0) = u
    rw [e]
    exact if_pos (by decide)
  · have e : (BitVec.ofNat 32 j.val == w) = false :=
      beq_eq_false_iff_ne.mpr fun e => h ((word_eq_iff w hw j).mp e)
    rw [if_neg h]
    show (if BitVec.ofBool (BitVec.ofNat 32 j.val == w) = 1#1 then u else 0) = 0
    rw [e]
    exact if_neg (by decide)

/-- The masked lane sum picks the logit at the label. -/
theorem pick_sum (w : BitVec 32) (hw : w.toNat < 1000) (f : Fin 1000 → EReal) :
    ∑ j : Fin 1000, Scalar.select (IntOp.cmpi .eq (BitVec.ofNat 32 j.val) w) (f j) (0 : EReal) = f (cls w) := by
  rw [Finset.sum_congr rfl fun j _ => pick_term w hw j (f j)]
  simp

/-! ## A row's pieces, read at an index -/

/-- The kept row maximum at `(r, 0)`. -/
theorem keep_max (y : FVec Ideal S1024x1000 .f32) (r : Fin 1024) :
    shapeCast S1024x1
        (multiReduction (F := Ideal) .maximumf [1] S1024 y 0xFF800000#32 reduces_S1024x1000_S1024 (.inl rfl) rfl)
        shapeCasts_S1024_S1024x1 (ix2 r (0 : Fin 1))
      = (Finset.univ : Finset (Fin 1000)).fold max ⊥ (fun j => y (ix2 r j)) :=
  (cast_col _ r).trans (max_at y r)

/-- A kept lane sum at `(r, 0)`. -/
theorem keep_sum (y : FVec Ideal S1024x1000 .f32) (r : Fin 1024) :
    shapeCast S1024x1
        (multiReduction (F := Ideal) .add [1] S1024 y 0x00000000#32 reduces_S1024x1000_S1024 (.inl rfl) rfl)
        shapeCasts_S1024_S1024x1 (ix2 r (0 : Fin 1))
      = ∑ j : Fin 1000, y (ix2 r j) :=
  (cast_col _ r).trans (sum_at y r)

/-- The exponential of a logit shifted by its row's column entry. -/
theorem shift_at (y : FVec Ideal S1024x1000 .f32) (c : FVec Ideal S1024x1 .f32) (r : Fin 1024) (j : Fin 1000) :
    exp (subf y (broadcastTo S1024x1000 c broadcasts_S1024x1_S1024x1000)) (ix2 r j)
      = Ideal.exp (y (ix2 r j) - c (ix2 r (0 : Fin 1))) := by
  show Ideal.exp (y (ix2 r j) - broadcastTo S1024x1000 c broadcasts_S1024x1_S1024x1000 (ix2 r j)) = _
  rw [bcast_col]

/-- The masked logit at `(r, j)`: the lane's word compared with the row's label word. -/
theorem masked_at (y : FVec Ideal S1024x1000 .f32) (l : IVec S1024x1 32) (r : Fin 1024) (j : Fin 1000) :
    select (cmpi .eq (iota .tc S1024x1000 32 [1] iota_S1024x1000_d1_w32)
        (broadcastTo S1024x1000 (shapeCast S1024x1 l shapeCasts_S1024x1_S1024x1) broadcasts_S1024x1_S1024x1000))
      y (broadcast S1024x1000 (FloatOps.ofBits (F := Ideal) .f32 0x00000000#32)) (ix2 r j)
      = Scalar.select (IntOp.cmpi .eq (BitVec.ofNat 32 j.val) (l (ix2 r (0 : Fin 1)))) (y (ix2 r j)) (0 : EReal) := by
  show Scalar.select (IntOp.cmpi .eq (iota .tc S1024x1000 32 [1] iota_S1024x1000_d1_w32 (ix2 r j))
      (broadcastTo S1024x1000 (shapeCast S1024x1 l shapeCasts_S1024x1_S1024x1) broadcasts_S1024x1_S1024x1000 (ix2 r j)))
      (y (ix2 r j)) (Ideal.ofBits .f32 0x00000000#32) = _
  rw [iota_single_apply, bcast_col, shapeCast_self, Ideal.ofBits_zero_f32]

/-- The logarithm of a vector read at an index. -/
theorem log_at {s : Shape} (v : FVec Ideal s .f32) (i : s.Idx) : log v i = Ideal.log (v i) := rfl

/-- The last arithmetic of a row: zero minus (the picked logit minus the log-sum-exp). -/
theorem row_close {Z B C D B' C' D' : EReal} (hZ : Z = 0) (hB : B = B') (hC : C = C') (hD : D = D') :
    Z - (B - (C + Ideal.log D)) = -(B' - (C' + Ideal.log D')) := by
  subst hZ hB hC hD
  exact zero_sub _

/-! ## The tile entry -/

theorem pay0_apply (X : FVec Ideal SNC .f32) (la ln : IVec SB 32) (hla : InRange la) (hln : InRange ln)
    (t : Fin 12) (x : Vec Ideal S1024x1000 .f32) (l : Vec Ideal S1024x1 .i32)
    (hx : ∀ (r : Fin 1024) (j : Fin 1000), x (ix2 r j) = X (ix2 ⟨1024 * t.val + r.val, by have := t.isLt; have := r.isLt; omega⟩ j))
    (hl : ∀ r : Fin 1024, l (ix2 r 0) = lab la ln ⟨1024 * t.val + r.val, by have := t.isLt; have := r.isLt; omega⟩)
    (a : Fin 8) (b : Fin 128) :
    k0_pay1 (F := Ideal) x l (ix3 0 a b) = ∑ r : Fin 1024, nll X la ln ⟨1024 * t.val + r.val, by have := t.isLt; have := r.isLt; omega⟩ := by
  unfold k0_pay1
  refine (shapeCast_ab_1ab_apply _ _ (0 : Fin 1) a b).trans ?_
  refine (bcast_tile _ a b).trans ?_
  rw [shapeCast_self]
  refine (cast_one _).trans ?_
  refine (colsum_at _).trans ?_
  refine Finset.sum_congr rfl fun r _ => ?_
  have hw : (l (ix2 r (0 : Fin 1))).toNat < 1000 := by
    rw [hl r]; exact lab_lt la ln hla hln _
  have hM : (Finset.univ : Finset (Fin 1000)).fold max ⊥ (fun j => x (ix2 r j))
      = rowMax X ⟨1024 * t.val + r.val, by have := t.isLt; have := r.isLt; omega⟩ :=
    congrArg (fun f => (Finset.univ : Finset (Fin 1000)).fold max ⊥ f) (funext fun j => hx r j)
  rw [subf_apply, subf_apply, addf_apply, log_at]
  unfold nll
  refine row_close ((broadcast_apply _ _).trans Ideal.ofBits_zero_f32) ?_ ?_ ?_
  · refine (keep_sum _ r).trans ?_
    refine (Finset.sum_congr rfl fun j _ => masked_at x l r j).trans ?_
    refine (pick_sum (l (ix2 r (0 : Fin 1))) hw (fun j => x (ix2 r j))).trans ?_
    rw [hl r]
    exact hx r _
  · exact (keep_max x r).trans hM
  · refine (keep_sum _ r).trans ?_
    unfold sumExp
    refine Finset.sum_congr rfl fun j _ => ?_
    refine (shift_at x _ r j).trans ?_
    rw [keep_max, hM, hx r j]

end Cert.KernelIdeal.KV

end
-- ==== Proof.LibNary3.lean ====
/-
  A host operation with THREE operands given as a literal family of references — a three-piece
  `stablehlo.concatenate`, written `nary ![x, a, b] y f` — read at its result buffer.

  The general result lemma for a family of operands leaves each operand's contents under a binder,
  `f (fun k => F ↑(![x, a, b] k))`, where the reference `![x, a, b] k` is not a literal, so no
  later rewriting reaches the operands' own contents. When the function is given by its three
  arguments, `f u = g (u 0) (u 1) (u 2)`, the result is `g` of the three operands' contents, each read at
  its own reference: the family agrees with the three contents at the positions `0, 1, 2`, which is all
  of `Fin 3`. The library states the analogue for a family of four.
-/
import Idealize.ShloMosaic.Lib.StableHlo.Run

noncomputable section

namespace Cert.Lib.Nary3

open Idealize.ShloMosaic Idealize.ShloMosaic.StableHlo Idealize.SL.Sem

variable {τ : Topo} {sig : RefSig} {Val : EltTy → Type}
variable {x a b y : Ref sig .tc}

/-- `nary` over a literal family of three references, at its result buffer: `f` of the three operands'
    contents, each read at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same for a function given by its three arguments: no projection of a family is left in the result. -/
theorem nary3_result_of
    (f : ((k : Fin 3) → ((![x, a, b] : Fin 3 → Ref sig .tc) k).ty.Contents Val) → y.ty.Contents Val) (hxs hy)
    (F : Valuation τ sig Val)
    (g : x.ty.Contents Val → a.ty.Contents Val → b.ty.Contents Val → y.ty.Contents Val)
    (hg : ∀ u, f u = g (u 0) (u 1) (u 2)) :
    (nary (τ := τ) ![x, a, b] y f hxs hy).result F (Proc.devRef .tc y)
      = g (F (Proc.devRef .tc x)) (F (Proc.devRef .tc a)) (F (Proc.devRef .tc b)) := by
  rw [nary_result, hg]
  rfl

end Cert.Lib.Nary3

end
-- ==== Proof.TileSum.lean ====
import proofs.«420762_j16913581211856_3_alg».proof.Proof.Spec
import Idealize.ShloMosaic.PureOps.Ideal
import Idealize.ShloMosaic.Lib.ValueIdx
import Mathlib.Data.EReal.Operations
import Mathlib.Data.EReal.Inv

/-! # The sum over a tiled array whose entry depends only on its first coordinate

An array of shape `[T, 8, 128]` whose entry at `(t, a, b)` is `p t` sums to `1024` times the sum of `p`: each
`t` is met once for each of the `8 · 128 = 1024` positions of its tile. Dividing by the word of the real `1024` gives
the sum of `p` back, for every extended-real `p`: multiplication of extended reals is commutative and associative,
and `1024 · (1/1024) = 1`. -/

noncomputable section

namespace Cert.Loss

open Idealize.ShloMosaic Idealize.ShloMosaic.ValueIdx

namespace TileAux

/-- A rank-3 index set is the product of its three coordinate ranges. -/
def idxEquiv3 {a b c : Nat} : (⟨3, ![a, b, c]⟩ : Shape).Idx ≃ Fin a × Fin b × Fin c where
  toFun i := (i 0, i 1, i 2)
  invFun q := ix3 q.1 q.2.1 q.2.2
  left_inv i := (eq_ix3 i).symm
  right_inv _ := rfl

/-- The divisor's word is the real `1024`. -/
theorem n1024_eq : n1024 = ((1024 : ℝ) : EReal) := by
  simp [Ideal.ofBits, Ideal.ieee, -EReal.coe_mul]; norm_num

/-- The tiled sum is `1024` times the sum over the first coordinate. -/
theorem tile_sum_mul {T : Nat} (p : Fin T → EReal) :
    ∑ idx : (⟨3, ![T, 8, 128]⟩ : Shape).Idx, p (idx 0) = ((1024 : ℝ) : EReal) * ∑ t : Fin T, p t := by
  rw [← Equiv.sum_comp (idxEquiv3 (a := T) (b := 8) (c := 128)).symm, Fintype.sum_prod_type]
  have h : ∀ (x : Fin T) (y : Fin 8 × Fin 128),
      p (((idxEquiv3 (a := T) (b := 8) (c := 128)).symm (x, y)) 0) = p x := fun _ _ => rfl
  simp only [h, Finset.sum_const, Finset.card_univ, Fintype.card_prod, Fintype.card_fin]
  have e : ((8 * 128 : ℕ) : ℝ) = (1024 : ℝ) := by norm_num
  rw [Finset.sum_nsmul, EReal.nsmul_eq_mul, ← EReal.coe_coe_eq_natCast, e]

end TileAux

open TileAux in
/-- Divided by the word of `1024`, the tiled sum from zero is the sum over the first coordinate. -/
theorem tile_sum {T : Nat} (p : Fin T → EReal) :
    Ideal.div (0 + ∑ idx : (⟨3, ![T, 8, 128]⟩ : Shape).Idx, p (idx 0)) n1024 = ∑ t : Fin T, p t := by
  rw [zero_add, tile_sum_mul, n1024_eq, Ideal.div_coe (by norm_num)]
  rw [mul_comm ((1024 : ℝ) : EReal), mul_assoc, ← EReal.coe_mul]
  norm_num

end Cert.Loss

end
-- ==== Proof.KVal0.lean ====
import proofs.«420762_j16913581211856_3_alg».proof.Proof.KI.Run
import proofs.«420762_j16913581211856_3_alg».proof.Proof.KPay0
import proofs.«420762_j16913581211856_3_alg».proof.Proof.LibNary3
import proofs.«420762_j16913581211856_3_alg».proof.Proof.Spec
import proofs.«420762_j16913581211856_3_alg».proof.Proof.TileSum
import Mathlib.Algebra.BigOperators.Fin
import Mathlib.Logic.Equiv.Fin.Basic
import Idealize.ShloMosaic.Lib.Pipeline.Value
import Idealize.ShloMosaic.Lib.StableHlo.Run
import Idealize.ShloMosaic.Lib.ValueIdx
import Idealize.ShloMosaic.Lib.ValueLayout
import Idealize.ShloMosaic.Lib.IdealHost
import Idealize.ShloMosaic.PureOps.Ideal.Laws

/-! # The cross-entropy result of the kernel program's run

The first kernel region runs once per block of 1024 logit rows. At point `t` it reads rows `1024 t … 1024 t + 1023`
of the logits and of the labels' column, and overwrites tile `t` of a `[12, 8, 128]` array with one value in
every entry: the sum of the negative log-likelihoods of the block's rows. The labels' column is laid out by the
host before the region: the anchors' labels, the anchors' labels again, the negatives' labels, joined and cast
to a column, so that its entry `(i, 0)` is the label of logit row `i`.

After the region the host sums the tiled array over all its axes, divides by 1024 (each block's sum appears
`8 · 128 = 1024` times) and by 12288: the mean over all rows of the negative log-likelihood. The twelve block sums
of 1024 rows each are regrouped into the one sum over the 12288 rows.

No other stretch of the program writes the result afterwards. -/

set_option maxRecDepth 16384

noncomputable section

namespace Cert.KernelIdeal.KV

open Cert.KernelIdeal Cert.KernelIdeal.Gen Cert.KernelIdeal.Fr Cert.Loss
open Idealize.ShloMosaic Idealize.ShloMosaic.ValueIdx Idealize.ShloMosaic.TcCoe Idealize.SL.Sem
open Idealize.ShloMosaic.Pipeline (Dat)

namespace Sm

variable (V : (c : Dev nD) → (b : Ref sig .tc) → Buf (Elt Ideal) ((c : Thread nD τ).loc b))
variable (X : FVec Ideal SNC .f32) (la ln : IVec SB 32)

/-- The sum of the negative log-likelihoods of the 1024 rows of block `t`. -/
def blockNll (t : Fin 12) : EReal :=
  ∑ r : Fin 1024, nll X la ln ⟨1024 * t.val + r.val, by have := t.isLt; have := r.isLt; omega⟩

/-- What the tiled output array ends holding: every entry of tile `t` is block `t`'s sum. -/
def tiles : S12x8x128.Idx → EReal := fun i => blockNll X la ln (i 0)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The grid has twelve points. -/
theorem lt12 (t : Fin cfg0.N) : t.val < 12 := Nat.lt_of_lt_of_eq t.isLt N_0
/-- A grid point as a block number. -/
def pt (t : Fin cfg0.N) : Fin 12 := ⟨t.val, lt12 t⟩

/-- At point `t` each window's block is block `t` along the leading axis and the whole of every other axis. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- The logits' block at point `t` is rows `1024 t … 1024 t + 1023` of the logits. -/
theorem logits_block (c : Dev nD) (t : Fin cfg0.N) (r : Fin 1024) (j : Fin 1000) :
    (iblk0 V c 0 t : Vec Ideal S1024x1000 .f32) (ix2 r j)
      = (V c main_arg3 : S12288x1000.Idx → EReal) (ix2 ⟨1024 * t.val + r.val, by have := lt12 t; have := r.isLt; omega⟩ j) := by
  show V c main_arg3 (((cfg0.win 0).blk t).view.emb (ix2 r j)) = V c main_arg3 _
  refine congrArg (V c main_arg3) (funext fun a => Fin.ext ?_)
  obtain ⟨e0, e1, -⟩ := idx_facts t
  match a with
  | ⟨0, _⟩ => show win0_0.index t (0 : Fin 2) * 1024 + 1 * r.val = 1024 * t.val + r.val; omega
  | ⟨1, _⟩ => show win0_0.index t (1 : Fin 2) * 1000 + 1 * j.val = j.val; omega

/-- The labels' block at point `t` is rows `1024 t … 1024 t + 1023` of the labels' column. -/
theorem labels_block (c : Dev nD) (t : Fin cfg0.N) (r : Fin 1024) :
    (iblk0 V c 1 t : Vec Ideal S1024x1 .i32) (ix2 r 0)
      = (V c main_v1 : S12288x1.Idx → BitVec 32) (ix2 ⟨1024 * t.val + r.val, by have := lt12 t; have := r.isLt; omega⟩ 0) := by
  show V c main_v1 (((cfg0.win 1).blk t).view.emb (ix2 r 0)) = V c main_v1 _
  refine congrArg (V c main_v1) (funext fun a => Fin.ext ?_)
  obtain ⟨-, -, e0, e1, -⟩ := idx_facts t
  match a with
  | ⟨0, _⟩ => show win0_1.index t (0 : Fin 2) * 1024 + 1 * r.val = 1024 * t.val + r.val; omega
  | ⟨1, _⟩ => show win0_1.index t (1 : Fin 2) * 1 + 1 * 0 = 0; omega

theorem flushed_eq (c : Dev nD) (hla : InRange la) (hln : InRange ln)
    (hL : ∀ i : Fin 12288, (V c main_v1 : S12288x1.Idx → BitVec 32) (ix2 i 0) = lab la ln i) (t : Fin cfg0.N) :
    (dat0 V c).flushed 2 t = ((cfg0.win 2).blk t).view.read (Elt Ideal) (tiles (V c main_arg3) la ln) := by
  show (cfg0.win 2).cut (grid0.coords t) ((dat0 V c).after 2 t) = _
  rw [after0_2]
  unfold out0_2
  rw [View.canon_unit_zero zeros3]
  simp only [View.ld_unit_zero (S := S1024x1000) zeros2, View.ld_unit_zero (S := S1024x1) zeros2]
  funext j
  obtain ⟨o, a, b, rfl⟩ : ∃ (o : Fin 1) (a : Fin 8) (b : Fin 128), j = ix3 o a b := ⟨j 0, j 1, j 2, eq_ix3 j⟩
  obtain rfl : o = 0 := Subsingleton.elim _ _
  show k0_pay1 (F := Ideal) (iblk0 V c 0 t) (iblk0 V c 1 t) (ix3 0 a b) = tiles (V c main_arg3) la ln (((cfg0.win 2).blk t).view.emb (ix3 0 a b))
  refine (pay0_apply (V c main_arg3) la ln hla hln (pt t) (iblk0 V c 0 t) (iblk0 V c 1 t)
    (fun r j => logits_block V c t r j) (fun r => (labels_block V c t r).trans (hL _)) a b).trans ?_
  show blockNll (V c main_arg3) la ln (pt t)
    = blockNll (V c main_arg3) la ln ((((cfg0.win 2).blk t).view.emb (ix3 0 a b)) 0)
  refine congrArg (blockNll (V c main_arg3) la ln) (Fin.ext ?_)
  show t.val = win0_2.index t (0 : Fin 3) * 1 + 1 * 0
  obtain ⟨-, -, -, -, e0, -⟩ := idx_facts t
  omega

/-- An index of the tiled array is in point `t`'s block iff each coordinate is in the block's range on its axis. -/
theorem mem_blk (t : Fin cfg0.N) (i : S12x8x128.Idx) :
    i ∈ ((cfg0.win 2).blk t).view.set ↔ ∀ a : Fin 3, win0_2.index t a * S1x8x128.size a ≤ (i a).val ∧ (i a).val < win0_2.index t a * S1x8x128.size a + S1x8x128.size a := by
  show i ∈ ((View.whole main_v2).slice (win0_2.rect t)).set ↔ _
  rw [View.set_slice_whole, Rect.mem_set_unit]
  exact Iff.rfl

/-- Tile `q` of the array is written back by point `q`. -/
theorem cover (i : S12x8x128.Idx) : ∃ t : Fin cfg0.N, (cfg0.win 2).flush t = true ∧ i ∈ ((cfg0.win 2).blk t).view.set := by
  have h0 : (i 0).val < 12 := (i 0).isLt
  have h1 : (i 1).val < 8 := (i 1).isLt
  have h2 : (i 2).val < 128 := (i 2).isLt
  obtain ⟨t, ht⟩ : ∃ t : Fin cfg0.N, t.val = (i 0).val := ⟨⟨(i 0).val, Nat.lt_of_lt_of_eq h0 N_0.symm⟩, rfl⟩
  refine ⟨t, flush0_2 t, ?_⟩
  rw [mem_blk]
  obtain ⟨-, -, -, -, e0, e1, e2⟩ := idx_facts t
  intro a
  match a with
  | ⟨0, _⟩ => show win0_2.index _ (0 : Fin 3) * 1 ≤ (i 0).val ∧ (i 0).val < win0_2.index _ (0 : Fin 3) * 1 + 1; rw [e0, ht]; omega
  | ⟨1, _⟩ => show win0_2.index _ (1 : Fin 3) * 8 ≤ (i 1).val ∧ (i 1).val < win0_2.index _ (1 : Fin 3) * 8 + 8; rw [e1]; omega
  | ⟨2, _⟩ => show win0_2.index _ (2 : Fin 3) * 128 ≤ (i 2).val ∧ (i 2).val < win0_2.index _ (2 : Fin 3) * 128 + 128; rw [e2]; omega

/-- The output array after the region: every entry of tile `t` is block `t`'s sum. -/
theorem final_tiles (c : Dev nD) (hla : InRange la) (hln : InRange ln)
    (hL : ∀ i : Fin 12288, (V c main_v1 : S12288x1.Idx → BitVec 32) (ix2 i 0) = lab la ln i) :
    (dat0 V c).arrAt 2 cfg0.N = tiles (V c main_arg3) la ln :=
  (dat0 V c).arrAt_eq_of_cover 2 (tiles (V c main_arg3) la ln) (fun t _ => flushed_eq V la ln c hla hln hL t) cover

/-! ## The labels' column -/

/-- The column the first host stretch lays out: entry `(i, 0)` is the label of logit row `i`. -/
theorem labels_column (W : Valuation τ sig (Elt Ideal)) (i : Fin 12288) :
    (StableHlo.after (hostOps0 (F := Ideal)) W (Proc.devRef .tc main_v1) : S12288x1.Idx → BitVec 32) (ix2 i 0)
      = lab (W (Proc.devRef .tc main_arg4)) (W (Proc.devRef .tc main_arg5)) i := by
  simp only [StableHlo.after_cons, StableHlo.after_nil]
  rw [StableHlo.reshape_result, Cert.Lib.Nary3.nary3_result]
  show shapeCast S12288x1 (concatenate S12288 0 [⟨S4096, W (Proc.devRef .tc main_arg4)⟩, ⟨S4096, W (Proc.devRef .tc main_arg4)⟩,
      ⟨S4096, W (Proc.devRef .tc main_arg5)⟩] concatenates_S4096_S4096_S4096_S12288_d0) shapeCasts_S12288_S12288x1 (ix2 i 0) = _
  rw [shapeCast_apply _ _ _ (ix1 i) (by
    rw [Shape.rowMajor_val_one, Shape.rowMajor_val_two]
    show i.val = i.val * 1 + 0
    omega)]
  have hi := i.isLt
  unfold lab
  by_cases h1 : i.val < 4096
  · rw [dif_pos h1]
    exact concatenate_apply_piece 0 _ _ (ix1 i) 0 (by show (0 : Nat) < 3; omega) S4096 _ rfl rfl 0 rfl (ix1 ⟨i.val, h1⟩)
      (fun b hb => absurd (Subsingleton.elim _ _) hb) (by show 0 + i.val = i.val; omega)
  · rw [dif_neg h1]
    by_cases h2 : i.val < 8192
    · rw [dif_pos h2]
      exact concatenate_apply_piece 0 _ _ (ix1 i) 1 (by show (1 : Nat) < 3; omega) S4096 _ rfl rfl 4096 rfl (ix1 ⟨i.val - 4096, by omega⟩)
        (fun b hb => absurd (Subsingleton.elim _ _) hb) (by show 4096 + (i.val - 4096) = i.val; omega)
    · rw [dif_neg h2]
      exact concatenate_apply_piece 0 _ _ (ix1 i) 2 (by show (2 : Nat) < 3; omega) S4096 _ rfl rfl 8192 rfl (ix1 ⟨i.val - 8192, by omega⟩)
        (fun b hb => absurd (Subsingleton.elim _ _) hb) (by show 8192 + (i.val - 8192) = i.val; omega)

/-! ## The host tail -/

/-- What the second host stretch leaves in the cross-entropy result: the tiled array summed over all its axes from zero,
    divided by the word of 1024 and then by the word of 12288. -/
theorem tail_result (Wv : Valuation τ sig (Elt Ideal)) :
    StableHlo.after (hostOps1 (F := Ideal)) Wv (Proc.devRef .tc main_v5)
      = Host.divf (F := Ideal) (Host.divf (F := Ideal)
          (Host.reduceAdd (F := Ideal) (Wv (Proc.devRef .tc main_v2) : S12x8x128.Idx → EReal)
            (constant (F := Ideal) S_ .f32 0x00000000#32) reducesTo_S12x8x128_S_d0_1_2 h_S_)
          (constant (F := Ideal) S_ .f32 0x44800000#32)) (constant (F := Ideal) S_ .f32 0x46400000#32) := by
  after_results

/-- The double sum over blocks and rows of a block is the sum over all rows. -/
theorem sum_blocks (f : Fin 12288 → EReal) :
    ∑ t : Fin 12, ∑ r : Fin 1024, f ⟨1024 * t.val + r.val, by have := t.isLt; have := r.isLt; omega⟩ = ∑ i : Fin 12288, f i := by
  rw [← Fintype.sum_prod_type' (f := fun (t : Fin 12) (r : Fin 1024) => f ⟨1024 * t.val + r.val, by have := t.isLt; have := r.isLt; omega⟩)]
  exact Fintype.sum_equiv (finProdFinEquiv : Fin 12 × Fin 1024 ≃ Fin 12288) _ _
    (fun p => congrArg f (Fin.ext (by
      show 1024 * p.1.val + p.2.val = ((finProdFinEquiv : Fin 12 × Fin 1024 ≃ Fin 12288) p).val
      rw [finProdFinEquiv_apply_val]; omega)))

/-- The tail over an array whose entry depends only on its tile: the mean of the tiles' values' sum. -/
theorem tail_value (T : S12x8x128.Idx → EReal) (p : Fin 12 → EReal) (hT : T = fun i => p (i 0)) :
    Host.divf (F := Ideal) (Host.divf (F := Ideal)
          (Host.reduceAdd (F := Ideal) T (constant (F := Ideal) S_ .f32 0x00000000#32) reducesTo_S12x8x128_S_d0_1_2 h_S_)
          (constant (F := Ideal) S_ .f32 0x44800000#32)) (constant (F := Ideal) S_ .f32 0x46400000#32)
      = fun _ => Ideal.div (∑ t : Fin 12, p t) n12288 := by
  funext j
  show Ideal.div (Ideal.div (Ideal.hostReduceAdd reducesTo_S12x8x128_S_d0_1_2 T (Ideal.ofBits .f32 0x00000000#32) j) n1024) n12288 = _
  rw [Ideal.hostReduceAdd_total _ (fun b => b.elim0), Ideal.ofBits_zero_f32, hT, tile_sum]

end Sm

open Sm

/-! ## The run's cross-entropy result -/

section Result
variable (m : (ℓ : Loc nD τ sig) → Buf (Elt Ideal) ℓ) (ρ : Dev nD → PrngReg)

/-- THE CROSS-ENTROPY RESULT after the run is the specification's: the mean over the 12288 rows of the row's negative
    log-likelihood. -/
theorem kv_sm (c : Dev nD)
    (hla : InRange (m ((c.tc : Thread nD τ).loc main_arg4))) (hln : InRange (m ((c.tc : Thread nD τ).loc main_arg5))) :
    W5 (F := Ideal) m ρ c (Proc.devRef .tc main_v5)
      = fun _ => smLoss (m ((c.tc : Thread nD τ).loc main_arg3)) (m ((c.tc : Thread nD τ).loc main_arg4)) (m ((c.tc : Thread nD τ).loc main_arg5)) := by
  -- the first host stretch leaves the logits alone and lays the labels out as a column
  have hX : V1 m ρ c main_arg3 = m ((c.tc : Thread nD τ).loc main_arg3) :=
    StableHlo.after_of_writes_sub hostOps0 _ hostOps0_writes (by decide : main_arg3 ∉ hostOps0_W)
  have hL : ∀ i : Fin 12288, (V1 m ρ c main_v1 : S12288x1.Idx → BitVec 32) (ix2 i 0)
      = lab (m ((c.tc : Thread nD τ).loc main_arg4)) (m ((c.tc : Thread nD τ).loc main_arg5)) i :=
    fun i => labels_column (W0 m ρ c) i
  -- the region leaves the tiles
  have hT : W2 m ρ c (Proc.devRef .tc main_v2)
      = tiles (m ((c.tc : Thread nD τ).loc main_arg3)) (m ((c.tc : Thread nD τ).loc main_arg4)) (m ((c.tc : Thread nD τ).loc main_arg5)) :=
    ((W2_arr m ρ c 2).trans (final_tiles (V1 m ρ) _ _ c hla hln hL)).trans
      (congrArg (fun Y : FVec Ideal SNC .f32 => tiles Y (m ((c.tc : Thread nD τ).loc main_arg4)) (m ((c.tc : Thread nD τ).loc main_arg5))) hX)
  calc W5 m ρ c (Proc.devRef .tc main_v5)
    _ = W4 m ρ c (Proc.devRef .tc main_v5) :=
        StableHlo.after_of_writes_sub hostOps2 _ hostOps2_writes (by decide : main_v5 ∉ hostOps2_W)
    _ = W3 m ρ c (Proc.devRef .tc main_v5) := W4_of_ne m ρ c main_v5 (by decide)
    _ = _ := tail_result (W2 m ρ c)
    _ = _ := tail_value _ (blockNll (m ((c.tc : Thread nD τ).loc main_arg3)) (m ((c.tc : Thread nD τ).loc main_arg4)) (m ((c.tc : Thread nD τ).loc main_arg5))) hT
    _ = _ := by
        funext _
        unfold smLoss
        rw [← sum_blocks]
        rfl

end Result

end Cert.KernelIdeal.KV

end
-- ==== Proof.KPay1T.lean ====
import proofs.«420762_j16913581211856_3_alg».proof.Proof.Gen.KernelIdeal.Skeleton
import proofs.«420762_j16913581211856_3_alg».proof.Proof.Spec
import Idealize.ShloMosaic.Lib.ValueIdx
import Idealize.ShloMosaic.Lib.Pipeline.Value
import Idealize.ShloMosaic.Lib.ValueLayout
import Idealize.ShloMosaic.PureOps.Ideal.Laws

/-! # The fused kernel's first tile: the triplet term of one block of rows

At grid point t the kernel holds rows 512·t … 512·t + 511 of the anchors, positives and negatives. Its first
stored tile is, at every one of its 8 · 128 positions, the sum over the block's 512 rows of the row's margin:
the square root of the lane sum of squared differences anchor − positive, minus the same for anchor − negative,
clipped at zero. The lane sums, the keepdims column cast, the sum over the rows and the final broadcast over the
tile are read at coordinates one operation at a time; row r of the block is row 512·t + r of the arrays. -/

noncomputable section

namespace Cert.KernelIdeal.KV

open Cert.KernelIdeal Cert.KernelIdeal.Gen Cert.Loss Idealize.ShloMosaic Idealize.ShloMosaic.ValueIdx

namespace Trip

/-- A vector [a] cast to the column [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A [1, 1] array broadcast to [a, b] reads its one entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- The square root of a vector read at an index. -/
theorem sqrt_apply {s : Shape} {φ : FTy} (x : FVec Ideal s φ) (i : s.Idx) : sqrt x i = Ideal.sqrt (x i) := rfl

/-- The lane sum of a [512, 512] block at row r: the sum over the 512 columns. -/
theorem laneSum_apply (v : FVec Ideal S512x512 .f32) (r : Fin 512) :
    multiReduction (F := Ideal) .add [1] S512 v 0x00000000#32 reduces_S512x512_S512 (.inl rfl) rfl (ix1 r)
      = ∑ k : Fin 512, v (ix2 r k) := by
  refine (Ideal.multiReduction_add_single v _ reduces_S512x512_S512 (.inl rfl) rfl (ix1 r)).trans ?_
  refine Finset.sum_congr rfl fun k _ => congrArg v ?_
  funext d
  match d with
  | ⟨0, _⟩ => rfl
  | ⟨1, _⟩ => rfl

/-- The sum over the rows of a [512, 1] column: the sum of its 512 entries. -/
theorem rowSum_apply (v : FVec Ideal S512x1 .f32) :
    multiReduction (F := Ideal) .add [0] S1 v 0x00000000#32 reduces_S512x1_S1 (.inl rfl) rfl (ix1 (0 : Fin 1))
      = ∑ r : Fin 512, v (ix2 r (0 : Fin 1)) := by
  refine (Ideal.multiReduction_add_single v _ reduces_S512x1_S1 (.inl rfl) rfl (ix1 (0 : Fin 1))).trans ?_
  refine Finset.sum_congr rfl fun r _ => congrArg v ?_
  funext d
  match d with
  | ⟨0, _⟩ => rfl
  | ⟨1, _⟩ => rfl

/-- The tile broadcast: every position of the stored tile reads the [1, 1] value's one entry. -/
theorem pay1_apply (v : FVec Ideal S1x1 .f32) (a : Fin 8) (b : Fin 128) :
    k1_pay1 (F := Ideal) v (ix3 0 a b) = v (ix2 (0 : Fin 1) (0 : Fin 1)) := by
  unfold k1_pay1
  rw [shapeCast_ab_1ab_apply, broadcastTo_11_ab_apply, shapeCast_self]

/-- The block's triplet sum, over the block's own rows. -/
theorem pay4_apply (x0 x1 x2 : FVec Ideal S512x512 .f32) :
    k1_pay4 (F := Ideal) x0 x1 x2 (ix2 (0 : Fin 1) (0 : Fin 1))
      = ∑ r : Fin 512,
          max (Ideal.sqrt (∑ k : Fin 512, (x0 (ix2 r k) - x1 (ix2 r k)) * (x0 (ix2 r k) - x1 (ix2 r k)))
                - Ideal.sqrt (∑ k : Fin 512, (x0 (ix2 r k) - x2 (ix2 r k)) * (x0 (ix2 r k) - x2 (ix2 r k)))) 0 := by
  unfold k1_pay4
  dsimp only
  rw [shapeCast_a_1a_apply, rowSum_apply]
  refine Finset.sum_congr rfl fun r _ => ?_
  rw [maximumf_apply, subf_apply, sqrt_apply, sqrt_apply, shapeCast_a_a1_apply, shapeCast_a_a1_apply,
    laneSum_apply, laneSum_apply, broadcast_apply]
  refine congrArg₂ max rfl ?_
  exact Ideal.ofBits_zero_f32

end Trip

theorem pay1_trip_apply (A P N : FVec Ideal SBD .f32) (t : Fin 8) (x0 x1 x2 : Vec Ideal S512x512 .f32)
    (h0 : ∀ (r k : Fin 512), x0 (ix2 r k) = A (ix2 ⟨512 * t.val + r.val, by have := t.isLt; have := r.isLt; omega⟩ k))
    (h1 : ∀ (r k : Fin 512), x1 (ix2 r k) = P (ix2 ⟨512 * t.val + r.val, by have := t.isLt; have := r.isLt; omega⟩ k))
    (h2 : ∀ (r k : Fin 512), x2 (ix2 r k) = N (ix2 ⟨512 * t.val + r.val, by have := t.isLt; have := r.isLt; omega⟩ k))
    (a : Fin 8) (b : Fin 128) :
    k1_pay1 (F := Ideal) (k1_pay4 x0 x1 x2) (ix3 0 a b) = ∑ r : Fin 512, tripRow A P N ⟨512 * t.val + r.val, by have := t.isLt; have := r.isLt; omega⟩ := by
  rw [Trip.pay1_apply, Trip.pay4_apply]
  refine Finset.sum_congr rfl fun r _ => ?_
  unfold tripRow sqd
  simp only [h0, h1, h2]

end Cert.KernelIdeal.KV

end
-- ==== Proof.KPay1C.lean ====
import proofs.«420762_j16913581211856_3_alg».proof.Proof.Gen.KernelIdeal.Skeleton
import proofs.«420762_j16913581211856_3_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

/-! # The centre term's tile

The second tile of the fused kernel's block `t` holds, at every position, the sum over the block's 512 rows of the
row's centre term. Entry `(r, j)` of the distance block is the square root of `‖a‖² + ‖eⱼ‖² − 2 a·eⱼ` clipped at
zero, where `a` is row `512 t + r` of the anchors: the squared norm is a lane sum of squares, the exemplars' squared
norms arrive as a row, and the inner products are the product of the block with the transposed exemplars into a zero
accumulator (a format change is the identity on extended reals). A row's term is the masked lane sum that picks the
distance to the exemplar of the row's own class (exactly one lane number equals a label in range), minus the row's
least distance (the fold of `min` from plus infinity), clipped at zero; the rows' terms are summed and the sum is
spread over the tile. -/

noncomputable section

namespace Cert.KernelIdeal.KV

open Cert.KernelIdeal Cert.KernelIdeal.Gen Cert.Loss Idealize.ShloMosaic Idealize.ShloMosaic.ValueIdx

namespace Ctr

/-! ## Layout operations at coordinates -/

section Layout
variable {α : Type}

/-- A vector `[a]` cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-element array `[1, 1]` broadcast to `[a, b]` reads its one element everywhere. -/
theorem broadcastTo_11_ab_apply {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Layout

/-! ## Reductions at coordinates -/

/-- The words of zero and of plus infinity. -/
theorem ofBits_zero : (FloatOps.ofBits (F := Ideal) .f32 0x00000000#32 : EReal) = 0 := Ideal.ofBits_zero_f32

theorem ofBits_top : (FloatOps.ofBits (F := Ideal) .f32 0x7F800000#32 : EReal) = ⊤ := by
  show Ideal.ofBits .f32 0x7F800000#32 = ⊤
  simp [Ideal.ofBits, Ideal.ieee]

/-- The lane sum of a `[512, 512]` array at row `r`. -/
theorem sum_lane_512x512 (src : FVec Ideal S512x512 .f32) (hφ : FKind.Formats FTy.f32)
    (hacc : (0x00000000#32 : BitVec 32) = 0x00000000#32) (r : Fin 512) :
    multiReduction (F := Ideal) .add [1] S512 src 0x00000000#32 reduces_S512x512_S512 hφ hacc (ix1 r)
      = ∑ k : Fin 512, src (ix2 r k) := by
  refine (Ideal.multiReduction_add_single src 0x00000000#32 reduces_S512x512_S512 hφ hacc (ix1 r)).trans ?_
  refine Finset.sum_congr rfl fun k _ => congrArg src ?_
  funext c
  match c with
  | ⟨0, _⟩ => rfl
  | ⟨1, _⟩ => rfl

/-- The lane sum of a `[512, 1000]` array at row `r`. -/
theorem sum_lane_512x1000 (src : FVec Ideal S512x1000 .f32) (hφ : FKind.Formats FTy.f32)
    (hacc : (0x00000000#32 : BitVec 32) = 0x00000000#32) (r : Fin 512) :
    multiReduction (F := Ideal) .add [1] S512 src 0x00000000#32 reduces_S512x1000_S512 hφ hacc (ix1 r)
      = ∑ k : Fin 1000, src (ix2 r k) := by
  refine (Ideal.multiReduction_add_single src 0x00000000#32 reduces_S512x1000_S512 hφ hacc (ix1 r)).trans ?_
  refine Finset.sum_congr rfl fun k _ => congrArg src ?_
  funext c
  match c with
  | ⟨0, _⟩ => rfl
  | ⟨1, _⟩ => rfl

/-- The sum over the rows of a column `[512, 1]`. -/
theorem sum_rows_512x1 (src : FVec Ideal S512x1 .f32) (hφ : FKind.Formats FTy.f32)
    (hacc : (0x00000000#32 : BitVec 32) = 0x00000000#32) (u : Fin 1) :
    multiReduction (F := Ideal) .add [0] S1 src 0x00000000#32 reduces_S512x1_S1 hφ hacc (ix1 u)
      = ∑ r : Fin 512, src (ix2 r (0 : Fin 1)) := by
  refine (Ideal.multiReduction_add_single src 0x00000000#32 reduces_S512x1_S1 hφ hacc (ix1 u)).trans ?_
  refine Finset.sum_congr rfl fun k _ => congrArg src ?_
  funext c
  match c with
  | ⟨0, _⟩ => rfl
  | ⟨1, _⟩ => exact Fin.ext (by have := u.isLt; show u.val = 0; omega)

/-- The least entry of row `r` of a `[512, 1000]` array: the fold of `min` from plus infinity. -/
theorem min_lane_512x1000 (src : FVec Ideal S512x1000 .f32) (hφ : FKind.Formats FTy.f32)
    (hacc : (0x7F800000#32 : BitVec 32) = 0x7F800000#32) (r : Fin 512) :
    multiReduction (F := Ideal) .minimumf [1] S512 src 0x7F800000#32 reduces_S512x1000_S512 hφ hacc (ix1 r)
      = (Finset.univ : Finset (Fin 1000)).fold min ⊤ (fun j => src (ix2 r j)) := by
  refine (multiReduction_minimumf_eq_fold src 0x7F800000#32 reduces_S512x1000_S512 hφ hacc (ix1 r)).trans ?_
  refine (reduces_S512x1000_S512.fold_filter_drop_single FloatOps.minimumf _ src (ix1 r)).trans ?_
  have hf : (src ∘ reduces_S512x1000_S512.lift (ix1 r)) = fun j : Fin 1000 => src (ix2 r j) :=
    funext fun j => congrArg src (funext fun c => match c with | ⟨0, _⟩ => rfl | ⟨1, _⟩ => rfl)
  rw [ofBits_top, hf]
  rfl

/-! ## The product of the anchors' block with the transposed exemplars -/

theorem lhs_mm_0 (i : S512x1000.Idx) (q : dot_S512x512_S512x1000_S512x1000_1_0_0_1_n_n.contr.Idx) :
    (dot_S512x512_S512x1000_S512x1000_1_0_0_1_n_n.lhsIdx i q 0).val = (i 0).val := by
  unfold DotDims.lhsIdx
  rw [dif_neg (show ¬(0 : Fin S512x512.rank) ∈ dot_S512x512_S512x1000_S512x1000_1_0_0_1_n_n.lhsBatch by decide), dif_pos (show (0 : Fin S512x512.rank) ∈ dot_S512x512_S512x1000_S512x1000_1_0_0_1_n_n.lhsNonContracting by decide)]
  rfl
theorem lhs_mm_1 (i : S512x1000.Idx) (q : dot_S512x512_S512x1000_S512x1000_1_0_0_1_n_n.contr.Idx) :
    (dot_S512x512_S512x1000_S512x1000_1_0_0_1_n_n.lhsIdx i q 1).val = (q ⟨0, by decide⟩).val :=
  dot_S512x512_S512x1000_S512x1000_1_0_0_1_n_n.lhsIdx_val_of_single rfl i q
theorem rhs_mm_0 (i : S512x1000.Idx) (q : dot_S512x512_S512x1000_S512x1000_1_0_0_1_n_n.contr.Idx) :
    (dot_S512x512_S512x1000_S512x1000_1_0_0_1_n_n.rhsIdx i q 0).val = (q ⟨0, by decide⟩).val :=
  dot_S512x512_S512x1000_S512x1000_1_0_0_1_n_n.rhsIdx_val_of_single rfl i q
theorem rhs_mm_1 (i : S512x1000.Idx) (q : dot_S512x512_S512x1000_S512x1000_1_0_0_1_n_n.contr.Idx) :
    (dot_S512x512_S512x1000_S512x1000_1_0_0_1_n_n.rhsIdx i q 1).val = (i 1).val := by
  unfold DotDims.rhsIdx
  rw [dif_neg (show ¬(1 : Fin S512x1000.rank) ∈ dot_S512x512_S512x1000_S512x1000_1_0_0_1_n_n.rhsBatch by decide), dif_pos (show (1 : Fin S512x1000.rank) ∈ dot_S512x512_S512x1000_S512x1000_1_0_0_1_n_n.rhsNonContracting by decide)]
  rfl

/-- The product into a zero accumulator, at `(r, j)`: the sum over the contracted axis. -/
theorem mm_apply (lhs : FVec Ideal S512x512 .bf16) (rhs : FVec Ideal S512x1000 .bf16) (r : Fin 512) (j : Fin 1000) :
    matmul (F := Ideal) dot_S512x512_S512x1000_S512x1000_1_0_0_1_n_n none lhs rhs (constant (F := Ideal) S512x1000 .f32 0x00000000#32) (ix2 r j)
      = ∑ k : Fin 512, lhs (ix2 r k) * rhs (ix2 k j) := by
  refine (Ideal.matmul_constant_zero_apply dot_S512x512_S512x1000_S512x1000_1_0_0_1_n_n none lhs rhs (ix2 r j)).trans ?_
  rw [← Equiv.sum_comp (ValueIdx.contrEquiv1 dot_S512x512_S512x1000_S512x1000_1_0_0_1_n_n 512 rfl rfl).symm]
  refine Finset.sum_congr rfl fun k _ => ?_
  have hk := ValueIdx.contrEquiv1_symm_val dot_S512x512_S512x1000_S512x1000_1_0_0_1_n_n 512 rfl rfl k
  have el : dot_S512x512_S512x1000_S512x1000_1_0_0_1_n_n.lhsIdx (ix2 r j) ((ValueIdx.contrEquiv1 dot_S512x512_S512x1000_S512x1000_1_0_0_1_n_n 512 rfl rfl).symm k) = ix2 r k := funext fun a => Fin.ext (by
    match a with
    | ⟨0, _⟩ => exact lhs_mm_0 _ _
    | ⟨1, _⟩ => exact (lhs_mm_1 _ _).trans hk)
  have er : dot_S512x512_S512x1000_S512x1000_1_0_0_1_n_n.rhsIdx (ix2 r j) ((ValueIdx.contrEquiv1 dot_S512x512_S512x1000_S512x1000_1_0_0_1_n_n 512 rfl rfl).symm k) = ix2 k j := funext fun a => Fin.ext (by
    match a with
    | ⟨0, _⟩ => exact (rhs_mm_0 _ _).trans hk
    | ⟨1, _⟩ => exact rhs_mm_1 _ _)
  rw [el, er]

/-! ## The label pick -/

/-- A label in range is below a thousand as a natural number. -/
theorem toNat_lt_of_inRange (l : BitVec 32) (h0 : 0 ≤ l.toInt) (h1 : l.toInt < 1000) : l.toNat < 1000 := by
  rw [BitVec.toInt_eq_toNat_cond] at h0 h1
  split at h0 <;> omega

/-- Among the thousand lane numbers exactly the label's own matches it, so the masked lane sum picks one entry. -/
theorem pick_eq (l : BitVec 32) (h0 : 0 ≤ l.toInt) (h1 : l.toInt < 1000) (d : Fin 1000 → EReal) :
    ∑ j : Fin 1000, Scalar.select (IntOp.cmpi .eq (BitVec.ofNat 32 j.val) l) (d j) (0 : EReal) = d (cls l) := by
  have hl := toNat_lt_of_inRange l h0 h1
  have key : ∀ j : Fin 1000, Scalar.select (IntOp.cmpi .eq (BitVec.ofNat 32 j.val) l) (d j) (0 : EReal)
      = if j = cls l then d j else 0 := by
    intro j
    by_cases hj : j = cls l
    · have e : BitVec.ofNat 32 j.val = l := by
        apply BitVec.eq_of_toNat_eq
        rw [BitVec.toNat_ofNat, hj]
        show l.toNat % 1000 % 2 ^ 32 = l.toNat
        omega
      have c1 : IntOp.cmpi .eq l l = 1#1 := by simp [IntOp.cmpi]
      rw [e, if_pos hj, c1, select_one]
    · have hne : ¬ BitVec.ofNat 32 j.val = l := by
        intro e
        apply hj
        apply Fin.ext
        have e2 := congrArg BitVec.toNat e
        rw [BitVec.toNat_ofNat] at e2
        have := j.isLt
        show j.val = l.toNat % 1000
        omega
      have hb : (BitVec.ofNat 32 j.val == l) = false := beq_eq_false_iff_ne.2 hne
      have c0 : IntOp.cmpi .eq (BitVec.ofNat 32 j.val) l = 0#1 := by simp [IntOp.cmpi, hb]
      rw [c0, select_zero, if_neg hj]
  rw [Finset.sum_congr rfl (fun j _ => key j), Finset.sum_ite_eq' Finset.univ (cls l) d, if_pos (Finset.mem_univ _)]

/-! ## Two more pointwise operations at an index, and the lane number -/

theorem sqrt_apply {s : Shape} {φ : FTy} (x : FVec Ideal s φ) (i : s.Idx) : sqrt x i = Ideal.sqrt (x i) := rfl

theorem cmpi_apply {s : Shape} {w : ℕ} (p : CmpIPredicate) (x y : IVec s w) (i : s.Idx) :
    cmpi p x y i = IntOp.cmpi p (x i) (y i) := rfl

/-- The lane number: the iota along the second axis of a `[512, 1000]` array is the word of the column. -/
theorem iota_lane_apply (h : S512x1000.Iotas .tc 32 [1]) (r : Fin 512) (j : Fin 1000) :
    iota .tc S512x1000 32 [1] h (ix2 r j) = BitVec.ofNat 32 j.val := by
  show BitVec.ofNat 32 (0 * 1000 + j.val) = BitVec.ofNat 32 j.val
  rw [Nat.zero_mul, Nat.zero_add]

/-- The exemplars transposed read, at `(k, j)`, the exemplars at `(j, k)`. -/
theorem transpose_1000x512_apply {α : Type} (x : S1000x512.Idx → α) (h : S1000x512.Transposes [1, 0] S512x1000)
    (k : Fin 512) (j : Fin 1000) : transpose S512x1000 [1, 0] x h (ix2 k j) = x (ix2 j k) :=
  transpose_ix2_apply x h k j

/-! ## The distance block at an entry -/

/-- The distance block at `(r, j)`: the square root of the row's squared norm plus the exemplar's squared norm
    minus twice their inner product, clipped at zero. -/
theorem pay5_apply (x0 : Vec Ideal S512x512 .f32) (x3 : Vec Ideal S1000x512 .bf16) (x4 : Vec Ideal S1x1000 .f32)
    (r : Fin 512) (j : Fin 1000) :
    k1_pay5 (F := Ideal) x0 x3 x4 (ix2 r j)
      = Ideal.sqrt (max ((∑ k : Fin 512, x0 (ix2 r k) * x0 (ix2 r k)) + x4 (ix2 (0 : Fin 1) j)
          - two * ∑ k : Fin 512, x0 (ix2 r k) * x3 (ix2 j k)) 0) := by
  unfold k1_pay5
  dsimp only
  simp only [sqrt_apply, maximumf_apply, subf_apply, addf_apply, mulf_apply, broadcast_apply]
  rw [broadcastTo_a1_ab_apply, shapeCast_a_a1_apply, sum_lane_512x512]
  rw [broadcastTo_1b_ab_apply, shapeCast_self]
  rw [mm_apply]
  have ht : ∀ k : Fin 512, transpose S512x1000 [1, 0] (shapeCast S1000x512 x3 shapeCasts_S1000x512_S1000x512)
      transposes_S1000x512_p1_0_S512x1000 (ix2 k j) = x3 (ix2 j k) :=
    fun k => by rw [transpose_1000x512_apply, shapeCast_self]
  simp only [truncf_apply, ht, mulf_apply]
  rw [ofBits_zero]
  rfl

/-! ## The tile of the centre term, over any label column and any distance block -/

theorem pay2_apply (v8 : IVec S512x1 32) (v38 : FVec Ideal S512x1000 .f32) (a : Fin 8) (b : Fin 128) :
    k1_pay2 (F := Ideal) v8 v38 (ix3 0 a b)
      = ∑ r : Fin 512, max ((∑ j : Fin 1000, Scalar.select (IntOp.cmpi .eq (BitVec.ofNat 32 j.val) (v8 (ix2 r (0 : Fin 1)))) (v38 (ix2 r j)) (0 : EReal))
            - (Finset.univ : Finset (Fin 1000)).fold min ⊤ (fun j => v38 (ix2 r j))) 0 := by
  unfold k1_pay2
  dsimp only
  rw [shapeCast_ab_1ab_apply, broadcastTo_11_ab_apply, shapeCast_self, shapeCast_a_1a_apply, sum_rows_512x1]
  refine Finset.sum_congr rfl fun r _ => ?_
  simp only [maximumf_apply, subf_apply, broadcast_apply]
  rw [shapeCast_a_a1_apply, shapeCast_a_a1_apply, sum_lane_512x1000, min_lane_512x1000]
  have hi : ∀ x : Fin 1000, iota Kind.tc S512x1000 32 [1] iota_S512x1000_d1_w32 (ix2 r x) = BitVec.ofNat 32 x.val :=
    fun x => iota_lane_apply _ r x
  simp only [select_apply, cmpi_apply, broadcast_apply, hi, broadcastTo_a1_ab_apply, ofBits_zero]

end Ctr

/-! ## The second tile: the centre term of the block's 512 rows -/

open Ctr in
theorem pay1_ctr_apply (A : FVec Ideal SBD .f32) (E : FVec Ideal SCD .f32) (la : IVec SB 32) (hla : InRange la)
    (t : Fin 8) (x0 : Vec Ideal S512x512 .f32) (x3 : Vec Ideal S1000x512 .bf16) (x4 : Vec Ideal S1x1000 .f32) (x5 : Vec Ideal S512x1 .i32)
    (h0 : ∀ (r k : Fin 512), x0 (ix2 r k) = A (ix2 ⟨512 * t.val + r.val, by have := t.isLt; have := r.isLt; omega⟩ k))
    (h3 : ∀ (j : Fin 1000) (k : Fin 512), x3 (ix2 j k) = E (ix2 j k))
    (h4 : ∀ j : Fin 1000, x4 (ix2 0 j) = nrm2 E j)
    (h5 : ∀ r : Fin 512, x5 (ix2 r 0) = la (ix1 ⟨512 * t.val + r.val, by have := t.isLt; have := r.isLt; omega⟩))
    (a : Fin 8) (b : Fin 128) :
    k1_pay2 (F := Ideal) (k1_pay3 x5) (k1_pay5 x0 x3 x4) (ix3 0 a b) = ∑ r : Fin 512, ctrRow A E la ⟨512 * t.val + r.val, by have := t.isLt; have := r.isLt; omega⟩ := by
  rw [pay2_apply]
  refine Finset.sum_congr rfl fun r _ => ?_
  have hlab : k1_pay3 (F := Ideal) x5 (ix2 r (0 : Fin 1))
      = la (ix1 ⟨512 * t.val + r.val, by have := t.isLt; have := r.isLt; omega⟩) := by
    unfold k1_pay3
    rw [shapeCast_self]
    exact h5 r
  have hd : ∀ j : Fin 1000, k1_pay5 (F := Ideal) x0 x3 x4 (ix2 r j)
      = Cert.Loss.dist A E ⟨512 * t.val + r.val, by have := t.isLt; have := r.isLt; omega⟩ j := by
    intro j
    rw [pay5_apply, h4]
    unfold Cert.Loss.dist Cert.Loss.nrm2 Cert.Loss.dot
    simp only [h0, h3]
  simp only [hd]
  rw [hlab, pick_eq _ (hla _).1 (hla _).2]
  rfl

end Cert.KernelIdeal.KV

end
-- ==== Proof.KVal1.lean ====
import proofs.«420762_j16913581211856_3_alg».proof.Proof.KI.Run
import proofs.«420762_j16913581211856_3_alg».proof.Proof.KPay1T
import proofs.«420762_j16913581211856_3_alg».proof.Proof.KPay1C
import proofs.«420762_j16913581211856_3_alg».proof.Proof.TileSum
import proofs.«420762_j16913581211856_3_alg».proof.Proof.Spec
import Idealize.ShloMosaic.Lib.Pipeline.Value
import Idealize.ShloMosaic.Lib.StableHlo.Run
import Idealize.ShloMosaic.PureOps.Ideal.Laws
import Idealize.ShloMosaic.Lib.ValueIdx
import Idealize.ShloMosaic.Lib.ValueLayout

/-! # The triplet and centre results of the run are the specification's

The second region runs over 8 blocks of 512 anchor rows. At block t it writes tile t of two arrays of 8 tiles
[8, 128]: every entry of the first array's tile is the sum of the block's 512 triplet margins, every entry of the
second's the sum of the block's 512 centre margins. The blocks the body reads are rows 512 t … 512 t + 511 of the
anchors, positives, negatives and labels' column, and the whole of the exemplars and of their squared norms; those
arrays, at the region's entry, are the launch arguments or what the host operations before the region computed from
them (the exemplars unchanged by the change of format, the row of sums of squares, the labels as a column). The tiles
cover each array, so each array is known entry by entry. The host operations after the region sum each array from
zero over all 8 · 8 · 128 entries and divide by 1024: that is the sum over the 8 blocks, and the sum over blocks of the
sums over each block's rows is the sum over all 4096 rows. -/

noncomputable section

namespace Cert.KernelIdeal.KV

open Cert.KernelIdeal Cert.KernelIdeal.Gen Cert.KernelIdeal.Fr Cert.Loss
open Idealize.ShloMosaic Idealize.ShloMosaic.TcCoe Idealize.ShloMosaic.ValueIdx Idealize.SL.Sem
open Idealize.ShloMosaic.Pipeline (Dat)

namespace Val1

variable (V : (c : Dev nD) → (b : Ref sig .tc) → Buf (Elt Ideal) ((c : Thread nD τ).loc b))

/-- The zero offsets of a whole-buffer rectangle, as a constant function. -/
theorem hz2 : (![0, 0] : Fin 2 → Nat) = fun _ => 0 := funext fun a => by fin_cases a <;> rfl
theorem hz3 : (![0, 0, 0] : Fin 3 → Nat) = fun _ => 0 := funext fun a => by fin_cases a <;> rfl

/-- A grid point of the second region as a number below 8. -/
def pt (t : Fin cfg1.N) : Fin 8 := ⟨t.val, lt_of_lt_of_eq t.isLt N_1⟩

/-- The block index of each window over 512 anchor rows, and of the output tiles, is the point itself. -/
theorem idx_rows : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_6.index t (0 : Fin 3) = t.val ∧ win1_6.index t (1 : Fin 3) = 0 ∧ win1_6.index t (2 : Fin 3) = 0) :=
  (by decide +kernel : ∀ t : Fin grid1.N, _)

/-- Row r, column k of the anchors' block at point t is row 512 t + r of the anchors. -/
theorem iblk_0 (c : Dev nD) (t : Fin cfg1.N) (r k : Fin 512) :
    (iblk1 V c 0 t : Vec Ideal S512x512 .f32) (ix2 r k)
      = (V c main_arg0 : SBD.Idx → EReal) (ix2 ⟨512 * (pt t).val + r.val, by have := (pt t).isLt; have := r.isLt; omega⟩ k) := by
  obtain ⟨⟨e0, e1⟩, -⟩ := idx_rows t
  unfold iblk1
  rw [View.read_apply]
  show V c main_arg0 _ = V c main_arg0 _
  refine congrArg (V c main_arg0) (funext fun a => Fin.ext ?_)
  match a with
  | ⟨0, _⟩ => show win1_0.index t (0 : Fin 2) * 512 + 1 * r.val = 512 * t.val + r.val; omega
  | ⟨1, _⟩ => show win1_0.index t (1 : Fin 2) * 512 + 1 * k.val = k.val; omega

/-- The same for the positives' block. -/
theorem iblk_1 (c : Dev nD) (t : Fin cfg1.N) (r k : Fin 512) :
    (iblk1 V c 1 t : Vec Ideal S512x512 .f32) (ix2 r k)
      = (V c main_arg1 : SBD.Idx → EReal) (ix2 ⟨512 * (pt t).val + r.val, by have := (pt t).isLt; have := r.isLt; omega⟩ k) := by
  obtain ⟨-, ⟨e0, e1⟩, -⟩ := idx_rows t
  unfold iblk1
  rw [View.read_apply]
  show V c main_arg1 _ = V c main_arg1 _
  refine congrArg (V c main_arg1) (funext fun a => Fin.ext ?_)
  match a with
  | ⟨0, _⟩ => show win1_1.index t (0 : Fin 2) * 512 + 1 * r.val = 512 * t.val + r.val; omega
  | ⟨1, _⟩ => show win1_1.index t (1 : Fin 2) * 512 + 1 * k.val = k.val; omega

/-- The same for the negatives' block. -/
theorem iblk_2 (c : Dev nD) (t : Fin cfg1.N) (r k : Fin 512) :
    (iblk1 V c 2 t : Vec Ideal S512x512 .f32) (ix2 r k)
      = (V c main_arg2 : SBD.Idx → EReal) (ix2 ⟨512 * (pt t).val + r.val, by have := (pt t).isLt; have := r.isLt; omega⟩ k) := by
  obtain ⟨-, -, ⟨e0, e1⟩, -⟩ := idx_rows t
  unfold iblk1
  rw [View.read_apply]
  show V c main_arg2 _ = V c main_arg2 _
  refine congrArg (V c main_arg2) (funext fun a => Fin.ext ?_)
  match a with
  | ⟨0, _⟩ => show win1_2.index t (0 : Fin 2) * 512 + 1 * r.val = 512 * t.val + r.val; omega
  | ⟨1, _⟩ => show win1_2.index t (1 : Fin 2) * 512 + 1 * k.val = k.val; omega

/-- The triplet margins of block t of the rows, summed. -/
def blockTrip (A P N : FVec Ideal SBD .f32) (t : Fin 8) : EReal :=
  ∑ r : Fin 512, tripRow A P N ⟨512 * t.val + r.val, by have := t.isLt; have := r.isLt; omega⟩

/-- What point t writes back to the first output array is tile t of the array whose every entry of tile t is the
    block's sum of margins. -/
theorem flushed6_eq (c : Dev nD) (t : Fin cfg1.N) :
    (dat1 V c).flushed 6 t = ((cfg1.win 6).blk t).view.read (Elt Ideal)
      (fun i : S8x8x128.Idx => blockTrip (V c main_arg0) (V c main_arg1) (V c main_arg2) (i 0)) := by
  show (cfg1.win 6).cut (grid1.coords t) ((dat1 V c).after 6 t) = _
  rw [after1_6]
  unfold out1_6
  rw [View.canon_unit_zero hz3]
  simp only [View.ld_unit_zero (S := S512x512) hz2]
  obtain ⟨-, -, -, e0, e1, e2⟩ := idx_rows t
  funext j
  obtain ⟨o, a, b, rfl⟩ : ∃ (o : Fin 1) (a : Fin 8) (b : Fin 128), j = ix3 o a b := ⟨j 0, j 1, j 2, eq_ix3 j⟩
  obtain rfl : o = 0 := Fin.eq_zero o
  show k1_pay1 (F := Ideal) (k1_pay4 (iblk1 V c 0 t) (iblk1 V c 1 t) (iblk1 V c 2 t)) (ix3 0 a b)
    = blockTrip (V c main_arg0) (V c main_arg1) (V c main_arg2) ((((cfg1.win 6).blk t).view.emb (ix3 0 a b)) 0)
  rw [pay1_trip_apply (V c main_arg0) (V c main_arg1) (V c main_arg2) (pt t) _ _ _ (iblk_0 V c t) (iblk_1 V c t) (iblk_2 V c t) a b]
  have hq : ((((cfg1.win 6).blk t).view.emb (ix3 0 a b)) 0 : Fin 8) = pt t :=
    Fin.ext (by show win1_6.index t (0 : Fin 3) * 1 + 1 * 0 = t.val; omega)
  rw [hq]
  rfl

/-- Every index of the first output array is in the tile of the point its first coordinate names. -/
theorem cover6 (i : S8x8x128.Idx) :
    ∃ t : Fin cfg1.N, (cfg1.win 6).flush t = true ∧ i ∈ ((cfg1.win 6).blk t).view.set := by
  have h0 : (i 0).val < 8 := (i 0).isLt
  have h1 : (i 1).val < 8 := (i 1).isLt
  have h2 : (i 2).val < 128 := (i 2).isLt
  obtain ⟨t, ht⟩ : ∃ t : Fin cfg1.N, t.val = (i 0).val := ⟨⟨(i 0).val, lt_of_lt_of_eq h0 N_1.symm⟩, rfl⟩
  obtain ⟨-, -, -, e0, e1, e2⟩ := idx_rows t
  refine ⟨t, flush1_6 t, ?_⟩
  show i ∈ ((View.whole main_v11_0).slice (win1_6.rect t)).set
  rw [View.set_slice_whole, Rect.mem_set_unit]
  intro a
  match a with
  | ⟨0, _⟩ => show win1_6.index t (0 : Fin 3) * 1 ≤ (i 0).val ∧ (i 0).val < win1_6.index t (0 : Fin 3) * 1 + 1; omega
  | ⟨1, _⟩ => show win1_6.index t (1 : Fin 3) * 8 ≤ (i 1).val ∧ (i 1).val < win1_6.index t (1 : Fin 3) * 8 + 8; omega
  | ⟨2, _⟩ => show win1_6.index t (2 : Fin 3) * 128 ≤ (i 2).val ∧ (i 2).val < win1_6.index t (2 : Fin 3) * 128 + 128; omega

/-- The first output array after the region. -/
theorem final6 (c : Dev nD) :
    (dat1 V c).arrAt 6 cfg1.N = fun i : S8x8x128.Idx => blockTrip (V c main_arg0) (V c main_arg1) (V c main_arg2) (i 0) :=
  (dat1 V c).arrAt_eq_of_cover 6 _ (fun t _ => flushed6_eq V c t) cover6

/-- A sum over the 4096 rows is the sum over the 8 blocks of the sums over each block's 512 rows. -/
theorem sum_blocks (f : Fin 4096 → EReal) :
    ∑ t : Fin 8, ∑ r : Fin 512, f ⟨512 * t.val + r.val, by have := t.isLt; have := r.isLt; omega⟩ = ∑ i : Fin 4096, f i := by
  rw [← Equiv.sum_comp (finProdFinEquiv : Fin 8 × Fin 512 ≃ Fin 4096) f, Fintype.sum_prod_type]
  refine Finset.sum_congr rfl fun t _ => Finset.sum_congr rfl fun r _ => congrArg f (Fin.ext ?_)
  show 512 * t.val + r.val = r.val + 512 * t.val
  omega

/-- The blocks' triplet sums add up to the triplet term. -/
theorem blockTrip_sum (A P N : FVec Ideal SBD .f32) : ∑ t : Fin 8, blockTrip A P N t = tripLoss A P N :=
  sum_blocks (tripRow A P N)

/-! ## The centre term's tile -/

/-- The block indices of the resident windows (always 0), of the labels' window and of the second output's tiles (the point). -/
theorem idx_ctr : ∀ t : Fin cfg1.N,
    (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0)
    ∧ (win1_7.index t (0 : Fin 3) = t.val ∧ win1_7.index t (1 : Fin 3) = 0 ∧ win1_7.index t (2 : Fin 3) = 0) :=
  (by decide +kernel : ∀ t : Fin grid1.N, _)

/-- The exemplars' window is the whole array at every point. -/
theorem iblk_3 (c : Dev nD) (t : Fin cfg1.N) (j : Fin 1000) (k : Fin 512) :
    (iblk1 V c 3 t : Vec Ideal S1000x512 .bf16) (ix2 j k) = (V c main_v6 : S1000x512.Idx → EReal) (ix2 j k) := by
  obtain ⟨⟨e0, e1⟩, -⟩ := idx_ctr t
  unfold iblk1
  rw [View.read_apply]
  show V c main_v6 _ = V c main_v6 _
  refine congrArg (V c main_v6) (funext fun a => Fin.ext ?_)
  match a with
  | ⟨0, _⟩ => show win1_3.index t (0 : Fin 2) * 1000 + 1 * j.val = j.val; omega
  | ⟨1, _⟩ => show win1_3.index t (1 : Fin 2) * 512 + 1 * k.val = k.val; omega

/-- The squared norms' window is the whole row at every point. -/
theorem iblk_4 (c : Dev nD) (t : Fin cfg1.N) (j : Fin 1000) :
    (iblk1 V c 4 t : Vec Ideal S1x1000 .f32) (ix2 0 j) = (V c main_v9 : S1x1000.Idx → EReal) (ix2 0 j) := by
  obtain ⟨-, ⟨e0, e1⟩, -⟩ := idx_ctr t
  unfold iblk1
  rw [View.read_apply]
  show V c main_v9 _ = V c main_v9 _
  refine congrArg (V c main_v9) (funext fun a => Fin.ext ?_)
  match a with
  | ⟨0, _⟩ => show win1_4.index t (0 : Fin 2) * 1 + 1 * 0 = 0; omega
  | ⟨1, _⟩ => show win1_4.index t (1 : Fin 2) * 1000 + 1 * j.val = j.val; omega

/-- Row r of the labels' block at point t is row 512 t + r of the labels' column. -/
theorem iblk_5 (c : Dev nD) (t : Fin cfg1.N) (r : Fin 512) :
    (iblk1 V c 5 t : Vec Ideal S512x1 .i32) (ix2 r 0)
      = (V c main_v10 : S4096x1.Idx → BitVec 32) (ix2 ⟨512 * (pt t).val + r.val, by have := (pt t).isLt; have := r.isLt; omega⟩ 0) := by
  obtain ⟨-, -, ⟨e0, e1⟩, -⟩ := idx_ctr t
  unfold iblk1
  rw [View.read_apply]
  show V c main_v10 _ = V c main_v10 _
  refine congrArg (V c main_v10) (funext fun a => Fin.ext ?_)
  match a with
  | ⟨0, _⟩ => show win1_5.index t (0 : Fin 2) * 512 + 1 * r.val = 512 * t.val + r.val; omega
  | ⟨1, _⟩ => show win1_5.index t (1 : Fin 2) * 1 + 1 * 0 = 0; omega

/-- The centre margins of block t of the rows, summed. -/
def blockCtr (A : FVec Ideal SBD .f32) (E : FVec Ideal SCD .f32) (la : IVec SB 32) (t : Fin 8) : EReal :=
  ∑ r : Fin 512, ctrRow A E la ⟨512 * t.val + r.val, by have := t.isLt; have := r.isLt; omega⟩

/-- What point t writes back to the second output array is tile t of the array whose every entry of tile t is the
    block's sum of centre margins. -/
theorem flushed7_eq (c : Dev nD) (E : FVec Ideal SCD .f32) (la : IVec SB 32) (hla : InRange la)
    (hE : ∀ (j : Fin 1000) (k : Fin 512), (V c main_v6 : S1000x512.Idx → EReal) (ix2 j k) = E (ix2 j k))
    (hQ : ∀ j : Fin 1000, (V c main_v9 : S1x1000.Idx → EReal) (ix2 0 j) = nrm2 E j)
    (hL : ∀ i : Fin 4096, (V c main_v10 : S4096x1.Idx → BitVec 32) (ix2 i 0) = la (ix1 i))
    (t : Fin cfg1.N) :
    (dat1 V c).flushed 7 t = ((cfg1.win 7).blk t).view.read (Elt Ideal)
      (fun i : S8x8x128.Idx => blockCtr (V c main_arg0) E la (i 0)) := by
  show (cfg1.win 7).cut (grid1.coords t) ((dat1 V c).after 7 t) = _
  rw [after1_7]
  unfold out1_7
  rw [View.canon_unit_zero hz3]
  simp only [View.ld_unit_zero (S := S512x512) hz2, View.ld_unit_zero (S := S1000x512) hz2,
    View.ld_unit_zero (S := S1x1000) hz2, View.ld_unit_zero (S := S512x1) hz2]
  obtain ⟨-, -, -, e0, e1, e2⟩ := idx_ctr t
  funext j
  obtain ⟨o, a, b, rfl⟩ : ∃ (o : Fin 1) (a : Fin 8) (b : Fin 128), j = ix3 o a b := ⟨j 0, j 1, j 2, eq_ix3 j⟩
  obtain rfl : o = 0 := Fin.eq_zero o
  show k1_pay2 (F := Ideal) (k1_pay3 (iblk1 V c 5 t)) (k1_pay5 (iblk1 V c 0 t) (iblk1 V c 3 t) (iblk1 V c 4 t)) (ix3 0 a b)
    = blockCtr (V c main_arg0) E la ((((cfg1.win 7).blk t).view.emb (ix3 0 a b)) 0)
  rw [pay1_ctr_apply (V c main_arg0) E la hla (pt t) _ _ _ _ (iblk_0 V c t)
    (fun j k => (iblk_3 V c t j k).trans (hE j k)) (fun j => (iblk_4 V c t j).trans (hQ j))
    (fun r => (iblk_5 V c t r).trans (hL _)) a b]
  have hq : ((((cfg1.win 7).blk t).view.emb (ix3 0 a b)) 0 : Fin 8) = pt t :=
    Fin.ext (by show win1_7.index t (0 : Fin 3) * 1 + 1 * 0 = t.val; omega)
  rw [hq]
  rfl

/-- Every index of the second output array is in the tile of the point its first coordinate names. -/
theorem cover7 (i : S8x8x128.Idx) :
    ∃ t : Fin cfg1.N, (cfg1.win 7).flush t = true ∧ i ∈ ((cfg1.win 7).blk t).view.set := by
  have h0 : (i 0).val < 8 := (i 0).isLt
  have h1 : (i 1).val < 8 := (i 1).isLt
  have h2 : (i 2).val < 128 := (i 2).isLt
  obtain ⟨t, ht⟩ : ∃ t : Fin cfg1.N, t.val = (i 0).val := ⟨⟨(i 0).val, lt_of_lt_of_eq h0 N_1.symm⟩, rfl⟩
  obtain ⟨-, -, -, e0, e1, e2⟩ := idx_ctr t
  refine ⟨t, flush1_7 t, ?_⟩
  show i ∈ ((View.whole main_v11_1).slice (win1_7.rect t)).set
  rw [View.set_slice_whole, Rect.mem_set_unit]
  intro a
  match a with
  | ⟨0, _⟩ => show win1_7.index t (0 : Fin 3) * 1 ≤ (i 0).val ∧ (i 0).val < win1_7.index t (0 : Fin 3) * 1 + 1; omega
  | ⟨1, _⟩ => show win1_7.index t (1 : Fin 3) * 8 ≤ (i 1).val ∧ (i 1).val < win1_7.index t (1 : Fin 3) * 8 + 8; omega
  | ⟨2, _⟩ => show win1_7.index t (2 : Fin 3) * 128 ≤ (i 2).val ∧ (i 2).val < win1_7.index t (2 : Fin 3) * 128 + 128; omega

/-- The second output array after the region. -/
theorem final7 (c : Dev nD) (E : FVec Ideal SCD .f32) (la : IVec SB 32) (hla : InRange la)
    (hE : ∀ (j : Fin 1000) (k : Fin 512), (V c main_v6 : S1000x512.Idx → EReal) (ix2 j k) = E (ix2 j k))
    (hQ : ∀ j : Fin 1000, (V c main_v9 : S1x1000.Idx → EReal) (ix2 0 j) = nrm2 E j)
    (hL : ∀ i : Fin 4096, (V c main_v10 : S4096x1.Idx → BitVec 32) (ix2 i 0) = la (ix1 i)) :
    (dat1 V c).arrAt 7 cfg1.N = fun i : S8x8x128.Idx => blockCtr (V c main_arg0) E la (i 0) :=
  (dat1 V c).arrAt_eq_of_cover 7 _ (fun t _ => flushed7_eq V c E la hla hE hQ hL t) cover7

/-- The blocks' centre sums add up to the centre term. -/
theorem blockCtr_sum (A : FVec Ideal SBD .f32) (E : FVec Ideal SCD .f32) (la : IVec SB 32) :
    ∑ t : Fin 8, blockCtr A E la t = ctrLoss A E la :=
  sum_blocks (ctrRow A E la)

/-! ## The contents the second region is entered with, and the host tail -/

section Run

variable (m : (ℓ : Loc nD τ sig) → Buf (Elt Ideal) ℓ) (ρ : Dev nD → PrngReg)

/-- A buffer neither the first host stretch nor the first region writes holds, at the first region's exit, its launch contents. -/
theorem W2_of_arg (c : Dev nD) (b : Ref sig .tc) (h0 : b ∉ hostOps0_W) (h2 : ∀ w, Pipeline.arrRef spec0 w ≠ b) :
    W2 (F := Ideal) m ρ c (Proc.devRef .tc b) = m ((c.tc : Thread nD τ).loc b) :=
  calc W2 (F := Ideal) m ρ c (Proc.devRef .tc b)
    _ = W1 m ρ c (Proc.devRef .tc b) := W2_of_ne m ρ c b h2
    _ = W0 m ρ c (Proc.devRef .tc b) := StableHlo.after_of_writes_sub hostOps0 _ hostOps0_writes h0
    _ = m ((c.tc : Thread nD τ).loc b) := rfl

/-- … and so does one the second host stretch does not write either, at the second region's entry. -/
theorem V3_of_arg (c : Dev nD) (b : Ref sig .tc) (h0 : b ∉ hostOps0_W) (h2 : ∀ w, Pipeline.arrRef spec0 w ≠ b) (h1 : b ∉ hostOps1_W) :
    V3 (F := Ideal) m ρ c b = m ((c.tc : Thread nD τ).loc b) :=
  calc W3 (F := Ideal) m ρ c (Proc.devRef .tc b)
    _ = W2 m ρ c (Proc.devRef .tc b) := StableHlo.after_of_writes_sub hostOps1 _ hostOps1_writes h1
    _ = m ((c.tc : Thread nD τ).loc b) := W2_of_arg m ρ c b h0 h2

/-- The anchors, positives and negatives at the second region's entry are the launch arguments. -/
theorem V3_arg0 (c : Dev nD) : V3 (F := Ideal) m ρ c main_arg0 = m ((c.tc : Thread nD τ).loc main_arg0) :=
  V3_of_arg m ρ c main_arg0 (by decide) (by decide) (by decide)
theorem V3_arg1 (c : Dev nD) : V3 (F := Ideal) m ρ c main_arg1 = m ((c.tc : Thread nD τ).loc main_arg1) :=
  V3_of_arg m ρ c main_arg1 (by decide) (by decide) (by decide)
theorem V3_arg2 (c : Dev nD) : V3 (F := Ideal) m ρ c main_arg2 = m ((c.tc : Thread nD τ).loc main_arg2) :=
  V3_of_arg m ρ c main_arg2 (by decide) (by decide) (by decide)

/-- The exemplars in the narrow format are the exemplars: the conversion is the identity on the extended reals. -/
theorem V3_v6 (c : Dev nD) (j : Fin 1000) (k : Fin 512) :
    (V3 (F := Ideal) m ρ c main_v6 : S1000x512.Idx → EReal) (ix2 j k)
      = (m ((c.tc : Thread nD τ).loc main_arg6) : SCD.Idx → EReal) (ix2 j k) := by
  show StableHlo.after hostOps1 (W2 (F := Ideal) m ρ c) (Proc.devRef .tc main_v6) (ix2 j k) = _
  after_results
  show W2 (F := Ideal) m ρ c (Proc.devRef .tc main_arg6) (ix2 j k) = _
  rw [W2_of_arg m ρ c main_arg6 (by decide) (by decide)]

/-- The row of squared norms: entry j is the sum of the squares of exemplar j's 512 coordinates. -/
theorem V3_v9 (c : Dev nD) (j : Fin 1000) :
    (V3 (F := Ideal) m ρ c main_v9 : S1x1000.Idx → EReal) (ix2 0 j) = nrm2 (m ((c.tc : Thread nD τ).loc main_arg6)) j := by
  show StableHlo.after hostOps1 (W2 (F := Ideal) m ρ c) (Proc.devRef .tc main_v9) (ix2 0 j) = _
  after_results
  rw [W2_of_arg m ρ c main_arg6 (by decide) (by decide)]
  refine (broadcastInDim_apply _ _ _ (ix2 0 j) (ix1 j) (fun a => ?_)).trans ?_
  · match a with
    | ⟨0, _⟩ => rfl
  show Ideal.hostReduceAdd reducesTo_S1000x512_S1000_d1 (mulf (F := Ideal) (m ((c.tc : Thread nD τ).loc main_arg6)) (m ((c.tc : Thread nD τ).loc main_arg6)))
      (Ideal.ofBits .f32 0x00000000#32) (ix1 j) = _
  rw [Ideal.hostReduceAdd_single _ (by decide : S1000x512.Reduces [1] S1000), Ideal.ofBits_zero_f32, zero_add]
  unfold nrm2
  refine Finset.sum_congr rfl fun k _ => ?_
  have e : (by decide : S1000x512.Reduces [1] S1000).lift (ix1 j) k = ix2 j k := by
    funext d
    match d with
    | ⟨0, _⟩ => rfl
    | ⟨1, _⟩ => rfl
  rw [e]
  rfl

/-- The labels' column: entry (i, 0) is label i. -/
theorem V3_v10 (c : Dev nD) (i : Fin 4096) :
    (V3 (F := Ideal) m ρ c main_v10 : S4096x1.Idx → BitVec 32) (ix2 i 0) = (m ((c.tc : Thread nD τ).loc main_arg4) : SB.Idx → BitVec 32) (ix1 i) := by
  show StableHlo.after hostOps1 (W2 (F := Ideal) m ρ c) (Proc.devRef .tc main_v10) (ix2 i 0) = _
  after_results
  rw [W2_of_arg m ρ c main_arg4 (by decide) (by decide)]
  exact Trip.shapeCast_a_a1_apply _ shapeCasts_S4096_S4096x1 i 0

/-- The first output array at the second region's exit: at tile t, the sum of block t's triplet margins. -/
theorem W4_v11_0 (c : Dev nD) :
    W4 (F := Ideal) m ρ c (Proc.devRef .tc main_v11_0)
      = fun i : S8x8x128.Idx => blockTrip (m ((c.tc : Thread nD τ).loc main_arg0)) (m ((c.tc : Thread nD τ).loc main_arg1))
          (m ((c.tc : Thread nD τ).loc main_arg2)) (i 0) := by
  refine (W4_arr m ρ c 6).trans ((final6 (V3 m ρ) c).trans ?_)
  rw [V3_arg0, V3_arg1, V3_arg2]

/-- The second output array at the second region's exit: at tile t, the sum of block t's centre margins. -/
theorem W4_v11_1 (c : Dev nD) (hla : InRange (m ((c.tc : Thread nD τ).loc main_arg4))) :
    W4 (F := Ideal) m ρ c (Proc.devRef .tc main_v11_1)
      = fun i : S8x8x128.Idx => blockCtr (m ((c.tc : Thread nD τ).loc main_arg0)) (m ((c.tc : Thread nD τ).loc main_arg6))
          (m ((c.tc : Thread nD τ).loc main_arg4)) (i 0) := by
  refine (W4_arr m ρ c 7).trans ((final7 (V3 m ρ) c (m ((c.tc : Thread nD τ).loc main_arg6)) (m ((c.tc : Thread nD τ).loc main_arg4)) hla
    (V3_v6 m ρ c) (V3_v9 m ρ c) (V3_v10 m ρ c)).trans ?_)
  rw [V3_arg0]

/-- The host tail over an output array of tiles: the total sum from zero, divided by 1024. -/
theorem tail_tiles (p : Fin 8 → EReal) (j : S_.Idx) :
    Host.divf (F := Ideal) (Host.reduceAdd (F := Ideal) (fun i : S8x8x128.Idx => p (i 0)) (constant (F := Ideal) S_ .f32 0x00000000#32)
      reducesTo_S8x8x128_S_d0_1_2 h_S_) (constant (F := Ideal) S_ .f32 0x44800000#32) j = ∑ t : Fin 8, p t := by
  show Ideal.div (Ideal.hostReduceAdd reducesTo_S8x8x128_S_d0_1_2 (fun i : S8x8x128.Idx => p (i 0)) (Ideal.ofBits .f32 0x00000000#32) j) n1024 = _
  rw [Ideal.hostReduceAdd_total _ (fun b => b.elim0), Ideal.ofBits_zero_f32]
  exact tile_sum p

end Run

end Val1

open Val1 in
/-- The triplet result of the run is the specification's triplet term. -/
theorem kv_trip (m : (ℓ : Loc nD τ sig) → Buf (Elt Ideal) ℓ) (ρ : Dev nD → PrngReg) (c : Dev nD) :
    W5 (F := Ideal) m ρ c (Proc.devRef .tc main_v13)
      = fun _ => tripLoss (m ((c.tc : Thread nD τ).loc main_arg0)) (m ((c.tc : Thread nD τ).loc main_arg1)) (m ((c.tc : Thread nD τ).loc main_arg2)) := by
  funext j
  show StableHlo.after hostOps2 (W4 (F := Ideal) m ρ c) (Proc.devRef .tc main_v13) j = _
  after_results
  rw [W4_v11_0 m ρ c]
  exact (tail_tiles _ j).trans (blockTrip_sum _ _ _)

open Val1 in
/-- The centre result of the run is the specification's centre term, for labels in range. -/
theorem kv_ctr (m : (ℓ : Loc nD τ sig) → Buf (Elt Ideal) ℓ) (ρ : Dev nD → PrngReg) (c : Dev nD)
    (hla : InRange (m ((c.tc : Thread nD τ).loc main_arg4))) :
    W5 (F := Ideal) m ρ c (Proc.devRef .tc main_v15)
      = fun _ => ctrLoss (m ((c.tc : Thread nD τ).loc main_arg0)) (m ((c.tc : Thread nD τ).loc main_arg6)) (m ((c.tc : Thread nD τ).loc main_arg4)) := by
  funext j
  show StableHlo.after hostOps2 (W4 (F := Ideal) m ρ c) (Proc.devRef .tc main_v15) j = _
  after_results
  rw [W4_v11_1 m ρ c hla]
  exact (tail_tiles _ j).trans (blockCtr_sum _ _ _)

end Cert.KernelIdeal.KV

end
-- ==== Proof.KValTotal.lean ====
import proofs.«420762_j16913581211856_3_alg».proof.Proof.KI.Run
import proofs.«420762_j16913581211856_3_alg».proof.Proof.KVal0
import proofs.«420762_j16913581211856_3_alg».proof.Proof.KVal1
import proofs.«420762_j16913581211856_3_alg».proof.Proof.Spec

/-! The kernel program's total: its last host operations add the cross entropy, a tenth of the centre term and
    the triplet term, each already identified with the specification's. -/

set_option maxRecDepth 16384

noncomputable section

namespace Cert.KernelIdeal.KV

open Cert.KernelIdeal Cert.KernelIdeal.Gen Cert.KernelIdeal.Fr Cert.Loss
open Idealize.ShloMosaic Idealize.ShloMosaic.TcCoe Idealize.SL.Sem Idealize.ShloMosaic.StableHlo

set_option maxHeartbeats 2000000 in
/-- Over any contents the last stretch is entered with: its total is the sum of the three parts it leaves. -/
theorem total_of_parts (Wv : Valuation τ sig (Elt Ideal)) :
    StableHlo.after (hostOps2 (F := Ideal)) Wv (Proc.devRef .tc main_v19)
      = addf (addf (StableHlo.after (hostOps2 (F := Ideal)) Wv (Proc.devRef .tc main_v5))
            (mulf (constant (F := Ideal) S_ .f32 0x3DCCCCCD#32) (StableHlo.after (hostOps2 (F := Ideal)) Wv (Proc.devRef .tc main_v15))))
          (mulf (constant (F := Ideal) S_ .f32 0x3F800000#32) (StableHlo.after (hostOps2 (F := Ideal)) Wv (Proc.devRef .tc main_v13))) := by
  after_results_simp

variable (m : (ℓ : Loc nD τ sig) → Buf (Elt Ideal) ℓ) (ρ : Dev nD → PrngReg) (c : Dev nD)

theorem kv_total (hla : InRange (m ((c.tc : Thread nD τ).loc main_arg4))) (hln : InRange (m ((c.tc : Thread nD τ).loc main_arg5))) :
    W5 (F := Ideal) m ρ c (Proc.devRef .tc main_v19)
      = fun _ => totalLoss (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  have e := total_of_parts (W4 (F := Ideal) m ρ c)
  have h5 : StableHlo.after (hostOps2 (F := Ideal)) (W4 (F := Ideal) m ρ c) (Proc.devRef .tc main_v5) = _ := kv_sm m ρ c hla hln
  have h15 : StableHlo.after (hostOps2 (F := Ideal)) (W4 (F := Ideal) m ρ c) (Proc.devRef .tc main_v15) = _ := kv_ctr m ρ c hla
  have h13 : StableHlo.after (hostOps2 (F := Ideal)) (W4 (F := Ideal) m ρ c) (Proc.devRef .tc main_v13) = _ := kv_trip m ρ c
  rw [h5, h15, h13] at e
  exact e

end Cert.KernelIdeal.KV

end
-- ==== Proof.RefRun.lean ====
import proofs.«420762_j16913581211856_3_alg».proof.Proof.RefRunP
import proofs.«420762_j16913581211856_3_alg».proof.Proof.RefReadP

/-! The reference program's operation list, its named result terms and its stages read at an index (the generated
    modules' text, in patched copies); the lemmas that identify those stages with the loss's closed form are in the
    modules that import this one. -/
-- ==== Proof.RefTrip.lean ====
import proofs.«420762_j16913581211856_3_alg».proof.Proof.RefRun
import proofs.«420762_j16913581211856_3_alg».proof.Proof.Spec
import Idealize.ShloMosaic.Lib.ValueIdxRank1

/-! # The reference program's triplet result is the specification's

The reference subtracts the positives (negatives) from the anchors entry by entry, squares, sums each row's 512
squares from zero, takes the square root; it subtracts the two roots row by row, clips at zero by a maximum with a
broadcast zero, and sums the 4096 rows from zero. Read index by index this is the specification's sum of clipped
margins. -/

noncomputable section

namespace Cert.ReferenceIdeal.RefValue

open Idealize.ShloMosaic Idealize.ShloMosaic.ValueIdx Cert.ReferenceIdeal Cert.ReferenceIdeal.Read Cert.Loss

/-- The row-and-column index the row sums read at is the pair of the row and the column. -/
theorem idx_call4 (i : Fin 4096) (k : Fin 512) : idx_main_call4_v1 (ix1 i) k = ix2 i k :=
  funext fun a => Fin.ext (by match a with | ⟨0, _⟩ => rfl | ⟨1, _⟩ => rfl)

theorem idx_call5 (i : Fin 4096) (k : Fin 512) : idx_main_call5_v1 (ix1 i) k = ix2 i k :=
  funext fun a => Fin.ext (by match a with | ⟨0, _⟩ => rfl | ⟨1, _⟩ => rfl)

/-- Row `i`'s distance anchor–positive: the square root of the row's sum of squared differences. -/
theorem norm_pos (x0 x1 : FVec Ideal SBD .f32) (i : Fin 4096) :
    val_main_v32 (F := Ideal) x0 x1 (ix1 i) = Ideal.sqrt (sqd x0 x1 i) := by
  rw [val_main_v32_apply, val_main_call4_v1_apply, val_main_call4_cst_apply]
  simp only [val_main_call4_v0_apply, val_main_v31_apply, idx_call4, Ideal.hostUnary_sqrt_def, Ideal.subf_def,
    Ideal.mulf_def, Ideal.ofBits_def, Ideal.ofBits_zero_f32, zero_add]
  rfl

/-- Row `i`'s distance anchor–negative, likewise. -/
theorem norm_neg (x0 x2 : FVec Ideal SBD .f32) (i : Fin 4096) :
    val_main_v34 (F := Ideal) x0 x2 (ix1 i) = Ideal.sqrt (sqd x0 x2 i) := by
  rw [val_main_v34_apply, val_main_call5_v1_apply, val_main_call5_cst_apply]
  simp only [val_main_call5_v0_apply, val_main_v33_apply, idx_call5, Ideal.hostUnary_sqrt_def, Ideal.subf_def,
    Ideal.mulf_def, Ideal.ofBits_def, Ideal.ofBits_zero_f32, zero_add]
  rfl

/-- Row `i`'s clipped margin. -/
theorem relu_row (x0 x1 x2 : FVec Ideal SBD .f32) (i : Fin 4096) :
    val_main_v36 (F := Ideal) x0 x1 x2 (ix1 i) = tripRow x0 x1 x2 i := by
  rw [val_main_v36_apply, val_main_v35_apply, val_main_call6_v0_apply, val_main_call6_cst_apply, norm_pos, norm_neg]
  simp only [Ideal.maximumf_def, Ideal.subf_def, Ideal.ofBits_def, Ideal.ofBits_zero_f32]
  rfl

/-- The sum of the rows' clipped margins from zero is the triplet term. -/
theorem ref_trip (x0 x1 x2 : FVec Ideal Cert.Loss.SBD .f32) :
    Cert.ReferenceIdeal.Read.val_main_v37 (F := Ideal) x0 x1 x2 = fun _ => Cert.Loss.tripLoss x0 x1 x2 := by
  funext i
  rw [val_main_v37_apply, val_main_cst_7_apply]
  simp only [Ideal.ofBits_def, Ideal.ofBits_zero_f32, zero_add]
  rw [← Equiv.sum_comp (idxEquiv1 (n := 4096)).symm]
  unfold tripLoss
  exact Finset.sum_congr rfl fun r _ => relu_row x0 x1 x2 r

end Cert.ReferenceIdeal.RefValue

end
-- ==== Proof.RefCtr.lean ====
import proofs.«420762_j16913581211856_3_alg».proof.Proof.RefRun
import proofs.«420762_j16913581211856_3_alg».proof.Proof.Spec
import Idealize.ShloMosaic.PureOps.Reduce
import Idealize.ShloMosaic.Lib.ValueIdxRank1

/-! # The reference's centre term is the specification's

The reference computes, for every anchor row `i` and exemplar row `j`, the distance
`√ max (‖aᵢ‖² + ‖eⱼ‖² − 2 aᵢ·eⱼ) 0`; takes, per row, the entry at the row's own label and the least entry;
clips their difference at zero; and sums over the rows. Read index by index this is the specification's
`ctrLoss`:

* the squared norms are host sums from the zero word (`0 + ∑`), the inner product is the contraction over the
  512 features after the exemplars are transposed;
* the take normalises the label (`l < 0 ? l + 1000 : l`), tests `0 ≤ l ≤ 999`, gathers the entry at the clamped
  label and selects it against a fill word when the test holds. With the label in `[0, 1000)` the
  normalised label is the label, the test holds (its and-reduce over a unit axis is the bit `1`), the clamp
  is the identity, and the class the specification reads (the word modulo 1000) is the same number;
* the least entry is the fold of `min` from the word of `+∞`, which is `⊤`, over the 1000 exemplars. -/

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## Words: a label in range under the signed comparisons, and the word of `+∞` -/

/-- The word `0x7F800000` is `+∞`. -/
theorem top_word : Ideal.ofBits .f32 0x7F800000#32 = ⊤ := by simp [Ideal.ofBits, Ideal.ieee]

/-- A non-negative word is not below zero … -/
theorem cmp_slt_zero (l : BitVec 32) (h0 : 0 ≤ l.toInt) : IntOp.cmpi .slt l 0#32 = 0#1 := by
  have h : l.slt 0#32 = false := by
    simp only [BitVec.slt, BitVec.toInt_zero, decide_eq_false_iff_not, not_lt]; exact h0
  show BitVec.ofBool (l.slt 0#32) = 0#1
  rw [h]; rfl

/-- … it is at least zero … -/
theorem cmp_sge_zero (l : BitVec 32) (h0 : 0 ≤ l.toInt) : IntOp.cmpi .sge l 0#32 = 1#1 := by
  have h : (0#32 : BitVec 32).sle l = true := by
    simp only [BitVec.sle, BitVec.toInt_zero, decide_eq_true_eq]; exact h0
  show BitVec.ofBool ((0#32 : BitVec 32).sle l) = 1#1
  rw [h]; rfl

/-- … and one below 1000 is at most 999. -/
theorem cmp_sle_999 (l : BitVec 32) (h1 : l.toInt < 1000) : IntOp.cmpi .sle l 999#32 = 1#1 := by
  have e : (999#32 : BitVec 32).toInt = 999 := by decide
  have h : l.sle 999#32 = true := by
    simp only [BitVec.sle, e, decide_eq_true_eq]; omega
  show BitVec.ofBool (l.sle 999#32) = 1#1
  rw [h]; rfl

/-- For a word in `[0, 1000)` the signed value clamped at 999 is the unsigned value modulo 1000: both are the word's value. -/
theorem word_min (l : BitVec 32) (h0 : 0 ≤ l.toInt) (h1 : l.toInt < 1000) :
    min l.toInt.toNat 999 = l.toNat % 1000 := by
  have hc := BitVec.toInt_eq_toNat_cond l
  have hl := l.isLt
  split at hc <;> omega

/-- An and-reduce of bits that are all `1`, from the bit `1`, is the bit `1`. -/
theorem reduce_and_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  generalize (((List.finRange s.numel).map s.rowMajor.symm).filter fun i => h.drop i = j) = L
  induction L with
  | nil => rfl
  | cons a L ih =>
    rw [List.foldl_cons, hx a, show IntOp.andi (1#1 : BitVec 1) 1#1 = 1#1 from by decide]
    exact ih

/-! ## The distance table -/

/-- The anchors' squared norms. -/
theorem asq_apply (x0 : FVec Ideal Cert.Loss.SBD .f32) (i : Fin 4096) :
    val_main_v8 (F := Ideal) x0 (ix1 i) = Cert.Loss.nrm2 x0 i := by
  rw [val_main_v8_apply]
  unfold Cert.Loss.nrm2
  rw [show val_main_cst_1 (F := Ideal) (Shape.Idx.first h_S_) = Ideal.ofBits .f32 0x00000000#32 from rfl, Ideal.ofBits_zero_f32, zero_add]
  refine Finset.sum_congr rfl fun k _ => ?_
  have e : idx_main_v8 (ix1 i) k = ix2 i k := funext fun a => by
    match a with
    | ⟨0, _⟩ => rfl
    | ⟨1, _⟩ => rfl
  rw [e]; rfl

/-- The exemplars' squared norms. -/
theorem esq_apply (x6 : FVec Ideal Cert.Loss.SCD .f32) (j : Fin 1000) :
    val_main_v11 (F := Ideal) x6 (ix1 j) = Cert.Loss.nrm2 x6 j := by
  rw [val_main_v11_apply]
  unfold Cert.Loss.nrm2
  rw [show val_main_cst_2 (F := Ideal) (Shape.Idx.first h_S_) = Ideal.ofBits .f32 0x00000000#32 from rfl, Ideal.ofBits_zero_f32, zero_add]
  refine Finset.sum_congr rfl fun k _ => ?_
  have e : idx_main_v11 (ix1 j) k = ix2 j k := funext fun a => by
    match a with
    | ⟨0, _⟩ => rfl
    | ⟨1, _⟩ => rfl
  rw [e]; rfl

/-- The inner products: the contraction reads the transposed exemplars at `(k, j)`, the exemplars at `(j, k)`. -/
theorem dot_apply (x0 : FVec Ideal Cert.Loss.SBD .f32) (x6 : FVec Ideal Cert.Loss.SCD .f32) (i : Fin 4096) (j : Fin 1000) :
    val_main_v17 (F := Ideal) x0 x6 (ix2 i j) = Cert.Loss.dot x0 x6 i j := by
  rw [val_main_v17_apply]
  unfold Cert.Loss.dot
  refine Finset.sum_congr rfl fun k _ => ?_
  rw [val_main_v16_apply]
  have el : lidx_main_v17 (ix2 i j) k = ix2 i k := funext fun a => by
    match a with
    | ⟨0, _⟩ => rfl
    | ⟨1, _⟩ => rfl
  have er : idx_main_v16 (ridx_main_v17 (ix2 i j) k) = ix2 j k := funext fun a => by
    match a with
    | ⟨0, _⟩ => rfl
    | ⟨1, _⟩ => rfl
  rw [el, er]

/-- The distance table at `(i, j)` is the specification's distance. -/
theorem dall_apply (x0 : FVec Ideal Cert.Loss.SBD .f32) (x6 : FVec Ideal Cert.Loss.SCD .f32) (i : Fin 4096) (j : Fin 1000) :
    val_main_v23 (F := Ideal) x0 x6 (ix2 i j) = Cert.Loss.dist x0 x6 i j := by
  rw [val_main_v23_apply, val_main_v22_apply, val_main_v20_apply, val_main_v15_apply, val_main_v19_apply,
    val_main_v13_apply, val_main_v9_apply, val_main_v14_apply, val_main_v12_apply, val_main_v18_apply, val_main_v21_apply]
  have e9 : idx_main_v9 (idx_main_v13 (ix2 i j)) = ix1 i := funext fun a => by
    match a with
    | ⟨0, _⟩ => rfl
  have e12 : idx_main_v12 (idx_main_v14 (ix2 i j)) = ix1 j := funext fun a => by
    match a with
    | ⟨0, _⟩ => rfl
  rw [e9, e12, asq_apply, esq_apply, dot_apply]
  unfold Cert.Loss.dist
  rw [show val_main_cst_4 (F := Ideal) (idx_main_v21 (ix2 i j)) = Ideal.ofBits .f32 0x00000000#32 from rfl, Ideal.ofBits_zero_f32]
  rfl

/-! ## The take at the row's label -/

/-- With the label in range the normalised start index of row `i` is the label. -/
theorem idx_apply (x4 : IVec Cert.Loss.SB 32) (h4 : Cert.Loss.InRange x4) (i : Fin 4096) :
    val_main_call2_v5 (F := Ideal) x4 (ix3 i 0 0) = x4 (ix1 i) := by
  rw [val_main_call2_v5_apply, val_main_call2_v4_apply, val_main_call2_v1_apply, val_main_v24_apply,
    val_main_call2_v0_apply, val_main_call2_c_apply]
  have e : idx_main_v24 (idx_main_call2_v5 (ix3 i 0 0)) = ix1 i := funext fun a => by
    match a with
    | ⟨0, _⟩ => exact Fin.ext (by show ((i.val * 1 + 0) * 1 + 0) / 1 = i.val; omega)
  rw [e, cmp_slt_zero _ (h4 i).1, select_zero]

/-- With the label in range the bounds test of row `i` holds. -/
theorem valid_apply (x4 : IVec Cert.Loss.SB 32) (h4 : Cert.Loss.InRange x4) (i : Fin 4096) :
    val_main_call2_v12 (F := Ideal) x4 (ix2 i 0) = 1#1 := by
  unfold val_main_call2_v12
  refine reduce_and_ones _ _ _ _ (fun q => ?_) rfl _
  obtain ⟨p, a, b, rfl⟩ : ∃ (p : Fin 4096) (a b : Fin 1), q = ix3 p a b := ⟨q 0, q 1, q 2, eq_ix3 q⟩
  obtain rfl : a = 0 := Subsingleton.elim _ _
  obtain rfl : b = 0 := Subsingleton.elim _ _
  rw [val_main_call2_v11_apply, val_main_call2_v7_apply, val_main_call2_v10_apply, idx_apply x4 h4 p,
    val_main_call2_v6_apply, val_main_call2_c_2_apply, val_main_call2_v9_apply, val_main_call2_v8_apply,
    val_main_call2_c_1_apply, cmp_sge_zero _ (h4 p).1, cmp_sle_999 _ (h4 p).2]
  decide

/-- The gather, batched over the rows with the column axis collapsed, reads row `i` at its start index clamped into
    `[0, 999]`. -/
theorem gather_row_apply {α : Type} (x : S4096x1000.Idx → α) (idx : IVec S4096x1x1 32) (i : Fin 4096) (c : Fin 1000)
    (hc : min (idx (ix3 i 0 0)).toInt.toNat 999 = c.val) :
    Host.gather gather_S4096x1000_S4096x1x1_S4096x1_n_1_0_0_1_2_11 x idx (ix2 i 0) = x (ix2 i c) := by
  unfold Host.gather
  congr 1
  funext a
  refine Fin.ext ?_
  match a with
  | ⟨0, _⟩ =>
    show gather_S4096x1000_S4096x1x1_S4096x1_n_1_0_0_1_2_11.start (ix2 i 0) idx 0
      + gather_S4096x1000_S4096x1x1_S4096x1_n_1_0_0_1_2_11.batchCoord (ix2 i 0) 0
      + gather_S4096x1000_S4096x1x1_S4096x1_n_1_0_0_1_2_11.offCoord (ix2 i 0) 0 = i.val
    rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    rfl
  | ⟨1, _⟩ =>
    show gather_S4096x1000_S4096x1x1_S4096x1_n_1_0_0_1_2_11.start (ix2 i 0) idx 1
      + gather_S4096x1000_S4096x1x1_S4096x1_n_1_0_0_1_2_11.batchCoord (ix2 i 0) 1
      + gather_S4096x1000_S4096x1x1_S4096x1_n_1_0_0_1_2_11.offCoord (ix2 i 0) 1 = c.val
    rw [GatherDims.batchCoord_eq_zero _ _ _ (by decide),
      GatherDims.offCoord_eq_zero _ _ _ (fun h => ((GatherDims.mem_sKept _ _).mp h).1 (List.mem_singleton.mpr rfl))]
    unfold GatherDims.start
    rw [dif_pos (show (1 : Fin 2) ∈ gather_S4096x1000_S4096x1x1_S4096x1_n_1_0_0_1_2_11.startIndexMap from List.mem_singleton.mpr rfl)]
    have hsi : gather_S4096x1000_S4096x1x1_S4096x1_n_1_0_0_1_2_11.siIdx (ix2 i 0)
        ⟨List.idxOf (1 : Fin 2) gather_S4096x1000_S4096x1x1_S4096x1_n_1_0_0_1_2_11.startIndexMap,
          List.idxOf_lt_length_iff.2 (List.mem_singleton.mpr rfl)⟩ = ix3 i 0 0 := by
      funext b; refine Fin.ext ?_
      match b with
      | ⟨0, _⟩ => rfl
      | ⟨1, _⟩ => rfl
      | ⟨2, _⟩ => rfl
    rw [hsi]
    exact hc

/-- The taken entry of row `i` is the distance to the exemplar of the row's class. -/
theorem take_apply (x0 : FVec Ideal Cert.Loss.SBD .f32) (x4 : IVec Cert.Loss.SB 32) (x6 : FVec Ideal Cert.Loss.SCD .f32)
    (h4 : Cert.Loss.InRange x4) (i : Fin 4096) :
    val_main_v26 (F := Ideal) x0 x4 x6 (ix1 i) = Cert.Loss.dist x0 x6 i (Cert.Loss.cls (x4 (ix1 i))) := by
  rw [val_main_v26_apply]
  have e : idx_main_v26 (ix1 i) = ix2 i 0 := funext fun a => by
    match a with
    | ⟨0, _⟩ => exact Fin.ext (Nat.div_one _)
    | ⟨1, _⟩ => rfl
  rw [e, val_main_v25_apply, valid_apply x4 h4 i, select_one]
  have hc : min (val_main_call2_v5 (F := Ideal) x4 (ix3 i 0 0)).toInt.toNat 999 = (Cert.Loss.cls (x4 (ix1 i))).val := by
    rw [idx_apply x4 h4 i]; exact word_min _ (h4 i).1 (h4 i).2
  unfold val_main_call2_v13
  rw [gather_row_apply _ _ i _ hc]
  exact dall_apply x0 x6 i _

/-! ## The least entry, the row term, the sum -/

/-- The least entry of row `i` is the specification's least distance. -/
theorem min_apply (x0 : FVec Ideal Cert.Loss.SBD .f32) (x6 : FVec Ideal Cert.Loss.SCD .f32) (i : Fin 4096) :
    val_main_v27 (F := Ideal) x0 x6 (ix1 i) = Cert.Loss.distMin x0 x6 i := by
  have hR : S4096x1000.Reduces [1] S4096 := by decide
  unfold val_main_v27
  rw [Host.reduce_eq_fold_single (FloatOps.minimumf (F := Ideal) (φ := .f32)) _ _ reducesTo_S4096x1000_S4096_d1 hR h_S_ (ix1 i)]
  unfold Cert.Loss.distMin
  rw [show val_main_cst_5 (F := Ideal) (Shape.Idx.first h_S_) = Ideal.ofBits .f32 0x7F800000#32 from rfl, top_word]
  refine Finset.fold_congr fun k _ => ?_
  have el : hR.lift (ix1 i) k = ix2 i k := funext fun c => Fin.ext (by
    match c with
    | ⟨0, _⟩ => rfl
    | ⟨1, _⟩ => rfl)
  exact (congrArg (val_main_v23 (F := Ideal) x0 x6) el).trans (dall_apply x0 x6 i k)

/-- Row `i`'s term. -/
theorem row_apply (x0 : FVec Ideal Cert.Loss.SBD .f32) (x4 : IVec Cert.Loss.SB 32) (x6 : FVec Ideal Cert.Loss.SCD .f32)
    (h4 : Cert.Loss.InRange x4) (i : Fin 4096) :
    val_main_v29 (F := Ideal) x0 x4 x6 (ix1 i) = Cert.Loss.ctrRow x0 x6 x4 i := by
  rw [val_main_v29_apply, val_main_v28_apply, take_apply x0 x4 x6 h4 i, min_apply, val_main_call3_v0_apply]
  unfold Cert.Loss.ctrRow
  rw [show val_main_call3_cst (F := Ideal) (idx_main_call3_v0 (ix1 i)) = Ideal.ofBits .f32 0x00000000#32 from rfl, Ideal.ofBits_zero_f32]
  rfl

/-- The reference's centre term is the specification's. -/
theorem ref_ctr (x0 : FVec Ideal Cert.Loss.SBD .f32) (x4 : IVec Cert.Loss.SB 32) (x6 : FVec Ideal Cert.Loss.SCD .f32)
    (h4 : Cert.Loss.InRange x4) :
    Cert.ReferenceIdeal.Read.val_main_v30 (F := Ideal) x0 x4 x6 = fun _ => Cert.Loss.ctrLoss x0 x6 x4 := by
  funext q
  rw [val_main_v30_apply]
  rw [show val_main_cst_6 (F := Ideal) (Shape.Idx.first h_S_) = Ideal.ofBits .f32 0x00000000#32 from rfl, Ideal.ofBits_zero_f32, zero_add]
  unfold Cert.Loss.ctrLoss
  rw [← Equiv.sum_comp (idxEquiv1 (n := 4096)).symm (val_main_v29 (F := Ideal) x0 x4 x6)]
  exact Finset.sum_congr rfl fun i _ => row_apply x0 x4 x6 h4 i

end Cert.ReferenceIdeal.RefValue

end
-- ==== Proof.RefSm.lean ====
import proofs.«420762_j16913581211856_3_alg».proof.Proof.RefRun
import proofs.«420762_j16913581211856_3_alg».proof.Proof.Spec
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

/-! # The reference's cross entropy is the specification's

The reference lays the labels end to end (the anchors' twice, then the negatives'), takes the row-wise
log-softmax of the logits — subtract the row's maximum, subtract the logarithm of the sum of the shifted
exponentials —, picks in each row the entry at the row's label, sums the picked entries, divides by the number of
rows and negates. Row by row the picked entry is minus the specification's negative log-likelihood:

* the labels are classes (the precondition), so the index normalisation leaves them alone, the bounds tests hold, the
  gather's clamp is the identity and its start index is the label's class;
* every logit is a real, so a row's maximum (the fold of max from the bottom over a non-empty row) is a real, each
  shifted exponential is a positive real, their sum a positive real and its logarithm a real; on reals
  (x − m) − l = −(−(x − (m + l)));
* a finite sum of reals commutes with negation, and −(S / 12288) = (−S) / 12288. -/

noncomputable section

namespace Cert.ReferenceIdeal.RefValue

namespace Sm

open Cert.ReferenceIdeal Cert.ReferenceIdeal.Gen Cert.ReferenceIdeal.Read Idealize.ShloMosaic Idealize.ShloMosaic.ValueIdx

/-! ## Reading a concatenation, a row-wise gather and two reductions at an index -/

/-- Three pieces of 4096 laid end to end, read at a position. -/
theorem concat3_apply {α : Type} (h : Shape.Concatenates [S4096, S4096, S4096] S12288 0) (a b c : S4096.Idx → α)
    (i : Fin 12288) :
    concatenate S12288 0 [⟨S4096, a⟩, ⟨S4096, b⟩, ⟨S4096, c⟩] h (ix1 i) =
      if h1 : i.val < 4096 then a (ix1 ⟨i.val, h1⟩)
      else if h2 : i.val < 8192 then b (ix1 ⟨i.val - 4096, by omega⟩)
      else c (ix1 ⟨i.val - 8192, by have := i.isLt; omega⟩) := by
  by_cases h1 : i.val < 4096
  · rw [dif_pos h1]
    exact concatenate_apply_piece (t := S12288) 0 [⟨S4096, a⟩, ⟨S4096, b⟩, ⟨S4096, c⟩] h (ix1 i) 0 (Nat.zero_lt_succ _)
      S4096 a rfl rfl 0 rfl (ix1 ⟨i.val, h1⟩)
      (fun b hb => absurd (Subsingleton.elim _ _) hb) (by show 0 + i.val = i.val; omega)
  · rw [dif_neg h1]
    by_cases h2 : i.val < 8192
    · rw [dif_pos h2]
      exact concatenate_apply_piece (t := S12288) 0 [⟨S4096, a⟩, ⟨S4096, b⟩, ⟨S4096, c⟩] h (ix1 i) 1 (by show 1 < 3; omega)
        S4096 b rfl rfl 4096 rfl (ix1 ⟨i.val - 4096, by omega⟩)
        (fun b hb => absurd (Subsingleton.elim _ _) hb) (by show 4096 + (i.val - 4096) = i.val; omega)
    · rw [dif_neg h2]
      exact concatenate_apply_piece (t := S12288) 0 [⟨S4096, a⟩, ⟨S4096, b⟩, ⟨S4096, c⟩] h (ix1 i) 2 (by show 2 < 3; omega)
        S4096 c rfl rfl 8192 rfl (ix1 ⟨i.val - 8192, by have := i.isLt; omega⟩)
        (fun b hb => absurd (Subsingleton.elim _ _) hb) (by show 8192 + (i.val - 8192) = i.val; omega)

/-- The dimension numbers of a row-wise take: operand [N × M], start indices [N × 1 × 1], result [N × 1]; axis 0 is a
    batching axis of both, axis 1 of the operand is collapsed and start-indexed, the index vector on axis 2. -/
abbrev rowDims (N M : Nat) (wf : GatherDims.WF ⟨2, ![N, M]⟩ ⟨3, ![N, 1, 1]⟩ ⟨2, ![N, 1]⟩ [] [1] [0] [1] [0] 2 ![1, 1]) :
    GatherDims ⟨2, ![N, M]⟩ ⟨3, ![N, 1, 1]⟩ ⟨2, ![N, 1]⟩ where
  offsetDims := []
  collapsedSliceDims := [1]
  operandBatchingDims := [0]
  startIndicesBatchingDims := [0]
  startIndexMap := [1]
  indexVectorDim := 2
  sliceSizes := ![1, 1]
  wf := wf

/-- Row i of the result reads row i of the operand at the row's start index, read signed and clamped into the row. -/
theorem gather_rows_apply {α : Type} {N M w : Nat} (hM : 0 < M)
    (wf : GatherDims.WF ⟨2, ![N, M]⟩ ⟨3, ![N, 1, 1]⟩ ⟨2, ![N, 1]⟩ [] [1] [0] [1] [0] 2 ![1, 1])
    (x : (⟨2, ![N, M]⟩ : Shape).Idx → α) (idx : IVec ⟨3, ![N, 1, 1]⟩ w) (i : Fin N) :
    Host.gather (rowDims N M wf) x idx (ix2 i (0 : Fin 1))
      = x (ix2 i ⟨min (idx (ix3 i (0 : Fin 1) (0 : Fin 1))).toInt.toNat (M - 1), by omega⟩) := by
  unfold Host.gather
  congr 1
  funext a
  refine Fin.ext ?_
  match a with
  | ⟨0, _⟩ =>
    show (rowDims N M wf).start (ix2 i (0 : Fin 1)) idx 0 + (rowDims N M wf).batchCoord (ix2 i (0 : Fin 1)) 0
      + (rowDims N M wf).offCoord (ix2 i (0 : Fin 1)) 0 = i.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (rowDims N M wf).operandBatchingDims from List.mem_singleton.mpr rfl)]
    rfl
  | ⟨1, _⟩ =>
    show (rowDims N M wf).start (ix2 i (0 : Fin 1)) idx 1 + (rowDims N M wf).batchCoord (ix2 i (0 : Fin 1)) 1
      + (rowDims N M wf).offCoord (ix2 i (0 : Fin 1)) 1 = min (idx (ix3 i (0 : Fin 1) (0 : Fin 1))).toInt.toNat (M - 1)
    rw [GatherDims.batchCoord_eq_zero _ _ _ (show (1 : Fin 2) ∉ ([0] : List (Fin 2)) by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (rowDims N M wf).startIndexMap from List.mem_singleton.mpr rfl)]
    have hsi : (rowDims N M wf).siIdx (ix2 i (0 : Fin 1)) ⟨List.idxOf (1 : Fin 2) (rowDims N M wf).startIndexMap,
        List.idxOf_lt_length_iff.2 (List.mem_singleton.mpr rfl)⟩ = ix3 i (0 : Fin 1) (0 : Fin 1) := by
      funext b; refine Fin.ext ?_
      match b with
      | ⟨0, _⟩ => rfl
      | ⟨1, _⟩ => rfl
      | ⟨2, _⟩ => rfl
    rw [hsi]
    rfl

/-- The same, with the start index and its clamp named. -/
theorem gather_rows_apply' {α : Type} {N M w : Nat} (hM : 0 < M)
    (wf : GatherDims.WF ⟨2, ![N, M]⟩ ⟨3, ![N, 1, 1]⟩ ⟨2, ![N, 1]⟩ [] [1] [0] [1] [0] 2 ![1, 1])
    (x : (⟨2, ![N, M]⟩ : Shape).Idx → α) (idx : IVec ⟨3, ![N, 1, 1]⟩ w) (i : Fin N)
    (l : BitVec w) (hl : idx (ix3 i (0 : Fin 1) (0 : Fin 1)) = l) (c : Fin M) (hc : min l.toInt.toNat (M - 1) = c.val) :
    Host.gather (rowDims N M wf) x idx (ix2 i (0 : Fin 1)) = x (ix2 i c) := by
  rw [gather_rows_apply hM wf x idx i]
  subst hl
  exact congrArg x (congrArg (ix2 i) (Fin.ext hc))

theorem red1 : S12288x1000.Reduces [1] S12288 := by decide
theorem red2 : S12288x1x1.Reduces [2] S12288x1 := by decide

/-- Over a row index, the operand index with column k. -/
theorem lift1 (i : Fin 12288) (k : Fin 1000) : red1.lift (ix1 i) k = ix2 i k := by
  funext c
  refine Fin.ext ?_
  show red1.liftVal (ix1 i) k.val c = (ix2 i k c).val
  match c with
  | ⟨0, _⟩ => rfl
  | ⟨1, _⟩ => rfl

theorem lift2 (i : Fin 12288) (k : Fin 1) : red2.lift (ix2 i (0 : Fin 1)) k = ix3 i (0 : Fin 1) (0 : Fin 1) := by
  funext c
  refine Fin.ext ?_
  show red2.liftVal (ix2 i (0 : Fin 1)) k.val c = (ix3 i (0 : Fin 1) (0 : Fin 1) c).val
  match c with
  | ⟨0, _⟩ => rfl
  | ⟨1, _⟩ => rfl
  | ⟨2, _⟩ => show k.val = 0; omega

theorem fold_fin_one {α : Type} (op : α → α → α) [Std.Commutative op] [Std.Associative op] (b : α) (f : Fin 1 → α) :
    (Finset.univ : Finset (Fin 1)).fold op b f = op (f 0) b := by
  rw [show (Finset.univ : Finset (Fin 1)) = {0} from rfl, Finset.fold_singleton]

/-- A maximum-reduce along the rows is, at a row, the fold of max over the row. -/
theorem reduce_max_row (h' : S12288x1000.ReducesTo [1] S12288) (hu : 0 < S_.numel) (x : S12288x1000.Idx → Ideal .f32)
    (init : S_.Idx → Ideal .f32) (i : Fin 12288) :
    Host.reduce (FloatOps.maximumf (F := Ideal) (φ := .f32)) x init h' hu (ix1 i)
      = (Finset.univ : Finset (Fin 1000)).fold max (init (Shape.Idx.first hu)) (fun k => x (ix2 i k)) := by
  rw [Host.reduce_eq_fold_single _ x init h' red1 hu (ix1 i)]
  show (Finset.univ : Finset (Fin 1000)).fold max (init (Shape.Idx.first hu)) (x ∘ red1.lift (ix1 i)) = _
  congr 1
  funext k
  exact congrArg x (lift1 i k)

/-- An and-reduce over an axis of extent one is the element and the initial value. -/
theorem reduce_and_one (h' : S12288x1x1.ReducesTo [2] S12288x1) (hu : 0 < S_.numel) (x : S12288x1x1.Idx → BitVec 1)
    (init : S_.Idx → BitVec 1) (i : Fin 12288) :
    Host.reduce IntOp.andi x init h' hu (ix2 i (0 : Fin 1))
      = IntOp.andi (x (ix3 i (0 : Fin 1) (0 : Fin 1))) (init (Shape.Idx.first hu)) := by
  rw [Host.reduce_eq_fold_single _ x init h' red2 hu (ix2 i (0 : Fin 1))]
  refine (fold_fin_one IntOp.andi _ (fun k => x (red2.lift (ix2 i (0 : Fin 1)) k))).trans ?_
  exact congrArg (fun t => IntOp.andi (x t) (init (Shape.Idx.first hu))) (lift2 i 0)

/-! ## A class label under the index normalisation, the bounds tests and the clamp -/

theorem label_cmp (l : BitVec 32) (h0 : 0 ≤ l.toInt) (h1 : l.toInt < 1000) :
    IntOp.cmpi .slt l 0#32 = 0#1 ∧ IntOp.cmpi .sge l 0#32 = 1#1 ∧ IntOp.cmpi .sle l 999#32 = 1#1 := by
  have z : (0#32 : BitVec 32).toInt = 0 := by decide
  have n : (999#32 : BitVec 32).toInt = 999 := by decide
  refine ⟨?_, ?_, ?_⟩
  · show BitVec.ofBool (l.slt 0#32) = 0#1
    rw [BitVec.slt, z, decide_eq_false (by omega)]; rfl
  · show BitVec.ofBool ((0#32 : BitVec 32).sle l) = 1#1
    rw [BitVec.sle, z, decide_eq_true (by omega)]; rfl
  · show BitVec.ofBool (l.sle 999#32) = 1#1
    rw [BitVec.sle, n, decide_eq_true (by omega)]; rfl

theorem label_clamp (l : BitVec 32) (h0 : 0 ≤ l.toInt) (h1 : l.toInt < 1000) :
    min l.toInt.toNat (1000 - 1) = l.toNat % 1000 := by
  have h := BitVec.toInt_eq_toNat_cond l
  have := l.isLt
  split at h <;> omega

/-! ## Reals among the extended reals -/

/-- The coercion of a finite sum of reals. -/
theorem coe_sum {ι : Type} (s : Finset ι) (g : ι → ℝ) : ∑ k ∈ s, ((g k : ℝ) : EReal) = ((∑ k ∈ s, g k : ℝ) : EReal) := by
  classical
  induction s using Finset.induction_on with
  | empty => simp
  | insert a s ha ih => rw [Finset.sum_insert ha, Finset.sum_insert ha, ih, EReal.coe_add]

/-- The greatest of finitely many (at least one) reals, folded from the bottom, is one of them. -/
theorem fold_max_real {n : Nat} (hn : 0 < n) (f : Fin n → EReal) (hf : ∀ k, ∃ r : ℝ, f k = (r : EReal)) :
    ∃ r : ℝ, (Finset.univ : Finset (Fin n)).fold max ⊥ f = (r : EReal) := by
  have hne : (Finset.univ : Finset (Fin n)).Nonempty := ⟨⟨0, hn⟩, Finset.mem_univ _⟩
  obtain ⟨k, -, hk⟩ := Finset.exists_mem_eq_sup (Finset.univ : Finset (Fin n)) hne f
  obtain ⟨r, hr⟩ := hf k
  refine ⟨r, ?_⟩
  rw [← hr, ← hk]
  rfl

/-- A sum of finitely many (at least one) positive reals is a positive real. -/
theorem sum_pos_real {n : Nat} (hn : 0 < n) (f : Fin n → EReal) (hf : ∀ k, ∃ r : ℝ, 0 < r ∧ f k = (r : EReal)) :
    ∃ r : ℝ, 0 < r ∧ ∑ k, f k = (r : EReal) := by
  choose g hg using hf
  refine ⟨∑ k, g k, Finset.sum_pos (fun k _ => (hg k).1) ⟨⟨0, hn⟩, Finset.mem_univ _⟩, ?_⟩
  rw [← coe_sum]
  exact Finset.sum_congr rfl fun k _ => (hg k).2

/-- The exponential of a difference of reals is a positive real. -/
theorem exp_sub_real (a b : ℝ) : ∃ r : ℝ, 0 < r ∧ Ideal.exp ((a : EReal) - (b : EReal)) = (r : EReal) :=
  ⟨Real.exp (a - b), Real.exp_pos _, by rw [← EReal.coe_sub, Ideal.exp_coe]⟩

/-- The logarithm of a positive real is a real. -/
theorem log_pos_real (r : ℝ) (hr : 0 < r) : Ideal.log (r : EReal) = ((Real.log r : ℝ) : EReal) := by
  rw [Ideal.log_coe, if_neg (not_le.2 hr)]

/-- The last three stages: minus the mean of the rows' terms is the mean of their negations. -/
theorem mean_neg {n : Nat} (γ : Fin n → ℝ) (c : ℝ) (hc : c ≠ 0) :
    -(Ideal.div (0 + ∑ i, ((γ i : ℝ) : EReal)) (c : EReal)) = Ideal.div (∑ i, ((-(γ i) : ℝ) : EReal)) (c : EReal) := by
  rw [Ideal.div_coe hc, Ideal.div_coe hc, zero_add, coe_sum, coe_sum, ← EReal.coe_mul, ← EReal.coe_mul, ← EReal.coe_neg,
    Finset.sum_neg_distrib]
  congr 1; ring

/-- The word of the divisor is the number of rows. -/
theorem ofBits_12288 : Ideal.ofBits .f32 0x46400000#32 = ((12288 : ℝ) : EReal) := by
  simp [Ideal.ofBits, Ideal.ieee, -EReal.coe_mul]; norm_num

/-- The word the maximum starts from is the bottom. -/
theorem ofBits_neg_inf : Ideal.ofBits .f32 0xFF800000#32 = ⊥ := by
  simp [Ideal.ofBits, Ideal.ieee]

/-! ## The labels -/

section Labels
variable (x4 x5 : IVec Cert.Loss.SB 32)

/-- The concatenated labels are the specification's. -/
theorem v0_apply (i : Fin 12288) : val_main_v0 (F := Ideal) x4 x5 (ix1 i) = Cert.Loss.lab x4 x5 i := by
  unfold val_main_v0
  rw [concat3_apply]
  rfl

theorem lab_inRange (h4 : Cert.Loss.InRange x4) (h5 : Cert.Loss.InRange x5) (i : Fin 12288) :
    0 ≤ (Cert.Loss.lab x4 x5 i).toInt ∧ (Cert.Loss.lab x4 x5 i).toInt < 1000 := by
  unfold Cert.Loss.lab
  split
  · exact h4 _
  · split
    · exact h4 _
    · exact h5 _

/-- The labels as a column. -/
theorem v2_apply (i : Fin 12288) : val_main_v2 (F := Ideal) x4 x5 (ix2 i (0 : Fin 1)) = Cert.Loss.lab x4 x5 i := by
  rw [val_main_v2_apply, ← v0_apply x4 x5 i]
  exact congrArg _ (funext fun a => match a with | ⟨0, _⟩ => rfl)

/-- The index normalisation leaves a class alone. -/
theorem call1_v4_apply (h4 : Cert.Loss.InRange x4) (h5 : Cert.Loss.InRange x5) (i : Fin 12288) :
    val_main_call1_v4 (F := Ideal) x4 x5 (ix2 i (0 : Fin 1)) = Cert.Loss.lab x4 x5 i := by
  obtain ⟨hlt, -, -⟩ := label_cmp _ (lab_inRange x4 x5 h4 h5 i).1 (lab_inRange x4 x5 h4 h5 i).2
  rw [val_main_call1_v4_apply, val_main_call1_v1_apply, v2_apply, val_main_call1_v0_apply, val_main_call1_c_apply, hlt,
    select_zero]

theorem call1_v5_apply (h4 : Cert.Loss.InRange x4) (h5 : Cert.Loss.InRange x5) (i : Fin 12288) :
    val_main_call1_v5 (F := Ideal) x4 x5 (ix3 i (0 : Fin 1) (0 : Fin 1)) = Cert.Loss.lab x4 x5 i := by
  rw [val_main_call1_v5_apply, ← call1_v4_apply x4 x5 h4 h5 i]
  exact congrArg _ (funext fun a => match a with
    | ⟨0, _⟩ => Fin.ext (by show ((i.val * 1 + 0) * 1 + 0) / 1 = i.val; omega)
    | ⟨1, _⟩ => rfl)

/-- Both bounds tests hold at a class. -/
theorem call1_v12_apply (h4 : Cert.Loss.InRange x4) (h5 : Cert.Loss.InRange x5) (i : Fin 12288) :
    val_main_call1_v12 (F := Ideal) x4 x5 (ix2 i (0 : Fin 1)) = 1#1 := by
  obtain ⟨-, hge, hle⟩ := label_cmp _ (lab_inRange x4 x5 h4 h5 i).1 (lab_inRange x4 x5 h4 h5 i).2
  unfold val_main_call1_v12
  rw [reduce_and_one, val_main_call1_v11_apply, val_main_call1_v7_apply, val_main_call1_v10_apply,
    call1_v5_apply x4 x5 h4 h5 i, val_main_call1_v6_apply, val_main_call1_c_2_apply, val_main_call1_v9_apply,
    val_main_call1_v8_apply, val_main_call1_c_1_apply, hge, hle, val_main_call1_c_3_apply]
  rfl

end Labels

/-! ## The log-softmax -/

section Rows
variable (x3 : FVec Ideal Cert.Loss.SNC .f32)

theorem call0_v0_apply (i : Fin 12288) : val_main_call0_v0 (F := Ideal) x3 (ix1 i) = Cert.Loss.rowMax x3 i := by
  unfold val_main_call0_v0
  rw [reduce_max_row, val_main_call0_cst_apply, Ideal.ofBits_def, ofBits_neg_inf]
  rfl

theorem call0_v2_apply (i : Fin 12288) : val_main_call0_v2 (F := Ideal) x3 (ix1 i) = Cert.Loss.rowMax x3 i := by
  rw [val_main_call0_v2_apply, val_main_call0_v1_apply, val_main_call0_cst_0_apply, call0_v0_apply, Ideal.maximumf_def,
    Ideal.ofBits_def, ofBits_neg_inf]
  exact max_bot_left _

theorem call0_v4_apply (i : Fin 12288) (j : Fin 1000) :
    val_main_call0_v4 (F := Ideal) x3 (ix2 i j) = Cert.Loss.rowMax x3 i := by
  rw [val_main_call0_v4_apply, val_main_call0_v3_apply, ← call0_v2_apply x3 i]
  exact congrArg _ (funext fun a => match a with | ⟨0, _⟩ => rfl)

theorem call0_v5_apply (i : Fin 12288) (j : Fin 1000) :
    val_main_call0_v5 (F := Ideal) x3 (ix2 i j) = x3 (ix2 i j) - Cert.Loss.rowMax x3 i := by
  rw [val_main_call0_v5_apply, call0_v4_apply, Ideal.subf_def]

theorem call0_v7_apply (i : Fin 12288) : val_main_call0_v7 (F := Ideal) x3 (ix1 i) = Cert.Loss.sumExp x3 i := by
  rw [val_main_call0_v7_apply, val_main_call0_cst_1_apply, Ideal.ofBits_def, Ideal.ofBits_zero_f32, zero_add]
  unfold Cert.Loss.sumExp
  refine Finset.sum_congr rfl fun k _ => ?_
  have e : idx_main_call0_v7 (ix1 i) k = ix2 i k := funext fun a => match a with | ⟨0, _⟩ => rfl | ⟨1, _⟩ => rfl
  rw [val_main_call0_v6_apply, Ideal.hostUnary_exp_def, e, call0_v5_apply]

theorem call0_v10_apply (i : Fin 12288) (j : Fin 1000) :
    val_main_call0_v10 (F := Ideal) x3 (ix2 i j) = Ideal.log (Cert.Loss.sumExp x3 i) := by
  rw [val_main_call0_v10_apply, val_main_call0_v9_apply, val_main_call0_v8_apply, Ideal.hostUnary_log_def,
    ← call0_v7_apply x3 i]
  exact congrArg _ (congrArg _ (funext fun a => match a with | ⟨0, _⟩ => rfl))

/-- The log-softmax at an entry. -/
theorem v1_apply (i : Fin 12288) (j : Fin 1000) :
    val_main_v1 (F := Ideal) x3 (ix2 i j)
      = (x3 (ix2 i j) - Cert.Loss.rowMax x3 i) - Ideal.log (Cert.Loss.sumExp x3 i) := by
  rw [val_main_v1_apply, call0_v5_apply, call0_v10_apply, Ideal.subf_def]

theorem rowMax_real (h3 : Cert.Loss.Finite x3) (i : Fin 12288) : ∃ m : ℝ, Cert.Loss.rowMax x3 i = (m : EReal) :=
  fold_max_real (by norm_num) _ fun k => h3 (ix2 i k)

theorem sumExp_real (h3 : Cert.Loss.Finite x3) (i : Fin 12288) :
    ∃ s : ℝ, 0 < s ∧ Cert.Loss.sumExp x3 i = (s : EReal) := by
  obtain ⟨m, hm⟩ := rowMax_real x3 h3 i
  unfold Cert.Loss.sumExp
  rw [hm]
  refine sum_pos_real (by norm_num) _ fun k => ?_
  obtain ⟨a, ha⟩ := h3 (ix2 i k)
  rw [ha]
  exact exp_sub_real a m

end Rows

/-! ## The picked entries and the mean -/

section Pick
variable (x3 : FVec Ideal Cert.Loss.SNC .f32) (x4 x5 : IVec Cert.Loss.SB 32)

/-- The gather takes, in each row, the entry at the row's class. -/
theorem call1_v13_apply (h4 : Cert.Loss.InRange x4) (h5 : Cert.Loss.InRange x5) (i : Fin 12288) :
    val_main_call1_v13 (F := Ideal) x3 x4 x5 (ix2 i (0 : Fin 1))
      = val_main_v1 (F := Ideal) x3 (ix2 i (Cert.Loss.cls (Cert.Loss.lab x4 x5 i))) := by
  unfold val_main_call1_v13
  exact gather_rows_apply' (N := 12288) (M := 1000) (by norm_num)
    Facts₀.gather_S12288x1000_S12288x1x1_S12288x1_n_1_0_0_1_2_11_wf (val_main_v1 (F := Ideal) x3)
    (val_main_call1_v5 (F := Ideal) x4 x5) i (Cert.Loss.lab x4 x5 i) (call1_v5_apply x4 x5 h4 h5 i)
    (Cert.Loss.cls (Cert.Loss.lab x4 x5 i))
    (label_clamp _ (lab_inRange x4 x5 h4 h5 i).1 (lab_inRange x4 x5 h4 h5 i).2)

theorem v3_apply (h4 : Cert.Loss.InRange x4) (h5 : Cert.Loss.InRange x5) (i : Fin 12288) :
    val_main_v3 (F := Ideal) x3 x4 x5 (ix2 i (0 : Fin 1))
      = (x3 (ix2 i (Cert.Loss.cls (Cert.Loss.lab x4 x5 i))) - Cert.Loss.rowMax x3 i)
        - Ideal.log (Cert.Loss.sumExp x3 i) := by
  rw [val_main_v3_apply, call1_v12_apply x4 x5 h4 h5 i, select_one, call1_v13_apply x3 x4 x5 h4 h5 i, v1_apply]

/-- Row by row: the picked entry is a real, and the specification's term is its negation. -/
theorem row_real (h3 : Cert.Loss.Finite x3) (h4 : Cert.Loss.InRange x4) (h5 : Cert.Loss.InRange x5) (i : Fin 12288) :
    ∃ γ : ℝ, val_main_v3 (F := Ideal) x3 x4 x5 (ix2 i (0 : Fin 1)) = (γ : EReal)
      ∧ Cert.Loss.nll x3 x4 x5 i = ((-γ : ℝ) : EReal) := by
  obtain ⟨m, hm⟩ := rowMax_real x3 h3 i
  obtain ⟨s, hs0, hs⟩ := sumExp_real x3 h3 i
  obtain ⟨a, ha⟩ := h3 (ix2 i (Cert.Loss.cls (Cert.Loss.lab x4 x5 i)))
  refine ⟨a - m - Real.log s, ?_, ?_⟩
  · rw [v3_apply x3 x4 x5 h4 h5 i, ha, hm, hs, log_pos_real s hs0, ← EReal.coe_sub, ← EReal.coe_sub]
  · unfold Cert.Loss.nll
    rw [ha, hm, hs, log_pos_real s hs0, ← EReal.coe_add, ← EReal.coe_sub, ← EReal.coe_neg]
    congr 1; ring

end Pick

end Sm

open Cert.ReferenceIdeal Cert.ReferenceIdeal.Gen Cert.ReferenceIdeal.Read Idealize.ShloMosaic Idealize.ShloMosaic.ValueIdx Sm in
/-- The reference's cross entropy is the specification's. -/
theorem ref_sm (x3 : FVec Ideal Cert.Loss.SNC .f32) (x4 x5 : IVec Cert.Loss.SB 32)
    (h3 : Cert.Loss.Finite x3) (h4 : Cert.Loss.InRange x4) (h5 : Cert.Loss.InRange x5) :
    Cert.ReferenceIdeal.Read.val_main_v6 (F := Ideal) x3 x4 x5 = fun _ => Cert.Loss.smLoss x3 x4 x5 := by
  funext j
  choose γ hγ using fun i => row_real x3 x4 x5 h3 h4 h5 i
  have e1 : ∑ a : Fin 12288, ∑ b : Fin 1, val_main_v3 (F := Ideal) x3 x4 x5 (ix2 a b)
      = ∑ a : Fin 12288, ((γ a : ℝ) : EReal) :=
    Finset.sum_congr rfl fun a _ => by rw [Fin.sum_univ_one]; exact (hγ a).1
  have e2 : ∑ i : Fin 12288, Cert.Loss.nll x3 x4 x5 i = ∑ i : Fin 12288, ((-(γ i) : ℝ) : EReal) :=
    Finset.sum_congr rfl fun a _ => (hγ a).2
  rw [val_main_v6_apply, val_main_v5_apply, val_main_v4_apply, val_main_cst_apply, val_main_cst_0_apply,
    Ideal.hostNegf_def, Ideal.negf_def, Ideal.hostDivf_def, Ideal.ofBits_def, Ideal.ofBits_def, Ideal.ofBits_zero_f32,
    ofBits_12288, sum_idx2, e1]
  show _ = Ideal.div (∑ i : Fin 12288, Cert.Loss.nll x3 x4 x5 i) (Ideal.ofBits .f32 0x46400000#32)
  rw [e2, ofBits_12288]
  exact mean_neg γ 12288 (by norm_num)

end Cert.ReferenceIdeal.RefValue

end
-- ==== Proof.RefTotal.lean ====
import proofs.«420762_j16913581211856_3_alg».proof.Proof.RefRun
import proofs.«420762_j16913581211856_3_alg».proof.Proof.RefTrip
import proofs.«420762_j16913581211856_3_alg».proof.Proof.RefCtr
import proofs.«420762_j16913581211856_3_alg».proof.Proof.RefSm
import proofs.«420762_j16913581211856_3_alg».proof.Proof.Spec

/-! The reference program's total is the cross entropy plus a tenth of the centre term plus the triplet term: its last
    three operations applied to the three results already identified with the specification's. -/

noncomputable section

namespace Cert.ReferenceIdeal.RefValue

open Cert.ReferenceIdeal Cert.ReferenceIdeal.Gen Cert.Loss Idealize.ShloMosaic

theorem ref_total (x0 x1 x2 : FVec Ideal SBD .f32) (x3 : FVec Ideal SNC .f32) (x4 x5 : IVec SB 32) (x6 : FVec Ideal SCD .f32)
    (h3 : Finite x3) (h4 : InRange x4) (h5 : InRange x5) :
    Cert.ReferenceIdeal.Read.val_main_v41 (F := Ideal) x0 x1 x2 x3 x4 x5 x6 = fun _ => totalLoss x0 x1 x2 x3 x4 x5 x6 := by
  funext i
  rw [Read.val_main_v41_apply, Read.val_main_v39_apply, Read.val_main_v40_apply, Read.val_main_v38_apply,
    ref_sm x3 x4 x5 h3 h4 h5, ref_ctr x0 x4 x6 h4, ref_trip x0 x1 x2, Read.val_main_cst_8_apply, Read.val_main_cst_9_apply]
  rfl

end Cert.ReferenceIdeal.RefValue

end
-- ==== Proof.PreDecode.lean ====
import proofs.«420762_j16913581211856_3_alg».proof.Proof.Gen.Pre_finite_inputs
import proofs.«420762_j16913581211856_3_alg».proof.Proof.Spec
import Idealize.ShloMosaic.Lib.ReduceAll

/-! # The precondition, read back at the extended reals

The precondition is a conjunction of seven "for all entries" statements: for each of the five float arrays that the
absolute value of every entry is below the word of plus infinity, and for each of the two label arrays that every
word, read signed, is at least 0 and below 1000. Each "for all" is an and-reduction of an array of one-bit words
that came out 1, so every one of its entries is 1.

* An extended real whose absolute value `max x (-x)` is strictly below `⊤` is neither `⊥` nor `⊤`: it is a real.
* A signed comparison word that is 1 says the inequality of the signed readings; the words 0 and 1000 read 0 and 1000. -/

noncomputable section

namespace Cert.Loss

open Idealize.ShloMosaic Idealize.ShloMosaic.ValueIdx

/-- The shape with no axes has one index. -/
instance subsingleton_S0_idx : Subsingleton S0.Idx := ⟨fun a b => funext fun d => d.elim0⟩

/-- The word `0x7F800000` denotes plus infinity. -/
theorem ofBits_inf_f32 : Ideal.ofBits .f32 0x7F800000#32 = (⊤ : EReal) := by simp [Ideal.ofBits, Ideal.ieee]

/-- An extended real whose absolute value is strictly below plus infinity is a real. -/
theorem real_of_abs_lt_inf (x : EReal) (h : Ideal.cmp .olt (max x (-x)) (Ideal.ofBits .f32 0x7F800000#32) = 1#1) :
    ∃ r : ℝ, x = (r : EReal) := by
  rw [ofBits_inf_f32] at h
  induction x using EReal.rec with
  | bot => simp [Ideal.cmp] at h
  | coe r => exact ⟨r, rfl⟩
  | top => simp [Ideal.cmp] at h

/-- "All entries have absolute value below plus infinity", as the predicate spells it, gives an array of reals. -/
theorem finite_of_all {s : Shape} {axes : List (Fin s.rank)} (x : FVec Ideal s .f32) (hb : S0.BroadcastsInDim s ![])
    (hr : s.ReducesTo axes S0) (hu : 0 < S0.numel)
    (h : Host.reduce IntOp.andi
          (cmpf .olt (Host.absf x) (broadcastInDim s ![] hb (constant (F := Ideal) S0 .f32 0x7F800000#32)))
          (constantI S0 1 1#1) hr hu ix0 = 1#1) : Finite x := by
  intro i
  have e := Host.reduce_andi_all _ _ hr hu ix0 h i
  exact real_of_abs_lt_inf (x i) e

/-- "All labels are at least 0 and below 1000, signed", as the predicate spells it. -/
theorem inRange_of_all {axes : List (Fin SB.rank)} (l : IVec SB 32) (hb : S0.BroadcastsInDim SB ![])
    (hr : SB.ReducesTo axes S0) (hu : 0 < S0.numel)
    (h : Host.reduce IntOp.andi
          (andi (cmpi .sge l (broadcastInDim SB ![] hb (constantI S0 32 0#32)))
                (cmpi .slt l (broadcastInDim SB ![] hb (constantI S0 32 1000#32))))
          (constantI S0 1 1#1) hr hu ix0 = 1#1) : InRange l := by
  intro i
  have e := Host.reduce_andi_all _ _ hr hu ix0 h (ix1 i)
  obtain ⟨e1, e2⟩ := IntOp.andi_eq_one.1 e
  have e1' : (0#32 : BitVec 32).toInt ≤ (l (ix1 i)).toInt := IntOp.cmpi_sge.1 e1
  have e2' : (l (ix1 i)).toInt < (1000#32 : BitVec 32).toInt := IntOp.cmpi_slt.1 e2
  rw [show (0#32 : BitVec 32).toInt = 0 from by decide] at e1'
  rw [show (1000#32 : BitVec 32).toInt = 1000 from by decide] at e2'
  exact ⟨e1', e2'⟩

/-- The precondition at the extended reals: every float entry is a real and every label is a class. -/
theorem decode_pre (A P N : FVec Ideal SBD .f32) (X : FVec Ideal SNC .f32) (la ln : IVec SB 32) (E : FVec Ideal SCD .f32)
    (h : Cert.Pre_finite_inputs.fn (F := Ideal) A P N X la ln E = fun _ => 1#1) :
    Finite A ∧ Finite P ∧ Finite N ∧ Finite X ∧ Finite E ∧ InRange la ∧ InRange ln := by
  have e := congrFun h ix0
  dsimp only [Cert.Pre_finite_inputs.fn, Cert.Pre_finite_inputs.fn_part1, Cert.Pre_finite_inputs.fn_part2] at e
  obtain ⟨e6, hln⟩ := IntOp.andi_eq_one.1 e
  obtain ⟨e5, hla⟩ := IntOp.andi_eq_one.1 e6
  obtain ⟨e4, hE⟩ := IntOp.andi_eq_one.1 e5
  obtain ⟨e3, hX⟩ := IntOp.andi_eq_one.1 e4
  obtain ⟨e2, hN⟩ := IntOp.andi_eq_one.1 e3
  obtain ⟨hA, hP⟩ := IntOp.andi_eq_one.1 e2
  exact ⟨finite_of_all A _ _ _ hA, finite_of_all P _ _ _ hP, finite_of_all N _ _ _ hN, finite_of_all X _ _ _ hX,
    finite_of_all E _ _ _ hE, inRange_of_all la _ _ _ hla, inRange_of_all ln _ _ _ hln⟩

end Cert.Loss

end
-- ==== Proof.lean ====
/- The certificate: the two kernel programs and the reference run to the end and leave their inputs unchanged, and
   at the ideal instance the kernel program and the reference end with the same four losses.

   Both kernel programs are five stretches — host operations, the cross-entropy kernel region, host operations, the
   fused triplet and centre kernel region, host operations — and their run is assembled per program from each
   region's body run and proof data (Proof/KI, Proof/K). The four results are then read off the run's last
   contents: a region's output array holds, tile by tile, its block's partial sum spread over a [8, 128] tile, and the
   host sum of the tiles divided by 1024 is the sum of the partial sums, so each loss is the specification's
   closed form (Proof/Spec.lean) of the argument arrays. The reference's results are the same closed forms,
   stage by stage. The precondition is used twice: the labels lie in [0, 1000), so the kernel's comparison of
   the label with the class index picks exactly the entry the reference gathers, and the logits are finite, so
   the reference's (x - m) - log s and the kernel's x - (m + log s) agree and the negation passes through the sum. -/
import proofs.«420762_j16913581211856_3_alg».proof.Defs
import proofs.«420762_j16913581211856_3_alg».proof.Proof.Gen.Kernel
import proofs.«420762_j16913581211856_3_alg».proof.Proof.Gen.KernelIdeal
import proofs.«420762_j16913581211856_3_alg».proof.Proof.Gen.ReferenceIdeal
import proofs.«420762_j16913581211856_3_alg».proof.Proof.Gen.Pre_finite_inputs
import proofs.«420762_j16913581211856_3_alg».proof.Proof.K.Run
import proofs.«420762_j16913581211856_3_alg».proof.Proof.KI.Run
import proofs.«420762_j16913581211856_3_alg».proof.Proof.KValTotal
import proofs.«420762_j16913581211856_3_alg».proof.Proof.RefRunT
import proofs.«420762_j16913581211856_3_alg».proof.Proof.RefTotal
import proofs.«420762_j16913581211856_3_alg».proof.Proof.PreDecode

set_option maxRecDepth 16384

noncomputable section

namespace Cert.Proof

open Idealize.ShloMosaic Idealize.ShloMosaic.TcCoe Idealize.SL.Sem Cert.Loss

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2.2.2.2) (Cert.ReferenceIdeal.Value.run (F := Ideal) m ρ)

theorem preserves : Cert.preserves_Kernel_KernelIdeal := trivial

/-- Both programs end with the specification's four losses of the arguments: the kernel's read off its run's last
    contents, the reference's off its stages. -/
theorem algebraic : Cert.algebraic_KernelIdeal_ReferenceIdeal := by
  intro m ρ m' ρ' hpre hagree
  have hd := fun c : Dev Cert.KernelIdeal.nD => decode_pre _ _ _ _ _ _ _ (hpre c)
  refine ⟨fun c _ => totalLoss (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c _ => tripLoss (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c _ => smLoss (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c _ => ctrLoss (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg4)), ?_, ?_⟩
  · refine (θ_run Cert.KernelIdeal.defs _ _).mono (fun r h c => ?_) (Cert.KernelIdeal.Fr.run_all (F := Ideal) m ρ)
    obtain ⟨-, -, -, -, -, hla, hln⟩ := hd c
    exact ⟨(h c _ (Cert.KernelIdeal.Fr.mem_uc Cert.KernelIdeal.main_v19 (by decide))).trans (Cert.KernelIdeal.KV.kv_total m ρ c hla hln),
      (h c _ (Cert.KernelIdeal.Fr.mem_uc Cert.KernelIdeal.main_v13 (by decide))).trans (Cert.KernelIdeal.KV.kv_trip m ρ c),
      (h c _ (Cert.KernelIdeal.Fr.mem_uc Cert.KernelIdeal.main_v5 (by decide))).trans (Cert.KernelIdeal.KV.kv_sm m ρ c hla hln),
      (h c _ (Cert.KernelIdeal.Fr.mem_uc Cert.KernelIdeal.main_v15 (by decide))).trans (Cert.KernelIdeal.KV.kv_ctr m ρ c hla),
      (h c _ (Cert.KernelIdeal.Fr.mem_uc Cert.KernelIdeal.main_arg0 (by decide))).trans (Cert.KernelIdeal.Fr.W5_main_arg0 m ρ c),
      (h c _ (Cert.KernelIdeal.Fr.mem_uc Cert.KernelIdeal.main_arg1 (by decide))).trans (Cert.KernelIdeal.Fr.W5_main_arg1 m ρ c),
      (h c _ (Cert.KernelIdeal.Fr.mem_uc Cert.KernelIdeal.main_arg2 (by decide))).trans (Cert.KernelIdeal.Fr.W5_main_arg2 m ρ c),
      (h c _ (Cert.KernelIdeal.Fr.mem_uc Cert.KernelIdeal.main_arg3 (by decide))).trans (Cert.KernelIdeal.Fr.W5_main_arg3 m ρ c),
      (h c _ (Cert.KernelIdeal.Fr.mem_uc Cert.KernelIdeal.main_arg4 (by decide))).trans (Cert.KernelIdeal.Fr.W5_main_arg4 m ρ c),
      (h c _ (Cert.KernelIdeal.Fr.mem_uc Cert.KernelIdeal.main_arg5 (by decide))).trans (Cert.KernelIdeal.Fr.W5_main_arg5 m ρ c),
      (h c _ (Cert.KernelIdeal.Fr.mem_uc Cert.KernelIdeal.main_arg6 (by decide))).trans (Cert.KernelIdeal.Fr.W5_main_arg6 m ρ c)⟩
  · refine (θ_run Cert.ReferenceIdeal.defs _ _).mono (fun r h c => ?_) (Cert.ReferenceIdeal.Value.run (F := Ideal) m' ρ')
    obtain ⟨-, -, -, hX, -, hla, hln⟩ := hd c
    obtain ⟨e0, e1, e2, e3, e4, e5, e6⟩ := hagree c
    obtain ⟨r0, r1, r2, r3, rargs⟩ := h c
    refine ⟨?_, ?_, ?_, ?_, rargs⟩
    · rw [r0, Cert.ReferenceIdeal.Read.val_main_v41_eq, e0, e1, e2, e3, e4, e5, e6]
      exact Cert.ReferenceIdeal.RefValue.ref_total _ _ _ _ _ _ _ hX hla hln
    · rw [r1, Cert.ReferenceIdeal.Read.val_main_v37_eq, e0, e1, e2]
      exact Cert.ReferenceIdeal.RefValue.ref_trip _ _ _
    · rw [r2, Cert.ReferenceIdeal.Read.val_main_v6_eq, e3, e4, e5]
      exact Cert.ReferenceIdeal.RefValue.ref_sm _ _ _ hX hla hln
    · rw [r3, Cert.ReferenceIdeal.Read.val_main_v30_eq, e0, e4, e6]
      exact Cert.ReferenceIdeal.RefValue.ref_ctr _ _ _ hla

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
